-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S16x128 : Shape := ⟨2, ![16, 128]⟩
abbrev S256x128 : Shape := ⟨2, ![256, 128]⟩
abbrev S256x1 : Shape := ⟨2, ![256, 1]⟩
abbrev S8x128 : Shape := ⟨2, ![8, 128]⟩
abbrev S1x1 : Shape := ⟨2, ![1, 1]⟩
abbrev S256x8192 : Shape := ⟨2, ![256, 8192]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 29
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S8192x1, .i32⟩
  | .hbm, ⟨14, _⟩ => ⟨S1x8192, .i32⟩
  | .hbm, ⟨15, _⟩ => ⟨S16x128, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S8x128, .f32⟩
  | .local _ .vmem, ⟨7, _⟩ => ⟨S8x128, .f32⟩
  | .local _ .vmem, ⟨8, _⟩ => ⟨S1x1, .f32⟩
  | .local _ .vmem, ⟨9, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v98 : BitVec 1 := Scalar.cmpi .eq arg1 c15_i32
  let v99 : BitVec 32 := Scalar.extui v98
  let c0_i32_39 : BitVec 32 := 0#32
  let v100 : BitVec 1 := Scalar.cmpi .ne v99 c0_i32_39
  v100

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  iota_S256x1_d0_w32 : S256x1.Iotas .tc 32 [0]
  iota_S1x8192_d1_w32 : S1x8192.Iotas .tc 32 [1]
  reduces_S256x8192_S256 : S256x8192.Reduces [1] S256
  shapeCasts_S256_S256x1 : S256.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inpos_S1x1_p0_0 : ∀ a, (![0, 0] : Fin 2 → Nat) a < S1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v5) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .i1⟩
  | .hbm, ⟨36, _⟩ => ⟨S8192, .i1⟩
  | .hbm, ⟨37, _⟩ => ⟨S_, .i1⟩
  | .hbm, ⟨38, _⟩ => ⟨S8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .i1⟩
  | .hbm, ⟨52, _⟩ => ⟨S8192x8192, .i1⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x8192, .f32⟩
  | .hbm, ⟨58, _⟩ => ⟨S8192x8192, .i1⟩
  | .hbm, ⟨59, _⟩ => ⟨S8192x8192, .i1⟩
  | .hbm, ⟨60, _⟩ => ⟨S_, .i1⟩
  | .hbm, ⟨61, _⟩ => ⟨S8192, .i1⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .i1⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_call2_v0 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_call3_v0 : Ref sig .tc := ⟨.hbm, 46, rfl⟩
abbrev main_call3_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_cst_9 : Ref sig .tc := ⟨.hbm, 62, rfl⟩
abbrev main_call4_v0 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_cst_11 : Ref sig .tc := ⟨.hbm, 67, rfl⟩
abbrev main_call5_v0 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_call7_cst : Ref sig .tc := ⟨.hbm, 78, rfl⟩
abbrev main_call7_v0 : Ref sig .tc := ⟨.hbm, 79, rfl⟩
abbrev main_v49 : Ref sig .tc := ⟨.hbm, 80, rfl⟩
abbrev main_cst_14 : Ref sig .tc := ⟨.hbm, 81, rfl⟩
abbrev main_call8_v0 : Ref sig .tc := ⟨.hbm, 82, rfl⟩
abbrev main_call8_v1 : Ref sig .tc := ⟨.hbm, 83, rfl⟩
abbrev main_v50 : Ref sig .tc := ⟨.hbm, 84, rfl⟩
abbrev main_v51 : Ref sig .tc := ⟨.hbm, 85, rfl⟩
abbrev main_c_15 : Ref sig .tc := ⟨.hbm, 86, rfl⟩
abbrev main_v52 : Ref sig .tc := ⟨.hbm, 87, rfl⟩
abbrev main_c_16 : Ref sig .tc := ⟨.hbm, 88, rfl⟩
abbrev main_v53 : Ref sig .tc := ⟨.hbm, 89, rfl⟩
abbrev main_cst_17 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Runs.lean ====
import proofs.«419832_j8873402433633_3_alg».proof.Proof.Gen.Kernel.Launch
import proofs.«419832_j8873402433633_3_alg».proof.Proof.Gen.Kernel.Skeleton
import proofs.«419832_j8873402433633_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# What the three cases of the body share

The body of the one pallas_call branches twice on the inner grid coordinate: at the first inner step of a core
(points ≡ 0 mod 16) it resets the two one-word scratch accumulators, and at the last (points ≡ 15 mod 16) it
writes the accumulated sum and count into its output block. So a point is in one of three cases — first,
middle, last — and the output window is idle (and not written back) except in the last. This module fixes
what the cases are stated over: the branch conditions in closed form, where the output window is idle, the
staging and scratch memrefs, the region's entry contents and the windows' blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents -/

/-- Core `c`'s buffer contents when the region is entered: after the two stretches of host operations (the row
    norms, then the normalised rows and the two reshapes of the labels). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, in closed form over the grid -/

/-- The first branch (reset the accumulators): the inner coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch (write the output block): the inner coordinate is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last inner step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last inner step it is live. -/
theorem liveAt0_4 : ∀ t : Fin cfg0.N, cond0_1 (grid0.coords t) → cfg0.idle 4 (grid0.coords t) = false := by decide +kernel

/-! ## The staging and scratch memrefs -/

abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The two one-word accumulators: the running sum of the row losses and the running count of valid rows. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view
/-- One staging buffer of the output window, through which its contents are stated. -/
abbrev VO0_4 : View sig .tc .vmem S8x128 .f32 := (Memref.whole cc0_stg4_0 : Memref sig .tc .vmem S8x128 .f32).view

/-- The region's invariant before the first point: the two accumulators at anything, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
import proofs.«419832_j8873402433633_3_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at the first inner step of a core

The inner coordinate is zero and not the last: the body first stores zero into both accumulators, then loads the
four input blocks, and adds this step's sum of row losses and count of valid rows onto the zeros just stored.
The output block is not touched. -/

set_option maxHeartbeats 4000000 in
/-- The pieces the body's stores leave in the output's staging buffer (none) and in the two accumulators (two
    each: the zero, then the step's contribution added to it), with the proof that on whole memrefs — the
    inputs' at their blocks, the output's at contents handed back untouched, the accumulators at anything — the
    body runs to a continuation that holds the inputs and the output as they were and the accumulators with
    those pieces written. -/
noncomputable def kernelRun0_A (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) :
    Σ' (L4 : List (View.Piece (Elt F) S8x128 .f32)) (LS0 : List (View.Piece (Elt F) S1x1 .f32)), { LS1 : List (View.Piece (Elt F) S1x1 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, ?_, fun xi4 E K => ?run⟩
  case run =>
    simp only [cc0_kernel_eq_skeleton]; unfold cc0_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.RunB.lean ====
import proofs.«419832_j8873402433633_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at a middle inner step

The inner coordinate is neither zero nor the last: the body loads the four input blocks and adds this step's sum
of row losses and count of valid rows onto what the step before left in the accumulators. The output block is
not touched. -/

set_option maxHeartbeats 4000000 in
/-- The pieces the body's stores leave in the output's staging buffer (none) and in the two accumulators (one
    each: the step's contribution added to the carried value), with the proof that on whole memrefs — the
    inputs' at their blocks, the output's at contents handed back untouched, the accumulators at what the step
    before left — the body runs to a continuation that holds the inputs and the output as they were and the
    accumulators with those pieces written. -/
noncomputable def kernelRun0_B (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    Σ' (L4 : List (View.Piece (Elt F) S8x128 .f32)) (LS0 : List (View.Piece (Elt F) S1x1 .f32)), { LS1 : List (View.Piece (Elt F) S1x1 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, ?_, fun xi4 E K => ?run⟩
  case run =>
    simp only [cc0_kernel_eq_skeleton]; unfold cc0_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.RunC.lean ====
import proofs.«419832_j8873402433633_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at the last inner step of a core

The inner coordinate is the last (and not zero): the body loads the four input blocks, adds this step's sum of
row losses and count of valid rows onto what the step before left in the accumulators, then reads both
accumulators back and stores the output block computed from them, whole. -/

set_option maxHeartbeats 4000000 in
/-- The pieces the body's stores leave in the output's staging buffer (one: the block computed from the two
    accumulators) and in the two accumulators (one each), with the proof that on whole memrefs — the inputs' at
    their blocks, the output's at anything, the accumulators at what the step before left — the body runs to a
    continuation that holds the inputs as they were and the output and the accumulators with those pieces
    written. -/
noncomputable def kernelRun0_C (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    Σ' (L4 : List (View.Piece (Elt F) S8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.K.Frame.lean ====
import proofs.«419832_j8873402433633_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The body's part of the frame certificate

What the three cases of the body leave in the output's staging buffer and in the two accumulators, point by
point; the pipeline's proof data built from it; and the body obligation at every point.
-/

/-- At the first inner step the body stores nothing into the output block: no pieces, so this reads junk back. Nothing
    consults it: the window is idle there, neither written back nor read at the next point. -/
def out0_A_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) : Vec F S8x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- At the first inner step the stores into the running sum cover its one word. -/
theorem scover0_A_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) (y : S1x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1x1.size (by sl_kernel_rfl) y

/-- What the first inner step leaves in the running sum: its pieces read back over junk. -/
def sout0_A_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- At the first inner step the stores into the running count cover its one word. -/
theorem scover0_A_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) (y : S1x1.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1x1.size (by sl_kernel_rfl) y

/-- What the first inner step leaves in the running count: its pieces read back over junk. -/
def sout0_A_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- At a middle inner step the body stores nothing into the output block: no pieces, so this reads junk back. Nothing
    consults it: the window is idle there, neither written back nor read at the next point. -/
def out0_B_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S8x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- At a middle inner step the stores into the running sum cover its one word. -/
theorem scover0_B_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1x1.size (by sl_kernel_rfl) y

/-- What a middle inner step leaves in the running sum: its pieces read back over junk. -/
def sout0_B_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- At a middle inner step the stores into the running count cover its one word. -/
theorem scover0_B_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1x1.size (by sl_kernel_rfl) y

/-- What a middle inner step leaves in the running count: its pieces read back over junk. -/
def sout0_B_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- At the last inner step the one store into the output block covers it. -/
theorem cover0_C_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S8x128.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S8x128.size (by sl_kernel_rfl) y

/-- What the last inner step leaves in the output's staging buffer: its piece read back over junk. -/
def out0_C_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S8x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- At the last inner step the stores into the running sum cover its one word. -/
theorem scover0_C_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1x1.size (by sl_kernel_rfl) y

/-- What the last inner step leaves in the running sum: its pieces read back over junk. -/
def sout0_C_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- At the last inner step the stores into the running count cover its one word. -/
theorem scover0_C_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1x1.size (by sl_kernel_rfl) y

/-- What the last inner step leaves in the running count: its pieces read back over junk. -/
def sout0_C_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-! ## What the output block and the accumulators hold after each point -/

/-- After the body at position `n`: the output's staging buffer, the running sum and the running count (in that
    order). At a first inner step the accumulators are what the step's stores make of zero; at the other steps what
    they make of the values the point before left; the output block is stored at the last inner steps only. The
    first and the last inner step never coincide. -/
def outsAt0 (c : Dev nD) : (n : ℕ) → n < cfg0.N → Vec F S8x128 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- At a first inner step. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle inner step: over what the point before left in the accumulators. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last inner step: over what the point before left in the accumulators. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point both accumulators at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the accumulators at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- An input window's current staging buffer holds the window's block at every point, fetched there or not: a body
    that leaves the block in place finds, where nothing was fetched, the block of the point before, and the block
    index has not moved. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the pipeline on core `c`: the arrays as the region finds them; after the body each input's
    buffer at its block and the output's at `outsAt0`'s first component; the invariant `PhiS`; nothing owed. The
    first two windows stage one array, so each holds half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := fun
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the position says which of the three cases the
    point is in, and that case's run applies. The invariant hands the body the accumulators — at anything before
    the first point, else at what the point before left — and takes them back at this point's contents, which the
    case's stores cover. Off the last inner steps the output's buffer is handed back as found. The core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the entry invariant back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.K.Shared.lean ====
import proofs.«419832_j8873402433633_3_alg».proof.Proof.K.Runs

/-!
# The windows' arrays in and out of the core's buffers, two windows on one array

Windows 0 and 1 of the pallas_call stage the same array (the normalised rows, once tile by tile and once whole).
Both only read it, so the array's full share is dealt to them in halves when the region is entered, and the
halves — still at the same contents, an input window's array being never written — make the full share again
when it is left. The other three arrays belong to one window each and are held at the full share.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four buffers behind the five windows' arrays. -/
theorem arrRefs_eq : Finset.univ.image (Pipeline.arrRef spec0) = [main_v5, main_v6, main_v7, main_v8].toFinset := by decide

theorem arrBufs0_eq (c : Dev nD) (V : (b : Ref sig .tc) → Buf (Elt F) ((c : Thread nD τ).loc b)) :
    (Pipeline.arrBufs spec0 c V : sProp 𝕄)
      = iprop((((c : Thread nD τ).loc main_v5) ↦{fullShare} V main_v5) ∗ (((c : Thread nD τ).loc main_v6) ↦{fullShare} V main_v6)
          ∗ (((c : Thread nD τ).loc main_v7) ↦{fullShare} V main_v7) ∗ (((c : Thread nD τ).loc main_v8) ↦{fullShare} V main_v8)) := by
  unfold Pipeline.arrBufs
  rw [bigSep_eq_bigSepL_of_eq [main_v5, main_v6, main_v7, main_v8] arrRefs_eq (by decide)]
  rfl

section
variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 hq1 hq2 hq3 in
/-- The proof data's arrays, window by window: the shared array at its two halves. -/
theorem arrays0_eq (G : (w : Fin cfg0.W) → Buf (Elt F) ((cfg0.win w).arr.view.loc (c : Thread nD τ))) :
    (dat.arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  unfold Dat.share
  simp only [hq0, hq1, hq2, hq3]
  rfl
end

section
variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 hq1 hq2 hq3 in
/-- ENTRY: the core's unscoped buffers at contents `V` are the windows' arrays at `V` — the shared array dealt in
    halves — and the unscoped rest. -/
theorem arrays_of_unscopedBufs_shared (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (unscopedBufs c V : sProp 𝕄) ⊢ iprop(dat.arrays G ∗ Pipeline.unscopedRest spec0 c V) := by
  rw [Pipeline.unscopedBufs_split₀ cfgs 0 winFacts₀0.arr_unscoped c V, arrBufs0_eq, arrays0_eq dat hq0 hq1 hq2 hq3,
    hG 0, hG 1, hG 2, hG 3, hG 4]
  iintro ⟨⟨H5, H6, H7, H8⟩, Hrest⟩
  ihave H5 := (pointsTo_share (PosShare.mem_left_op_right fullShare)).1 $$ H5
  icases H5 with ⟨H5l, H5r⟩
  isplitr [Hrest]
  · isplitl [H5l]; · iexact H5l
    isplitl [H5r]; · iexact H5r
    isplitl [H6]; · iexact H6
    isplitl [H7]; · iexact H7
    iexact H8
  · iexact Hrest

include hq0 hq1 hq2 hq3 in
/-- EXIT: the windows' arrays at contents `G` — the two halves of the shared array at one contents — and the
    unscoped rest at `V` are the core's unscoped buffers at any `V'` that has the arrays at `G` and agrees with `V`
    off them. -/
theorem unscopedBufs_of_arrays_shared (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  rw [Pipeline.unscopedBufs_split₀ cfgs 0 winFacts₀0.arr_unscoped c V', arrBufs0_eq, arrays0_eq dat hq0 hq1 hq2 hq3,
    hG 0, hG 1, hG 2, hG 3, hG 4,
    show (Pipeline.unscopedRest spec0 c V' : sProp 𝕄) = Pipeline.unscopedRest spec0 c V from by
      unfold Pipeline.unscopedRest
      exact bigSep_congr fun b hb => by rw [hrest b (Finset.mem_sdiff.mp hb).2]]
  iintro ⟨⟨H5l, H5r, H6, H7, H8⟩, Hrest⟩
  isplitr [Hrest]
  · isplitl [H5l H5r]
    · iapply (pointsTo_share (PosShare.mem_left_op_right fullShare)).2
      isplitl [H5l]; · iexact H5l
      iexact H5r
    isplitl [H6]; · iexact H6
    isplitl [H7]; · iexact H7
    iexact H8
  · iexact Hrest
end

end Cert.Kernel.Hand

end
-- ==== Proof.K.Launch.lean ====
import proofs.«419832_j8873402433633_3_alg».proof.Proof.K.Shared

/-!
# The run of @main, given the body's obligation

@main is two stretches of host operations, the pallas_call, and a last stretch. The run is composed of four
segments: each host stretch moves the core's unscoped buffers from one valuation to the next; the region takes
its five windows' arrays out of them (the shared array in halves), runs the pipeline, and puts the arrays back,
the output array at what its write-backs leave. The result is stated for ANY proof data of the pipeline with
the halves' shares, nothing owed, whose body obligation holds and whose invariant starts from and ends in the
region's own (the scratch words at anything): every execution ends with every unscoped buffer at the last
valuation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segments' boundaries -/

/-- At launch. -/
abbrev W0 : Dev nD → Valuation τ sig (Elt F) := fun c b => m (c, b)
/-- After the first stretch (the rows' norms). -/
abbrev W1 : Dev nD → Valuation τ sig (Elt F) := fun c => StableHlo.after hostOps0 (W0 m c)
/-- After the second stretch: the region's entry. -/
abbrev W2 : Dev nD → Valuation τ sig (Elt F) := fun c => StableHlo.after hostOps0_1 (W1 m c)

theorem W2_eq (c : Dev nD) : W2 m c = V0 m c := by
  show _ = StableHlo.after (List.flatten [hostOps0, hostOps0_1]) _
  simp only [List.flatten_cons, List.flatten_nil, List.append_nil]
  exact (StableHlo.after_append _ _ _).symm

section
variable (dats : (p : Fin 1) → (c : Dev nD) → Dat τ (Elt F) Unit ℕ (UR sig nD τ) ℕ (cfgs p) c)

/-- At the region's exit: the output array at what its write-backs leave, every other buffer as entered. -/
def W3 (c : Dev nD) : Valuation τ sig (Elt F) :=
  Function.update (W2 m c) (Proc.devRef .tc main_v8) ((dats 0 c).arrAt 4 cfg0.N)
/-- After the last stretch. -/
abbrev W4 : Dev nD → Valuation τ sig (Elt F) := fun c => StableHlo.after hostOps1 (W3 m dats c)

abbrev V2 : (c : Dev nD) → (b : Ref sig .tc) → Buf (Elt F) ((c : Thread nD τ).loc b) := fun c b => W2 m c b
abbrev V3 : (c : Dev nD) → (b : Ref sig .tc) → Buf (Elt F) ((c : Thread nD τ).loc b) := fun c b => W3 m dats c b

theorem W3_v8 (c : Dev nD) : W3 m dats c (Proc.devRef .tc main_v8) = (dats 0 c).arrAt 4 cfg0.N := by
  unfold W3; exact Function.update_self ..
theorem W3_of_ne (c : Dev nD) (b : Ref sig .tc) (hb : b ≠ main_v8) : W3 m dats c (Proc.devRef .tc b) = W2 m c (Proc.devRef .tc b) := by
  unfold W3; exact Function.update_of_ne (fun e => hb (Proc.devRef_injective _ e)) ..
end

section Run
variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c t, (dats 0 c).recorded t = Set.univ)
  (hbody : ∀ c, BodyObligation (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)

include hA in
/-- At the exit each window's array holds what the pipeline leaves: an input's what it held at entry, the
    output's its write-backs. -/
theorem hF3 (c : Dev nD) (w : Fin cfg0.W) : (dats 0 c).arrAt w cfg0.N = V3 m dats c (Pipeline.arrRef spec0 w) := by
  have hin' : ∀ w' : Fin cfg0.W, (cfg0.win w').isOut = false → w' ≠ 4 →
      (dats 0 c).arrAt w' cfg0.N = V3 m dats c (Pipeline.arrRef spec0 w') := fun w' hw hne => by
    rw [(dats 0 c).arrAt_in w' hw _, hA c w']
    show V0 m c _ = W3 m dats c _
    rw [W3_of_ne m dats c _ (by revert hne; revert w'; decide), W2_eq]
  match w with
  | ⟨0, _⟩ => exact hin' 0 rfl (by decide)
  | ⟨1, _⟩ => exact hin' 1 rfl (by decide)
  | ⟨2, _⟩ => exact hin' 2 rfl (by decide)
  | ⟨3, _⟩ => exact hin' 3 rfl (by decide)
  | ⟨4, _⟩ => exact (W3_v8 m dats c).symm

theorem hrest3 (c : Dev nD) : ∀ b, b ∉ Finset.univ.image (Pipeline.arrRef spec0) → V3 m dats c b = V2 m c b :=
  fun b hb => W3_of_ne m dats c b fun e => hb (e ▸ (by decide : main_v8 ∈ Finset.univ.image (Pipeline.arrRef spec0)))

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats 0 c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m dats c) ∗ ∃ r, prngReg c r)

/-! ## The region as a segment -/

set_option backward.isDefEq.respectTransparency.types false in
include hA hq0 hq1 hq2 hq3 howed hrec hbody hin hout in
/-- The region over the thread state: entered from every unscoped buffer at the entry contents, left at the exit
    contents. Its arrays are taken out of the unscoped buffers and put back (the shared array in halves); the
    generator register goes into the region's invariant and comes out; nothing is owed. -/
def reg0 : Pipeline.RegionSeg (pcfgs (F := F)) adm (pdats dats) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W2 m c) ∗ R c)
  post c := iprop(StableHlo.held (c : Thread nD τ) (Pipeline.ucRefs τ sig) (W3 m dats c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := arrays_of_unscopedBufs_shared (pdats dats 0 c) (hq0 c) (hq1 c) (hq2 c) (hq3 c) (V2 m c)
      ((pdats dats 0 c).arrAt · 0) (fun w => (hA c w).trans (by show V0 m c _ = W2 m c _; rw [W2_eq]))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats dats 0 c).recorded 0 = Set.univ from hrec c 0]; trivial)
      rw [show (pdats dats 0 c).owed 0 = 0 from howed c 0]; iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (hin c)
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := unscopedBufs_of_arrays_shared (pdats dats 0 c) (hq0 c) (hq1 c) (hq2 c) (hq3 c) (V2 m c) (V3 m dats c)
      ((pdats dats 0 c).arrAt · (Pipeline.pin (pcfgs (F := F)) adm 0).N) (hF3 m dats hA c) (hrest3 m dats c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dats 0 c).owed (Fin.last _) = 0 from howed c _]; iexact HO

end Run

section Launch
variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c t, (dats 0 c).recorded t = Set.univ)
  (hbody : ∀ c, BodyObligation (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)

/-- @main's four segments in order. -/
abbrev segs : List (Pipeline.Seg (pcfgs (F := F)) adm (pdats dats) () defs₀ 𝒱₀ L lv) :=
  [ .host (hseg hostOps0 hostOps0_sub hostOps0_fresh (W0 m)),
    .host (hseg hostOps0_1 hostOps0_1_sub hostOps0_1_fresh (W1 m)),
    .region (reg0 m dats hA hq0 hq1 hq2 hq3 howed hrec hbody hin hout),
    .host (hseg hostOps1 hostOps1_sub hostOps1_fresh (W3 m dats)) ]

/-- @main IS the run of the segments. -/
theorem main_run (c : Dev nD) : main (F := F) c = Pipeline.Seg.run (segs m dats hA hq0 hq1 hq2 hq3 howed hrec hbody hin hout) :=
  (main_chain c).trans (by chain_rfl)

set_option backward.isDefEq.respectTransparency.types false in
include hA hq0 hq1 hq2 hq3 howed hrec hbody hin hout in
/-- THE RUN: from any memory with zero counters every weakly fair execution of @main terminates, nothing
    faulting, with every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m dats c b) :=
  Pipeline.θ_run_regions_kit (pcfgs (F := F)) adm (pdats dats) () cellOf_inj emb₁ defs₀ 𝒱₀ L lv m ρ main
    (segs m dats hA hq0 hq1 hq2 hq3 howed hrec hbody hin hout)
    (fun c Q => by rw [main_run m dats hA hq0 hq1 hq2 hq3 howed hrec hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dats)
    (hch := ⟨fun _ => .rfl, fun _ => .rfl, fun _ => .rfl, fun _ => .rfl, fun c => by
      show iprop(StableHlo.held (c : Thread nD τ) (Pipeline.ucRefs τ sig) (StableHlo.after hostOps1 (W3 m dats c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m dats c b)
    (hfin := fun c s' => by
      iintro ⟨⟨Hh, -⟩, HSI⟩
      unfold StableHlo.held
      imodintro
      iapply (pointsTo_read_all (Pipeline.ucRefs τ sig) (fun b => (((c : Thread nD τ)).1, b)) (W4 m dats c) s')
      isplitl [Hh] <;> iassumption)
    (hQ := fun s h c => h c)

end Launch

end Cert.Kernel.Hand

end
-- ==== Proof.K.Keeps.lean ====
import proofs.«419832_j8873402433633_3_alg».proof.Proof.K.Runs
import Idealize.ShloMosaic.Lib.StableHlo.Run

/-!
# No host operation writes an argument

Every host operation of the program writes exactly one reference, its result, and no result is an argument of the
program: so the two arguments hold after each stretch of host operations what they held before it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Keeps

variable {F : FTy → Type} [FloatOps F]

/-- Every operation of the line writes a reference other than the given one: the writes are singletons, and
    which reference is which is decided. -/
local macro "host_keeps" l:ident : tactic =>
  `(tactic| exact StableHlo.after_of_forall_not_mem _ _ (List.forall_iff_forall_mem.mp (by
      simp only [$l:ident, hostOps0, hostOps0_1, List.flatten_cons, List.flatten_nil, List.append_nil, List.cons_append,
        List.nil_append, List.Forall, StableHlo.nullary_writes, StableHlo.unary_writes, StableHlo.binary_writes,
        StableHlo.reshape_writes, Finset.mem_singleton]
      repeat' apply And.intro
      all_goals exact StableHlo.devRef_ne_of_ne (by decide))))

theorem tail_keeps_arg0 (W : Valuation τ sig (Elt F)) :
    StableHlo.after hostOps1 W (Proc.devRef .tc main_arg0) = W (Proc.devRef .tc main_arg0) := by
  host_keeps hostOps1

theorem tail_keeps_arg1 (W : Valuation τ sig (Elt F)) :
    StableHlo.after hostOps1 W (Proc.devRef .tc main_arg1) = W (Proc.devRef .tc main_arg1) := by
  host_keeps hostOps1

theorem prefix_keeps_arg0 (W : Valuation τ sig (Elt F)) :
    StableHlo.after (List.flatten [hostOps0, hostOps0_1]) W (Proc.devRef .tc main_arg0) = W (Proc.devRef .tc main_arg0) := by
  host_keeps hostOps0

theorem prefix_keeps_arg1 (W : Valuation τ sig (Elt F)) :
    StableHlo.after (List.flatten [hostOps0, hostOps0_1]) W (Proc.devRef .tc main_arg1) = W (Proc.devRef .tc main_arg1) := by
  host_keeps hostOps0

end Keeps

end Cert.Kernel.Hand

end
-- ==== Proof.K.FrameClaim.lean ====
import proofs.«419832_j8873402433633_3_alg».proof.Proof.K.Frame
import proofs.«419832_j8873402433633_3_alg».proof.Proof.K.Launch
import proofs.«419832_j8873402433633_3_alg».proof.Proof.K.Keeps

/-!
# The run of @main at the body's proof data, and the frame

The proof data of the pipeline (what the output block and the two accumulators hold after each grid point)
satisfy what the run of @main asks: the halves' shares on the array two windows stage, nothing owed, the body's
obligation at every point, the accumulators at anything before the first point and forgotten after the last.
So every execution of @main terminates with every unscoped buffer at the last valuation; the two argument
arrays, which no host operation and no write-back touches, end as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every execution ends with every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m (dats m) c b) :=
  run_main m ρ (dats m) (A_eq m) (fun _ => rfl) (fun _ => rfl) (fun _ => rfl) (fun _ => rfl) (fun _ _ => rfl) (fun _ _ => rfl)
    (fun c => body_obligation m c) (hin m) (hout m)

/-- The argument arrays at the last valuation are the launch contents. -/
theorem W4_main_arg0 (c : Dev nD) : W4 m (dats m) c (Proc.devRef .tc main_arg0) = m ((c : Thread nD τ).loc main_arg0) :=
  calc W4 m (dats m) c (Proc.devRef .tc main_arg0)
    _ = W3 m (dats m) c (Proc.devRef .tc main_arg0) := tail_keeps_arg0 _
    _ = W2 m c (Proc.devRef .tc main_arg0) := W3_of_ne m (dats m) c main_arg0 (by decide)
    _ = V0 m c (Proc.devRef .tc main_arg0) := by rw [W2_eq]
    _ = W0 m c (Proc.devRef .tc main_arg0) := prefix_keeps_arg0 _
    _ = m ((c : Thread nD τ).loc main_arg0) := rfl

theorem W4_main_arg1 (c : Dev nD) : W4 m (dats m) c (Proc.devRef .tc main_arg1) = m ((c : Thread nD τ).loc main_arg1) :=
  calc W4 m (dats m) c (Proc.devRef .tc main_arg1)
    _ = W3 m (dats m) c (Proc.devRef .tc main_arg1) := tail_keeps_arg1 _
    _ = W2 m c (Proc.devRef .tc main_arg1) := W3_of_ne m (dats m) c main_arg1 (by decide)
    _ = V0 m c (Proc.devRef .tc main_arg1) := by rw [W2_eq]
    _ = W0 m c (Proc.devRef .tc main_arg1) := prefix_keeps_arg1 _
    _ = m ((c : Thread nD τ).loc main_arg1) := rfl

/-- THE FRAME: every execution terminates, nothing faulting, with the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all m ρ)

end Cert.Kernel.Hand

end
-- ==== Proof.KI.Runs.lean ====
import proofs.«419832_j8873402433633_3_alg».proof.Proof.Gen.KernelIdeal.Launch
import proofs.«419832_j8873402433633_3_alg».proof.Proof.Gen.KernelIdeal.Skeleton
import proofs.«419832_j8873402433633_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# What the three cases of the body share

The body of the one pallas_call branches twice on the inner grid coordinate: at the first inner step of a core
(points ≡ 0 mod 16) it resets the two one-word scratch accumulators, and at the last (points ≡ 15 mod 16) it
writes the accumulated sum and count into its output block. So a point is in one of three cases — first,
middle, last — and the output window is idle (and not written back) except in the last. This module fixes
what the cases are stated over: the branch conditions in closed form, where the output window is idle, the
staging and scratch memrefs, the region's entry contents and the windows' blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents -/

/-- Core `c`'s buffer contents when the region is entered: after the two stretches of host operations (the row
    norms, then the normalised rows and the two reshapes of the labels). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, in closed form over the grid -/

/-- The first branch (reset the accumulators): the inner coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch (write the output block): the inner coordinate is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last inner step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last inner step it is live. -/
theorem liveAt0_4 : ∀ t : Fin cfg0.N, cond0_1 (grid0.coords t) → cfg0.idle 4 (grid0.coords t) = false := by decide +kernel

/-! ## The staging and scratch memrefs -/

abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The two one-word accumulators: the running sum of the row losses and the running count of valid rows. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view
/-- One staging buffer of the output window, through which its contents are stated. -/
abbrev VO0_4 : View sig .tc .vmem S8x128 .f32 := (Memref.whole cc0_stg4_0 : Memref sig .tc .vmem S8x128 .f32).view

/-- The region's invariant before the first point: the two accumulators at anything, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
import proofs.«419832_j8873402433633_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at the first inner step of a core

The inner coordinate is zero and not the last: the body first stores zero into both accumulators, then loads the
four input blocks, and adds this step's sum of row losses and count of valid rows onto the zeros just stored.
The output block is not touched. -/

set_option maxHeartbeats 4000000 in
/-- The pieces the body's stores leave in the output's staging buffer (none) and in the two accumulators (two
    each: the zero, then the step's contribution added to it), with the proof that on whole memrefs — the
    inputs' at their blocks, the output's at contents handed back untouched, the accumulators at anything — the
    body runs to a continuation that holds the inputs and the output as they were and the accumulators with
    those pieces written. -/
noncomputable def kernelRun0_A (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) :
    Σ' (L4 : List (View.Piece (Elt F) S8x128 .f32)) (LS0 : List (View.Piece (Elt F) S1x1 .f32)), { LS1 : List (View.Piece (Elt F) S1x1 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, ?_, fun xi4 E K => ?run⟩
  case run =>
    simp only [cc0_kernel_eq_skeleton]; unfold cc0_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.RunB.lean ====
import proofs.«419832_j8873402433633_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at a middle inner step

The inner coordinate is neither zero nor the last: the body loads the four input blocks and adds this step's sum
of row losses and count of valid rows onto what the step before left in the accumulators. The output block is
not touched. -/

set_option maxHeartbeats 4000000 in
/-- The pieces the body's stores leave in the output's staging buffer (none) and in the two accumulators (one
    each: the step's contribution added to the carried value), with the proof that on whole memrefs — the
    inputs' at their blocks, the output's at contents handed back untouched, the accumulators at what the step
    before left — the body runs to a continuation that holds the inputs and the output as they were and the
    accumulators with those pieces written. -/
noncomputable def kernelRun0_B (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    Σ' (L4 : List (View.Piece (Elt F) S8x128 .f32)) (LS0 : List (View.Piece (Elt F) S1x1 .f32)), { LS1 : List (View.Piece (Elt F) S1x1 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, ?_, fun xi4 E K => ?run⟩
  case run =>
    simp only [cc0_kernel_eq_skeleton]; unfold cc0_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.RunC.lean ====
import proofs.«419832_j8873402433633_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at the last inner step of a core

The inner coordinate is the last (and not zero): the body loads the four input blocks, adds this step's sum of
row losses and count of valid rows onto what the step before left in the accumulators, then reads both
accumulators back and stores the output block computed from them, whole. -/

set_option maxHeartbeats 4000000 in
/-- The pieces the body's stores leave in the output's staging buffer (one: the block computed from the two
    accumulators) and in the two accumulators (one each), with the proof that on whole memrefs — the inputs' at
    their blocks, the output's at anything, the accumulators at what the step before left — the body runs to a
    continuation that holds the inputs as they were and the output and the accumulators with those pieces
    written. -/
noncomputable def kernelRun0_C (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    Σ' (L4 : List (View.Piece (Elt F) S8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Frame.lean ====
import proofs.«419832_j8873402433633_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The body's part of the frame certificate

What the three cases of the body leave in the output's staging buffer and in the two accumulators, point by
point; the pipeline's proof data built from it; and the body obligation at every point.
-/

/-- At the first inner step the body stores nothing into the output block: no pieces, so this reads junk back. Nothing
    consults it: the window is idle there, neither written back nor read at the next point. -/
def out0_A_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) : Vec F S8x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- At the first inner step the stores into the running sum cover its one word. -/
theorem scover0_A_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) (y : S1x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1x1.size (by sl_kernel_rfl) y

/-- What the first inner step leaves in the running sum: its pieces read back over junk. -/
def sout0_A_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- At the first inner step the stores into the running count cover its one word. -/
theorem scover0_A_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) (y : S1x1.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1x1.size (by sl_kernel_rfl) y

/-- What the first inner step leaves in the running count: its pieces read back over junk. -/
def sout0_A_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- At a middle inner step the body stores nothing into the output block: no pieces, so this reads junk back. Nothing
    consults it: the window is idle there, neither written back nor read at the next point. -/
def out0_B_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S8x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- At a middle inner step the stores into the running sum cover its one word. -/
theorem scover0_B_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1x1.size (by sl_kernel_rfl) y

/-- What a middle inner step leaves in the running sum: its pieces read back over junk. -/
def sout0_B_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- At a middle inner step the stores into the running count cover its one word. -/
theorem scover0_B_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1x1.size (by sl_kernel_rfl) y

/-- What a middle inner step leaves in the running count: its pieces read back over junk. -/
def sout0_B_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- At the last inner step the one store into the output block covers it. -/
theorem cover0_C_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S8x128.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S8x128.size (by sl_kernel_rfl) y

/-- What the last inner step leaves in the output's staging buffer: its piece read back over junk. -/
def out0_C_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S8x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- At the last inner step the stores into the running sum cover its one word. -/
theorem scover0_C_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1x1.size (by sl_kernel_rfl) y

/-- What the last inner step leaves in the running sum: its pieces read back over junk. -/
def sout0_C_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- At the last inner step the stores into the running count cover its one word. -/
theorem scover0_C_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1x1.size (by sl_kernel_rfl) y

/-- What the last inner step leaves in the running count: its pieces read back over junk. -/
def sout0_C_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-! ## What the output block and the accumulators hold after each point -/

/-- After the body at position `n`: the output's staging buffer, the running sum and the running count (in that
    order). At a first inner step the accumulators are what the step's stores make of zero; at the other steps what
    they make of the values the point before left; the output block is stored at the last inner steps only. The
    first and the last inner step never coincide. -/
def outsAt0 (c : Dev nD) : (n : ℕ) → n < cfg0.N → Vec F S8x128 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- At a first inner step. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle inner step: over what the point before left in the accumulators. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last inner step: over what the point before left in the accumulators. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point both accumulators at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the accumulators at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- An input window's current staging buffer holds the window's block at every point, fetched there or not: a body
    that leaves the block in place finds, where nothing was fetched, the block of the point before, and the block
    index has not moved. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the pipeline on core `c`: the arrays as the region finds them; after the body each input's
    buffer at its block and the output's at `outsAt0`'s first component; the invariant `PhiS`; nothing owed. The
    first two windows stage one array, so each holds half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := fun
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the position says which of the three cases the
    point is in, and that case's run applies. The invariant hands the body the accumulators — at anything before
    the first point, else at what the point before left — and takes them back at this point's contents, which the
    case's stores cover. Off the last inner steps the output's buffer is handed back as found. The core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the entry invariant back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KI.Shared.lean ====
import proofs.«419832_j8873402433633_3_alg».proof.Proof.KI.Runs

/-!
# The windows' arrays in and out of the core's buffers, two windows on one array

Windows 0 and 1 of the pallas_call stage the same array (the normalised rows, once tile by tile and once whole).
Both only read it, so the array's full share is dealt to them in halves when the region is entered, and the
halves — still at the same contents, an input window's array being never written — make the full share again
when it is left. The other three arrays belong to one window each and are held at the full share.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four buffers behind the five windows' arrays. -/
theorem arrRefs_eq : Finset.univ.image (Pipeline.arrRef spec0) = [main_v5, main_v6, main_v7, main_v8].toFinset := by decide

theorem arrBufs0_eq (c : Dev nD) (V : (b : Ref sig .tc) → Buf (Elt F) ((c : Thread nD τ).loc b)) :
    (Pipeline.arrBufs spec0 c V : sProp 𝕄)
      = iprop((((c : Thread nD τ).loc main_v5) ↦{fullShare} V main_v5) ∗ (((c : Thread nD τ).loc main_v6) ↦{fullShare} V main_v6)
          ∗ (((c : Thread nD τ).loc main_v7) ↦{fullShare} V main_v7) ∗ (((c : Thread nD τ).loc main_v8) ↦{fullShare} V main_v8)) := by
  unfold Pipeline.arrBufs
  rw [bigSep_eq_bigSepL_of_eq [main_v5, main_v6, main_v7, main_v8] arrRefs_eq (by decide)]
  rfl

section
variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 hq1 hq2 hq3 in
/-- The proof data's arrays, window by window: the shared array at its two halves. -/
theorem arrays0_eq (G : (w : Fin cfg0.W) → Buf (Elt F) ((cfg0.win w).arr.view.loc (c : Thread nD τ))) :
    (dat.arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  unfold Dat.share
  simp only [hq0, hq1, hq2, hq3]
  rfl
end

section
variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 hq1 hq2 hq3 in
/-- ENTRY: the core's unscoped buffers at contents `V` are the windows' arrays at `V` — the shared array dealt in
    halves — and the unscoped rest. -/
theorem arrays_of_unscopedBufs_shared (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (unscopedBufs c V : sProp 𝕄) ⊢ iprop(dat.arrays G ∗ Pipeline.unscopedRest spec0 c V) := by
  rw [Pipeline.unscopedBufs_split₀ cfgs 0 winFacts₀0.arr_unscoped c V, arrBufs0_eq, arrays0_eq dat hq0 hq1 hq2 hq3,
    hG 0, hG 1, hG 2, hG 3, hG 4]
  iintro ⟨⟨H5, H6, H7, H8⟩, Hrest⟩
  ihave H5 := (pointsTo_share (PosShare.mem_left_op_right fullShare)).1 $$ H5
  icases H5 with ⟨H5l, H5r⟩
  isplitr [Hrest]
  · isplitl [H5l]; · iexact H5l
    isplitl [H5r]; · iexact H5r
    isplitl [H6]; · iexact H6
    isplitl [H7]; · iexact H7
    iexact H8
  · iexact Hrest

include hq0 hq1 hq2 hq3 in
/-- EXIT: the windows' arrays at contents `G` — the two halves of the shared array at one contents — and the
    unscoped rest at `V` are the core's unscoped buffers at any `V'` that has the arrays at `G` and agrees with `V`
    off them. -/
theorem unscopedBufs_of_arrays_shared (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  rw [Pipeline.unscopedBufs_split₀ cfgs 0 winFacts₀0.arr_unscoped c V', arrBufs0_eq, arrays0_eq dat hq0 hq1 hq2 hq3,
    hG 0, hG 1, hG 2, hG 3, hG 4,
    show (Pipeline.unscopedRest spec0 c V' : sProp 𝕄) = Pipeline.unscopedRest spec0 c V from by
      unfold Pipeline.unscopedRest
      exact bigSep_congr fun b hb => by rw [hrest b (Finset.mem_sdiff.mp hb).2]]
  iintro ⟨⟨H5l, H5r, H6, H7, H8⟩, Hrest⟩
  isplitr [Hrest]
  · isplitl [H5l H5r]
    · iapply (pointsTo_share (PosShare.mem_left_op_right fullShare)).2
      isplitl [H5l]; · iexact H5l
      iexact H5r
    isplitl [H6]; · iexact H6
    isplitl [H7]; · iexact H7
    iexact H8
  · iexact Hrest
end

end Cert.KernelIdeal.Hand

end
-- ==== Proof.KI.Launch.lean ====
import proofs.«419832_j8873402433633_3_alg».proof.Proof.KI.Shared

/-!
# The run of @main, given the body's obligation

@main is two stretches of host operations, the pallas_call, and a last stretch. The run is composed of four
segments: each host stretch moves the core's unscoped buffers from one valuation to the next; the region takes
its five windows' arrays out of them (the shared array in halves), runs the pipeline, and puts the arrays back,
the output array at what its write-backs leave. The result is stated for ANY proof data of the pipeline with
the halves' shares, nothing owed, whose body obligation holds and whose invariant starts from and ends in the
region's own (the scratch words at anything): every execution ends with every unscoped buffer at the last
valuation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segments' boundaries -/

/-- At launch. -/
abbrev W0 : Dev nD → Valuation τ sig (Elt F) := fun c b => m (c, b)
/-- After the first stretch (the rows' norms). -/
abbrev W1 : Dev nD → Valuation τ sig (Elt F) := fun c => StableHlo.after hostOps0 (W0 m c)
/-- After the second stretch: the region's entry. -/
abbrev W2 : Dev nD → Valuation τ sig (Elt F) := fun c => StableHlo.after hostOps0_1 (W1 m c)

theorem W2_eq (c : Dev nD) : W2 m c = V0 m c := by
  show _ = StableHlo.after (List.flatten [hostOps0, hostOps0_1]) _
  simp only [List.flatten_cons, List.flatten_nil, List.append_nil]
  exact (StableHlo.after_append _ _ _).symm

section
variable (dats : (p : Fin 1) → (c : Dev nD) → Dat τ (Elt F) Unit ℕ (UR sig nD τ) ℕ (cfgs p) c)

/-- At the region's exit: the output array at what its write-backs leave, every other buffer as entered. -/
def W3 (c : Dev nD) : Valuation τ sig (Elt F) :=
  Function.update (W2 m c) (Proc.devRef .tc main_v8) ((dats 0 c).arrAt 4 cfg0.N)
/-- After the last stretch. -/
abbrev W4 : Dev nD → Valuation τ sig (Elt F) := fun c => StableHlo.after hostOps1 (W3 m dats c)

abbrev V2 : (c : Dev nD) → (b : Ref sig .tc) → Buf (Elt F) ((c : Thread nD τ).loc b) := fun c b => W2 m c b
abbrev V3 : (c : Dev nD) → (b : Ref sig .tc) → Buf (Elt F) ((c : Thread nD τ).loc b) := fun c b => W3 m dats c b

theorem W3_v8 (c : Dev nD) : W3 m dats c (Proc.devRef .tc main_v8) = (dats 0 c).arrAt 4 cfg0.N := by
  unfold W3; exact Function.update_self ..
theorem W3_of_ne (c : Dev nD) (b : Ref sig .tc) (hb : b ≠ main_v8) : W3 m dats c (Proc.devRef .tc b) = W2 m c (Proc.devRef .tc b) := by
  unfold W3; exact Function.update_of_ne (fun e => hb (Proc.devRef_injective _ e)) ..
end

section Run
variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c t, (dats 0 c).recorded t = Set.univ)
  (hbody : ∀ c, BodyObligation (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)

include hA in
/-- At the exit each window's array holds what the pipeline leaves: an input's what it held at entry, the
    output's its write-backs. -/
theorem hF3 (c : Dev nD) (w : Fin cfg0.W) : (dats 0 c).arrAt w cfg0.N = V3 m dats c (Pipeline.arrRef spec0 w) := by
  have hin' : ∀ w' : Fin cfg0.W, (cfg0.win w').isOut = false → w' ≠ 4 →
      (dats 0 c).arrAt w' cfg0.N = V3 m dats c (Pipeline.arrRef spec0 w') := fun w' hw hne => by
    rw [(dats 0 c).arrAt_in w' hw _, hA c w']
    show V0 m c _ = W3 m dats c _
    rw [W3_of_ne m dats c _ (by revert hne; revert w'; decide), W2_eq]
  match w with
  | ⟨0, _⟩ => exact hin' 0 rfl (by decide)
  | ⟨1, _⟩ => exact hin' 1 rfl (by decide)
  | ⟨2, _⟩ => exact hin' 2 rfl (by decide)
  | ⟨3, _⟩ => exact hin' 3 rfl (by decide)
  | ⟨4, _⟩ => exact (W3_v8 m dats c).symm

theorem hrest3 (c : Dev nD) : ∀ b, b ∉ Finset.univ.image (Pipeline.arrRef spec0) → V3 m dats c b = V2 m c b :=
  fun b hb => W3_of_ne m dats c b fun e => hb (e ▸ (by decide : main_v8 ∈ Finset.univ.image (Pipeline.arrRef spec0)))

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats 0 c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m dats c) ∗ ∃ r, prngReg c r)

/-! ## The region as a segment -/

set_option backward.isDefEq.respectTransparency.types false in
include hA hq0 hq1 hq2 hq3 howed hrec hbody hin hout in
/-- The region over the thread state: entered from every unscoped buffer at the entry contents, left at the exit
    contents. Its arrays are taken out of the unscoped buffers and put back (the shared array in halves); the
    generator register goes into the region's invariant and comes out; nothing is owed. -/
def reg0 : Pipeline.RegionSeg (pcfgs (F := F)) adm (pdats dats) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W2 m c) ∗ R c)
  post c := iprop(StableHlo.held (c : Thread nD τ) (Pipeline.ucRefs τ sig) (W3 m dats c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := arrays_of_unscopedBufs_shared (pdats dats 0 c) (hq0 c) (hq1 c) (hq2 c) (hq3 c) (V2 m c)
      ((pdats dats 0 c).arrAt · 0) (fun w => (hA c w).trans (by show V0 m c _ = W2 m c _; rw [W2_eq]))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats dats 0 c).recorded 0 = Set.univ from hrec c 0]; trivial)
      rw [show (pdats dats 0 c).owed 0 = 0 from howed c 0]; iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (hin c)
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := unscopedBufs_of_arrays_shared (pdats dats 0 c) (hq0 c) (hq1 c) (hq2 c) (hq3 c) (V2 m c) (V3 m dats c)
      ((pdats dats 0 c).arrAt · (Pipeline.pin (pcfgs (F := F)) adm 0).N) (hF3 m dats hA c) (hrest3 m dats c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats dats 0 c).owed (Fin.last _) = 0 from howed c _]; iexact HO

end Run

section Launch
variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c t, (dats 0 c).recorded t = Set.univ)
  (hbody : ∀ c, BodyObligation (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)

/-- @main's four segments in order. -/
abbrev segs : List (Pipeline.Seg (pcfgs (F := F)) adm (pdats dats) () defs₀ 𝒱₀ L lv) :=
  [ .host (hseg hostOps0 hostOps0_sub hostOps0_fresh (W0 m)),
    .host (hseg hostOps0_1 hostOps0_1_sub hostOps0_1_fresh (W1 m)),
    .region (reg0 m dats hA hq0 hq1 hq2 hq3 howed hrec hbody hin hout),
    .host (hseg hostOps1 hostOps1_sub hostOps1_fresh (W3 m dats)) ]

/-- @main IS the run of the segments. -/
theorem main_run (c : Dev nD) : main (F := F) c = Pipeline.Seg.run (segs m dats hA hq0 hq1 hq2 hq3 howed hrec hbody hin hout) :=
  (main_chain c).trans (by chain_rfl)

set_option backward.isDefEq.respectTransparency.types false in
include hA hq0 hq1 hq2 hq3 howed hrec hbody hin hout in
/-- THE RUN: from any memory with zero counters every weakly fair execution of @main terminates, nothing
    faulting, with every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m dats c b) :=
  Pipeline.θ_run_regions_kit (pcfgs (F := F)) adm (pdats dats) () cellOf_inj emb₁ defs₀ 𝒱₀ L lv m ρ main
    (segs m dats hA hq0 hq1 hq2 hq3 howed hrec hbody hin hout)
    (fun c Q => by rw [main_run m dats hA hq0 hq1 hq2 hq3 howed hrec hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dats)
    (hch := ⟨fun _ => .rfl, fun _ => .rfl, fun _ => .rfl, fun _ => .rfl, fun c => by
      show iprop(StableHlo.held (c : Thread nD τ) (Pipeline.ucRefs τ sig) (StableHlo.after hostOps1 (W3 m dats c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m dats c b)
    (hfin := fun c s' => by
      iintro ⟨⟨Hh, -⟩, HSI⟩
      unfold StableHlo.held
      imodintro
      iapply (pointsTo_read_all (Pipeline.ucRefs τ sig) (fun b => (((c : Thread nD τ)).1, b)) (W4 m dats c) s')
      isplitl [Hh] <;> iassumption)
    (hQ := fun s h c => h c)

end Launch

end Cert.KernelIdeal.Hand

end
-- ==== Proof.KI.Keeps.lean ====
import proofs.«419832_j8873402433633_3_alg».proof.Proof.KI.Runs
import Idealize.ShloMosaic.Lib.StableHlo.Run

/-!
# No host operation writes an argument

Every host operation of the program writes exactly one reference, its result, and no result is an argument of the
program: so the two arguments hold after each stretch of host operations what they held before it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Keeps

variable {F : FTy → Type} [FloatOps F]

/-- Every operation of the line writes a reference other than the given one: the writes are singletons, and
    which reference is which is decided. -/
local macro "host_keeps" l:ident : tactic =>
  `(tactic| exact StableHlo.after_of_forall_not_mem _ _ (List.forall_iff_forall_mem.mp (by
      simp only [$l:ident, hostOps0, hostOps0_1, List.flatten_cons, List.flatten_nil, List.append_nil, List.cons_append,
        List.nil_append, List.Forall, StableHlo.nullary_writes, StableHlo.unary_writes, StableHlo.binary_writes,
        StableHlo.reshape_writes, Finset.mem_singleton]
      repeat' apply And.intro
      all_goals exact StableHlo.devRef_ne_of_ne (by decide))))

theorem tail_keeps_arg0 (W : Valuation τ sig (Elt F)) :
    StableHlo.after hostOps1 W (Proc.devRef .tc main_arg0) = W (Proc.devRef .tc main_arg0) := by
  host_keeps hostOps1

theorem tail_keeps_arg1 (W : Valuation τ sig (Elt F)) :
    StableHlo.after hostOps1 W (Proc.devRef .tc main_arg1) = W (Proc.devRef .tc main_arg1) := by
  host_keeps hostOps1

theorem prefix_keeps_arg0 (W : Valuation τ sig (Elt F)) :
    StableHlo.after (List.flatten [hostOps0, hostOps0_1]) W (Proc.devRef .tc main_arg0) = W (Proc.devRef .tc main_arg0) := by
  host_keeps hostOps0

theorem prefix_keeps_arg1 (W : Valuation τ sig (Elt F)) :
    StableHlo.after (List.flatten [hostOps0, hostOps0_1]) W (Proc.devRef .tc main_arg1) = W (Proc.devRef .tc main_arg1) := by
  host_keeps hostOps0

end Keeps

end Cert.KernelIdeal.Hand

end
-- ==== Proof.KI.FrameClaim.lean ====
import proofs.«419832_j8873402433633_3_alg».proof.Proof.KI.Frame
import proofs.«419832_j8873402433633_3_alg».proof.Proof.KI.Launch
import proofs.«419832_j8873402433633_3_alg».proof.Proof.KI.Keeps

/-!
# The run of @main at the body's proof data, and the frame

The proof data of the pipeline (what the output block and the two accumulators hold after each grid point)
satisfy what the run of @main asks: the halves' shares on the array two windows stage, nothing owed, the body's
obligation at every point, the accumulators at anything before the first point and forgotten after the last.
So every execution of @main terminates with every unscoped buffer at the last valuation; the two argument
arrays, which no host operation and no write-back touches, end as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every execution ends with every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m (dats m) c b) :=
  run_main m ρ (dats m) (A_eq m) (fun _ => rfl) (fun _ => rfl) (fun _ => rfl) (fun _ => rfl) (fun _ _ => rfl) (fun _ _ => rfl)
    (fun c => body_obligation m c) (hin m) (hout m)

/-- The argument arrays at the last valuation are the launch contents. -/
theorem W4_main_arg0 (c : Dev nD) : W4 m (dats m) c (Proc.devRef .tc main_arg0) = m ((c : Thread nD τ).loc main_arg0) :=
  calc W4 m (dats m) c (Proc.devRef .tc main_arg0)
    _ = W3 m (dats m) c (Proc.devRef .tc main_arg0) := tail_keeps_arg0 _
    _ = W2 m c (Proc.devRef .tc main_arg0) := W3_of_ne m (dats m) c main_arg0 (by decide)
    _ = V0 m c (Proc.devRef .tc main_arg0) := by rw [W2_eq]
    _ = W0 m c (Proc.devRef .tc main_arg0) := prefix_keeps_arg0 _
    _ = m ((c : Thread nD τ).loc main_arg0) := rfl

theorem W4_main_arg1 (c : Dev nD) : W4 m (dats m) c (Proc.devRef .tc main_arg1) = m ((c : Thread nD τ).loc main_arg1) :=
  calc W4 m (dats m) c (Proc.devRef .tc main_arg1)
    _ = W3 m (dats m) c (Proc.devRef .tc main_arg1) := tail_keeps_arg1 _
    _ = W2 m c (Proc.devRef .tc main_arg1) := W3_of_ne m (dats m) c main_arg1 (by decide)
    _ = V0 m c (Proc.devRef .tc main_arg1) := by rw [W2_eq]
    _ = W0 m c (Proc.devRef .tc main_arg1) := prefix_keeps_arg1 _
    _ = m ((c : Thread nD τ).loc main_arg1) := rfl

/-- THE FRAME: every execution terminates, nothing faulting, with the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all m ρ)

end Cert.KernelIdeal.Hand

end
-- ==== Proof.Mining.lean ====
import Mathlib.Data.EReal.Basic
import Mathlib.Data.EReal.Operations
import Mathlib.Algebra.Order.BigOperators.Group.Finset
import Mathlib.Data.Finset.Fold

/-!
# Triplet mining on one anchor row: similarities against distances

For one anchor row, `s j` is the cosine similarity to column `j`, `pos j` says that `j` is a positive
(same label, another row) and `neg j` that it is a negative (another label). The distance is
`dist (s j) = max 0 (1 - s j)`.

One side mines in the similarity domain: the hardest positive is `max 0 (1 - min s)` over the positives, the
hardest negative `max 0 (1 - max s)` over the negatives, the semi-hard window `s j < 1 - d_ap` and
`1 - d_ap - μ < s j`. The other side mines the distances themselves: maxima and minima of `dist (s j)`, the window
`d_ap < dist (s j) < d_ap + μ`. For FINITE similarities and a finite margin `0 < μ` the two give the same
validity bit and the same row loss: `max 0` is monotone, so it commutes with the extrema, and it never flips
a comparison against a bound that is itself nonnegative (`d_ap`) or positive (`d_ap + μ`).
-/

noncomputable section

namespace Cert.Mining

open Finset

variable {J : Type} [Fintype J]

/-- One minus a similarity, clipped below at zero. -/
def dist (x : EReal) : EReal := max 0 (1 - x)

section Defs

variable (μ : EReal) (s : J → EReal) (pos neg : J → Bool)

/-! ## Mining the similarities -/

def pminK : EReal := univ.fold min ⊤ (fun j => if pos j then s j else ⊤)
def hasPosK : Bool := decide (pminK s pos < ⊤)
def dapK : EReal := max 0 (1 - pminK s pos)
def nmaxK : EReal := univ.fold max ⊥ (fun j => if neg j then s j else ⊥)
def hasNegK : Bool := decide (⊥ < nmaxK s neg)
def danHardK : EReal := max 0 (1 - nmaxK s neg)
def upperK : EReal := 1 - dapK s pos
def lowerK : EReal := upperK s pos - μ
def semiK (j : J) : Bool := neg j && (decide (s j < upperK s pos) && decide (lowerK μ s pos < s j))
def smaxK : EReal := univ.fold max ⊥ (fun j => if semiK μ s pos neg j then s j else ⊥)
def hasSemiK : Bool := decide (⊥ < smaxK μ s pos neg)
def danSemiK : EReal := max 0 (1 - smaxK μ s pos neg)
def danK : EReal := if hasSemiK μ s pos neg then danSemiK μ s pos neg else danHardK s neg
def validK : Bool := hasPosK s pos && hasNegK s neg
def rowK : EReal := if validK s pos neg then max (dapK s pos - danK μ s pos neg + μ) 0 else 0

/-! ## Mining the distances -/

def hasPosR : Bool := decide (∃ j, pos j = true)
def hasNegR : Bool := decide (∃ j, neg j = true)
def dapR : EReal := if hasPosR pos then univ.fold max ⊥ (fun j => if pos j then dist (s j) else ⊥) else 0
def semiR (j : J) : Bool := (neg j && decide (dapR s pos < dist (s j))) && decide (dist (s j) < dapR s pos + μ)
def hasSemiR : Bool := decide (∃ j, semiR μ s pos neg j = true)
def danSemiR : EReal := univ.fold min ⊤ (fun j => if semiR μ s pos neg j then dist (s j) else ⊤)
def danHardR : EReal := univ.fold min ⊤ (fun j => if neg j then dist (s j) else ⊤)
def danR : EReal := if hasSemiR μ s pos neg then danSemiR μ s pos neg else danHardR s neg
def validR : Bool := hasPosR pos && hasNegR neg
def rowR : EReal := if validR pos neg then max (dapR s pos - danR μ s pos neg + μ) 0 else 0

end Defs

/-! ## The clipped distance is antitone and exchanges the extrema -/

theorem dist_antitone : Antitone dist := by
  intro a b hab
  exact max_le_max le_rfl (EReal.sub_le_sub le_rfl hab)

theorem dist_nonneg (x : EReal) : 0 ≤ dist x := le_max_left _ _

theorem dist_top : dist ⊤ = 0 := by
  unfold dist
  rw [EReal.sub_top]
  exact max_eq_left bot_le

theorem dist_bot : dist ⊥ = ⊤ := by
  unfold dist
  have h : (1 : EReal) - ⊥ = ⊤ := by
    rw [← EReal.coe_one]; exact EReal.coe_sub_bot 1
  rw [h]
  exact max_eq_right le_top

theorem dist_coe_lt_top (x : ℝ) : dist (x : EReal) < ⊤ := by
  unfold dist
  rw [max_lt_iff]
  refine ⟨EReal.zero_lt_top, ?_⟩
  rw [← EReal.coe_one, ← EReal.coe_sub]
  exact EReal.coe_lt_top _

theorem exists_real {x : EReal} (h : x ≠ ⊥ ∧ x ≠ ⊤) : ∃ r : ℝ, x = (r : EReal) :=
  ⟨x.toReal, (EReal.coe_toReal h.2 h.1).symm⟩

/-- The distance of a minimum of similarities is the maximum of the distances. -/
theorem dist_fold_min (f : J → EReal) :
    dist (univ.fold min ⊤ f) = univ.fold max 0 (fun j => dist (f j)) := by
  have h := Finset.fold_hom (op := min) (op' := max) (s := (univ : Finset J)) (b := (⊤ : EReal)) (f := f)
    (m := dist) (fun x y => dist_antitone.map_min)
  rw [dist_top] at h
  exact h.symm

/-- The distance of a maximum of similarities is the minimum of the distances. -/
theorem dist_fold_max (f : J → EReal) :
    dist (univ.fold max ⊥ f) = univ.fold min ⊤ (fun j => dist (f j)) := by
  have h := Finset.fold_hom (op := max) (op' := min) (s := (univ : Finset J)) (b := (⊥ : EReal)) (f := f)
    (m := dist) (fun x y => dist_antitone.map_max)
  rw [dist_bot] at h
  exact h.symm

/-! ## Masked extrema of finite similarities -/

section Mask

variable (s : J → EReal) (hs : ∀ j, s j ≠ ⊥ ∧ s j ≠ ⊤) (m : J → Bool)
include hs

theorem fold_min_mask_lt_top :
    univ.fold min ⊤ (fun j => if m j then s j else ⊤) < ⊤ ↔ ∃ j, m j = true := by
  rw [Finset.fold_min_lt]
  constructor
  · rintro (h | ⟨j, -, h⟩)
    · exact absurd h (lt_irrefl _)
    · refine ⟨j, ?_⟩
      by_contra hm
      simp only [hm] at h
      exact absurd h (lt_irrefl _)
  · rintro ⟨j, hj⟩
    refine Or.inr ⟨j, mem_univ j, ?_⟩
    simp only [hj, if_true]
    exact lt_top_iff_ne_top.mpr (hs j).2

theorem bot_lt_fold_max_mask :
    ⊥ < univ.fold max ⊥ (fun j => if m j then s j else ⊥) ↔ ∃ j, m j = true := by
  rw [Finset.lt_fold_max]
  constructor
  · rintro (h | ⟨j, -, h⟩)
    · exact absurd h (lt_irrefl _)
    · refine ⟨j, ?_⟩
      by_contra hm
      simp only [hm] at h
      exact absurd h (lt_irrefl _)
  · rintro ⟨j, hj⟩
    refine Or.inr ⟨j, mem_univ j, ?_⟩
    simp only [hj, if_true]
    exact bot_lt_iff_ne_bot.mpr (hs j).1

omit hs in
theorem dist_fold_max_mask :
    dist (univ.fold max ⊥ (fun j => if m j then s j else ⊥))
      = univ.fold min ⊤ (fun j => if m j then dist (s j) else ⊤) := by
  rw [dist_fold_max]
  congr 1
  funext j
  cases m j
  · simp only [Bool.false_eq_true, if_false]; exact dist_bot
  · simp only [if_true]

end Mask

/-! ## The hardest positive -/

section Pos

variable (s : J → EReal) (pos : J → Bool)

theorem dapK_eq_fold : dapK s pos = univ.fold max 0 (fun j => if pos j then dist (s j) else 0) := by
  have h : dapK s pos = dist (pminK s pos) := rfl
  rw [h, pminK, dist_fold_min]
  congr 1
  funext j
  cases pos j
  · simp only [Bool.false_eq_true, if_false]; exact dist_top
  · simp only [if_true]

theorem dapK_nonneg : 0 ≤ dapK s pos := le_max_left _ _

theorem dapK_eq : dapK s pos = dapR s pos := by
  rw [dapK_eq_fold]
  unfold dapR hasPosR
  by_cases hp : ∃ j, pos j = true
  · rw [decide_eq_true hp, if_pos rfl]
    obtain ⟨j0, hj0⟩ := hp
    refine eq_of_forall_ge_iff (fun c => ?_)
    rw [Finset.fold_max_le, Finset.fold_max_le]
    constructor
    · rintro ⟨h0, h⟩
      refine ⟨bot_le, fun j hj => ?_⟩
      have := h j hj
      cases hpj : pos j
      · simp only [Bool.false_eq_true, if_false]; exact bot_le
      · simpa only [hpj, if_true] using this
    · rintro ⟨-, h⟩
      have h0 : (0 : EReal) ≤ c := by
        have := h j0 (mem_univ j0)
        simp only [hj0, if_true] at this
        exact le_trans (dist_nonneg _) this
      refine ⟨h0, fun j hj => ?_⟩
      have := h j hj
      cases hpj : pos j
      · simp only [Bool.false_eq_true, if_false]; exact h0
      · simpa only [hpj, if_true] using this
  · rw [decide_eq_false hp]
    simp only [Bool.false_eq_true, if_false]
    have hall : ∀ j, pos j = false := fun j => by
      cases hpj : pos j
      · rfl
      · exact absurd ⟨j, hpj⟩ hp
    refine le_antisymm ?_ ?_
    · rw [Finset.fold_max_le]
      refine ⟨le_rfl, fun j _ => ?_⟩
      simp only [hall j, Bool.false_eq_true, if_false]; exact le_rfl
    · rw [Finset.le_fold_max]; exact Or.inl le_rfl

theorem dapK_lt_top (hs : ∀ j, s j ≠ ⊥ ∧ s j ≠ ⊤) : dapK s pos < ⊤ := by
  rw [dapK_eq_fold, Finset.fold_max_lt]
  refine ⟨EReal.zero_lt_top, fun j _ => ?_⟩
  cases pos j
  · simp only [Bool.false_eq_true, if_false]; exact EReal.zero_lt_top
  · simp only [if_true]
    obtain ⟨r, hr⟩ := exists_real (hs j)
    rw [hr]; exact dist_coe_lt_top r

end Pos

/-! ## The semi-hard window -/

theorem window_upper (x d : ℝ) (hd : 0 ≤ d) :
    ((x : EReal) < 1 - (d : EReal)) ↔ ((d : EReal) < dist (x : EReal)) := by
  unfold dist
  rw [lt_max_iff, ← EReal.coe_one, ← EReal.coe_sub, ← EReal.coe_sub, ← EReal.coe_zero,
    EReal.coe_lt_coe_iff, EReal.coe_lt_coe_iff, EReal.coe_lt_coe_iff]
  constructor
  · intro h; right; linarith
  · rintro (h | h)
    · linarith
    · linarith

theorem window_lower (x d μ : ℝ) (hd : 0 ≤ d) (hμ : 0 < μ) :
    ((1 : EReal) - (d : EReal) - (μ : EReal) < (x : EReal)) ↔ (dist (x : EReal) < (d : EReal) + (μ : EReal)) := by
  unfold dist
  rw [max_lt_iff, ← EReal.coe_one, ← EReal.coe_sub, ← EReal.coe_sub, ← EReal.coe_sub, ← EReal.coe_add,
    ← EReal.coe_zero, EReal.coe_lt_coe_iff, EReal.coe_lt_coe_iff, EReal.coe_lt_coe_iff]
  constructor
  · intro h; constructor <;> linarith
  · rintro ⟨-, h⟩; linarith

section Main

variable (μ : EReal) (hμ0 : 0 < μ) (hμt : μ ≠ ⊤) (s : J → EReal) (hs : ∀ j, s j ≠ ⊥ ∧ s j ≠ ⊤)
  (pos neg : J → Bool)
include hμ0 hμt hs

theorem semiK_eq (j : J) : semiK μ s pos neg j = semiR μ s pos neg j := by
  have hd0 : 0 ≤ dapK s pos := dapK_nonneg s pos
  have hdt : dapK s pos < ⊤ := dapK_lt_top s pos hs
  obtain ⟨d, hd⟩ := exists_real (x := dapK s pos)
    ⟨ne_of_gt (lt_of_lt_of_le EReal.bot_lt_zero hd0), ne_of_lt hdt⟩
  obtain ⟨x, hx⟩ := exists_real (hs j)
  obtain ⟨m, hm⟩ := exists_real (x := μ) ⟨ne_of_gt (lt_trans EReal.bot_lt_zero hμ0), hμt⟩
  have hd0' : 0 ≤ d := by
    rw [hd, ← EReal.coe_zero, EReal.coe_le_coe_iff] at hd0; exact hd0
  have hm0 : 0 < m := by
    rw [hm, ← EReal.coe_zero, EReal.coe_lt_coe_iff] at hμ0; exact hμ0
  unfold semiK semiR lowerK upperK
  rw [← dapK_eq, hd, hx, hm]
  rw [decide_eq_decide.mpr (window_upper x d hd0'), decide_eq_decide.mpr (window_lower x d m hd0' hm0),
    Bool.and_assoc]

theorem hasSemiK_eq : hasSemiK μ s pos neg = hasSemiR μ s pos neg := by
  unfold hasSemiK hasSemiR smaxK
  rw [decide_eq_decide, bot_lt_fold_max_mask s hs]
  exact exists_congr (fun j => by rw [semiK_eq μ hμ0 hμt s hs pos neg j])

theorem danSemiK_eq : danSemiK μ s pos neg = danSemiR μ s pos neg := by
  have h : danSemiK μ s pos neg = dist (smaxK μ s pos neg) := rfl
  rw [h, smaxK, dist_fold_max_mask]
  unfold danSemiR
  congr 1
  funext j
  rw [semiK_eq μ hμ0 hμt s hs pos neg j]

end Main

theorem danHardK_eq (s : J → EReal) (neg : J → Bool) : danHardK s neg = danHardR s neg := by
  have h : danHardK s neg = dist (nmaxK s neg) := rfl
  rw [h, nmaxK, dist_fold_max_mask]
  rfl

theorem hasPosK_eq (s : J → EReal) (hs : ∀ j, s j ≠ ⊥ ∧ s j ≠ ⊤) (pos : J → Bool) :
    hasPosK s pos = hasPosR pos := by
  unfold hasPosK hasPosR pminK
  rw [decide_eq_decide]
  exact fold_min_mask_lt_top s hs pos

theorem hasNegK_eq (s : J → EReal) (hs : ∀ j, s j ≠ ⊥ ∧ s j ≠ ⊤) (neg : J → Bool) :
    hasNegK s neg = hasNegR neg := by
  unfold hasNegK hasNegR nmaxK
  rw [decide_eq_decide]
  exact bot_lt_fold_max_mask s hs neg

/-- For finite similarities and a finite positive margin the two minings agree on the validity bit and on the
    row's loss. -/
theorem mining_eq (μ : EReal) (hμ0 : 0 < μ) (hμt : μ ≠ ⊤) (s : J → EReal) (hs : ∀ j, s j ≠ ⊥ ∧ s j ≠ ⊤)
    (pos neg : J → Bool) :
    validK s pos neg = validR pos neg ∧ rowK μ s pos neg = rowR μ s pos neg := by
  have hv : validK s pos neg = validR pos neg := by
    unfold validK validR
    rw [hasPosK_eq s hs pos, hasNegK_eq s hs neg]
  refine ⟨hv, ?_⟩
  unfold rowK rowR danK danR
  rw [hv, dapK_eq, hasSemiK_eq μ hμ0 hμt s hs pos neg, danSemiK_eq μ hμ0 hμt s hs pos neg, danHardK_eq]

end Cert.Mining

end
-- ==== Proof.Spec.lean ====
import proofs.«419832_j8873402433633_3_alg».proof.Proof.Mining
import Idealize.ShloMosaic.PureOps.Ideal
import Idealize.ShloMosaic.Lib.ValueIdx

/-!
# The loss both programs compute, as a function of the embeddings and the labels

`x i k` is entry `k` of embedding `i` (8192 rows of 128), `l i` the label of row `i`. Each row is divided by its
Euclidean norm clipped below at the literal `eps`; `sim x i j` is the inner product of two normalised rows.
For an anchor `i`, column `j` is a positive when the labels agree and `j ≠ i`, a negative when they differ.
The loss is the sum of the rows' losses (`Cert.Mining`) over the number of valid rows, at least one.
`lossK` mines the similarities, `lossR` the distances; they are the same function of finite embeddings.
-/

noncomputable section

namespace Cert.Spec

open Idealize.ShloMosaic Cert.Mining

/-- The clip of the norm: the f32 pattern of 1e-12. -/
def eps : EReal := Ideal.ofBits .f32 0x2B8CBCCC#32
/-- The margin: the f32 pattern of 0.2. -/
def margin : EReal := Ideal.ofBits .f32 0x3E4CCCCD#32

section
variable (x : Fin 8192 → Fin 128 → EReal) (l : Fin 8192 → BitVec 32)

/-- The squared norm of row `i`. -/
def normSq (i : Fin 8192) : EReal := ∑ k : Fin 128, x i k * x i k
/-- Row `i` divided by its clipped norm. -/
def en (i : Fin 8192) (k : Fin 128) : EReal := Ideal.div (x i k) (max (Ideal.sqrt (normSq x i)) eps)
/-- The cosine similarity of rows `i` and `j`. -/
def sim (i j : Fin 8192) : EReal := ∑ k : Fin 128, en x i k * en x j k
/-- `j` is a positive of anchor `i`: the same label, another row. -/
def posM (i j : Fin 8192) : Bool := decide (l i = l j) && !decide (i = j)
/-- `j` is a negative of anchor `i`: another label. -/
def negM (i j : Fin 8192) : Bool := !decide (l i = l j)

def rowsK (i : Fin 8192) : EReal := rowK margin (sim x i) (posM l i) (negM l i)
def validsK (i : Fin 8192) : Bool := validK (sim x i) (posM l i) (negM l i)
def rowsR (i : Fin 8192) : EReal := rowR margin (sim x i) (posM l i) (negM l i)
def validsR (i : Fin 8192) : Bool := validR (posM l i) (negM l i)
end

/-- How many rows a validity vector marks. -/
def cntOf (v : Fin 8192 → Bool) : ℕ := (Finset.univ.filter fun i => v i = true).card
/-- The mean of the rows' losses over the marked rows (over one row when none is marked). -/
def lossOf (row : Fin 8192 → EReal) (v : Fin 8192 → Bool) : EReal :=
  Ideal.div (∑ i, row i) (((max (cntOf v) 1 : ℕ) : ℝ) : EReal)

def lossK (x : Fin 8192 → Fin 128 → EReal) (l : Fin 8192 → BitVec 32) : EReal := lossOf (rowsK x l) (validsK x l)
def lossR (x : Fin 8192 → Fin 128 → EReal) (l : Fin 8192 → BitVec 32) : EReal := lossOf (rowsR x l) (validsR l)

end Cert.Spec

end
-- ==== Proof.SpecLaws.lean ====
import proofs.«419832_j8873402433633_3_alg».proof.Proof.Spec
import Idealize.ShloMosaic.PureOps.Ideal.Laws
import Mathlib.Data.EReal.Inv

/-!
# Laws of the loss

The literals both programs use, as extended reals; the similarities of finite embeddings are finite; hence
(`Cert.Mining.mining_eq`, row by row) the two losses are one; and the loss summed tile by tile — two halves of
sixteen tiles of 256 rows — is the loss.
-/

noncomputable section

namespace Cert.Spec

open Idealize.ShloMosaic Cert.Mining

/-! ## The literals -/

theorem ofBits_one : Ideal.ofBits .f32 0x3F800000#32 = (1 : EReal) := by
  simp [Ideal.ofBits, Ideal.ieee]
  rw [← EReal.coe_mul, ← EReal.coe_one, EReal.coe_eq_coe_iff]
  norm_num
theorem ofBits_inf : Ideal.ofBits .f32 0x7F800000#32 = (⊤ : EReal) := by
  simp [Ideal.ofBits, Ideal.ieee]
theorem ofBits_ninf : Ideal.ofBits .f32 0xFF800000#32 = (⊥ : EReal) := by
  simp [Ideal.ofBits, Ideal.ieee]
theorem margin_pos : 0 < margin := by
  simp [margin, Ideal.ofBits, Ideal.ieee]
  rw [← EReal.coe_mul]
  exact EReal.coe_pos.mpr (by positivity)
theorem margin_ne_top : margin ≠ ⊤ := by
  simp [margin, Ideal.ofBits, Ideal.ieee]
  rw [← EReal.coe_mul]
  exact EReal.coe_ne_top _
theorem eps_pos : 0 < eps := by
  simp [eps, Ideal.ofBits, Ideal.ieee]
  rw [← EReal.coe_mul]
  exact EReal.coe_pos.mpr (by positivity)
theorem eps_ne_top : eps ≠ ⊤ := by
  simp [eps, Ideal.ofBits, Ideal.ieee]
  rw [← EReal.coe_mul]
  exact EReal.coe_ne_top _

/-! ## Finite embeddings have finite similarities -/

/-- The embedding of the reals commutes with finite sums. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The embedding of the reals commutes with the maximum. -/
theorem coe_max (a b : ℝ) : max (a : EReal) (b : EReal) = ((max a b : ℝ) : EReal) :=
  (EReal.coe_strictMono.monotone.map_max).symm

/-- The clip of the norm is a positive real. -/
theorem eps_real : ∃ e : ℝ, 0 < e ∧ eps = (e : EReal) := by
  have h : (eps.toReal : EReal) = eps :=
    EReal.coe_toReal eps_ne_top (ne_of_gt (lt_trans EReal.bot_lt_zero eps_pos))
  refine ⟨eps.toReal, ?_, h.symm⟩
  have := eps_pos
  rw [← h] at this
  exact EReal.coe_pos.mp this

/-- A normalised entry of a finite embedding is a real number. -/
theorem en_real (x : Fin 8192 → Fin 128 → EReal) (hx : ∀ i k, x i k ≠ ⊥ ∧ x i k ≠ ⊤) (i : Fin 8192) (k : Fin 128) :
    ∃ r : ℝ, en x i k = (r : EReal) := by
  choose xr hxr using fun i k => Cert.Mining.exists_real (hx i k)
  obtain ⟨e, he0, he⟩ := eps_real
  have hn : normSq x i = ((∑ k, xr i k * xr i k : ℝ) : EReal) := by
    unfold normSq
    rw [coe_sum]
    refine Finset.sum_congr rfl (fun k _ => ?_)
    rw [hxr i k, EReal.coe_mul]
  have hn0 : 0 ≤ ∑ k, xr i k * xr i k := Finset.sum_nonneg (fun k _ => mul_self_nonneg _)
  have hy0 : 0 < max (Real.sqrt (∑ k, xr i k * xr i k)) e := lt_max_of_lt_right he0
  have hy : ((max (Real.sqrt (∑ k, xr i k * xr i k)) e : ℝ) : EReal) ≠ 0 := by
    rw [← EReal.coe_zero, Ne, EReal.coe_eq_coe_iff]
    exact ne_of_gt hy0
  unfold en
  rw [hn, Ideal.sqrt_coe, if_neg (not_lt.mpr hn0), he, coe_max, Ideal.div, if_neg hy, hxr i k,
    ← EReal.coe_inv, ← EReal.coe_mul]
  exact ⟨_, rfl⟩

/-- A similarity of finite embeddings is a real number. -/
theorem sim_real (x : Fin 8192 → Fin 128 → EReal) (hx : ∀ i k, x i k ≠ ⊥ ∧ x i k ≠ ⊤) (i j : Fin 8192) :
    ∃ r : ℝ, sim x i j = (r : EReal) := by
  choose a ha using fun i k => en_real x hx i k
  refine ⟨∑ k, a i k * a j k, ?_⟩
  unfold sim
  rw [coe_sum]
  refine Finset.sum_congr rfl (fun k _ => ?_)
  rw [ha i k, ha j k, EReal.coe_mul]

theorem sim_finite (x : Fin 8192 → Fin 128 → EReal) (hx : ∀ i k, x i k ≠ ⊥ ∧ x i k ≠ ⊤) (i j : Fin 8192) :
    sim x i j ≠ ⊥ ∧ sim x i j ≠ ⊤ := by
  obtain ⟨r, hr⟩ := sim_real x hx i j
  rw [hr]
  exact ⟨EReal.coe_ne_bot r, EReal.coe_ne_top r⟩

/-- The two losses are one function of finite embeddings. -/
theorem loss_eq (x : Fin 8192 → Fin 128 → EReal) (l : Fin 8192 → BitVec 32) (hx : ∀ i k, x i k ≠ ⊥ ∧ x i k ≠ ⊤) :
    lossK x l = lossR x l := by
  have hm := fun i => mining_eq margin margin_pos margin_ne_top (sim x i) (sim_finite x hx i) (posM l i) (negM l i)
  have hr : rowsK x l = rowsR x l := funext fun i => (hm i).2
  have hv : validsK x l = validsR l := funext fun i => (hm i).1
  unfold lossK lossR
  rw [hr, hv]

/-! ## The loss, tile by tile -/

/-- Row `r` of inner tile `k` of half `c`. -/
def tileIdx (c : Fin 2) (k : Fin 16) (r : Fin 256) : Fin 8192 := ⟨(16 * c.val + k.val) * 256 + r.val, by omega⟩
/-- A validity bit as a number. -/
def ind (b : Bool) : EReal := if b then 1 else 0

/-- The tiles enumerate the rows once each. -/
theorem tileIdx_bijective :
    Function.Bijective (fun p : (Fin 2 × Fin 16) × Fin 256 => tileIdx p.1.1 p.1.2 p.2) := by
  rw [Fintype.bijective_iff_injective_and_card]
  constructor
  · rintro ⟨⟨c, k⟩, r⟩ ⟨⟨c', k'⟩, r'⟩ h
    simp only [tileIdx, Fin.mk.injEq] at h
    have hc := c.isLt
    have hc' := c'.isLt
    have hk := k.isLt
    have hk' := k'.isLt
    have hr := r.isLt
    have hr' := r'.isLt
    have h1 : c.val = c'.val := by omega
    have h2 : k.val = k'.val := by omega
    have h3 : r.val = r'.val := by omega
    rw [Fin.ext h1, Fin.ext h2, Fin.ext h3]
  · simp

/-- A sum over the rows is the sum over the two halves of the sums over their tiles. -/
theorem sum_halves (f : Fin 8192 → EReal) :
    (∑ k : Fin 16, ∑ r : Fin 256, f (tileIdx 0 k r)) + (∑ k : Fin 16, ∑ r : Fin 256, f (tileIdx 1 k r))
      = ∑ i, f i := by
  rw [← Fintype.sum_bijective _ tileIdx_bijective (fun p => f (tileIdx p.1.1 p.1.2 p.2)) f (fun _ => rfl)]
  simp only [Fintype.sum_prod_type, Fin.sum_univ_two]

/-- The validity bits sum to the number of valid rows. -/
theorem sum_ind (v : Fin 8192 → Bool) : ∑ i, ind (v i) = (((cntOf v : ℕ) : ℝ) : EReal) := by
  have h : ∀ i, ind (v i) = ((if v i = true then (1 : ℝ) else 0 : ℝ) : EReal) := fun i => by
    unfold ind
    cases v i <;> simp
  rw [Finset.sum_congr rfl (fun i _ => h i), ← coe_sum, Finset.sum_boole]
  rfl

/-- Clipping a count below at one, among the naturals or among the extended reals. -/
theorem max_cnt (n : ℕ) : max (((n : ℝ)) : EReal) 1 = (((max n 1 : ℕ) : ℝ) : EReal) := by
  rw [Nat.cast_max, Nat.cast_one, ← coe_max, EReal.coe_one]

theorem lossK_tiles (x : Fin 8192 → Fin 128 → EReal) (l : Fin 8192 → BitVec 32) :
    Ideal.div
      ((∑ k : Fin 16, ∑ r : Fin 256, rowsK x l (tileIdx 0 k r)) + (∑ k : Fin 16, ∑ r : Fin 256, rowsK x l (tileIdx 1 k r)))
      (max ((∑ k : Fin 16, ∑ r : Fin 256, ind (validsK x l (tileIdx 0 k r)))
            + (∑ k : Fin 16, ∑ r : Fin 256, ind (validsK x l (tileIdx 1 k r)))) 1)
      = lossK x l := by
  rw [sum_halves (rowsK x l), sum_halves (fun i => ind (validsK x l i)), sum_ind, max_cnt]
  rfl

end Cert.Spec

end
-- ==== Proof.KI.Tail.lean ====
import proofs.«419832_j8873402433633_3_alg».proof.Proof.KI.Runs
import proofs.«419832_j8873402433633_3_alg».proof.Proof.KI.Keeps
import proofs.«419832_j8873402433633_3_alg».proof.Proof.SpecLaws
import Idealize.ShloMosaic.Lib.Pipeline.Value
import Idealize.ShloMosaic.Lib.ValueIdx
import Idealize.ShloMosaic.Lib.ValueLayout
import Idealize.ShloMosaic.Lib.StableHlo.Run

/-!
# After the region: the host operations that finish the loss, and the output array read back

The region leaves an array of two blocks of eight rows, one per core; entry (0, 0) of a block is the core's
sum of row losses and entry (0, 1) its count of valid rows. The thirteen host operations after it slice out
these four entries, add the two sums and the two counts, clip the count below at one and divide. The output array
after the run holds, block by block, what the last inner step of each core wrote.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The host operations after the region -/

section TailValue

/-- A one-by-one slice of the output array, reshaped to a scalar, is the array's entry at the slice's offsets. -/
theorem slice_scalar (a : FVec Ideal S16x128 .f32) (off : Fin 2 → Nat) (h : S16x128.Slices off S1x1) (k : S16x128.Idx)
    (hk0 : (k 0).val = off 0) (hk1 : (k 1).val = off 1) (i : S_.Idx) :
    shapeCast S_ (extractStridedSlice S1x1 off a h) shapeCasts_S1x1_S_ i = a k := by
  have e1 : shapeCast S_ (extractStridedSlice S1x1 off a h) shapeCasts_S1x1_S_ i
      = extractStridedSlice S1x1 off a h (ValueIdx.ix2 0 0) := by
    refine shapeCast_apply _ shapeCasts_S1x1_S_ i (ValueIdx.ix2 0 0) ?_
    have h1 : (S_.rowMajor i).val < S_.numel := (S_.rowMajor i).isLt
    have h2 : S_.numel = 1 := by decide
    rw [Shape.rowMajor_val_two]
    simp
    omega
  rw [e1]
  refine extractStridedSlice_apply off a h (ValueIdx.ix2 0 0) k (fun b => ?_)
  fin_cases b
  · simpa using hk0
  · simpa using hk1

/-- The output array of the region in a valuation, at its literal type. -/
abbrev outArr (W : Valuation τ sig (Elt Ideal)) : FVec Ideal S16x128 .f32 := W (Proc.devRef .tc main_v8)

/-- The loss the host operations after the region compute from the output array: the two cores' sums over the two
    cores' counts, the count clipped below at one. -/
theorem tail_v20 (W : Valuation τ sig (Elt Ideal)) :
    (StableHlo.after hostOps1 W (Proc.devRef .tc main_v20) : S_.Idx → EReal)
      = fun _ => Ideal.div (outArr W (ValueIdx.ix2 0 0) + outArr W (ValueIdx.ix2 8 0))
          (max (outArr W (ValueIdx.ix2 0 1) + outArr W (ValueIdx.ix2 8 1)) 1) := by
  show StableHlo.after hostOps1 W (Proc.devRef .tc main_v20) = _
  after_results
  funext i
  show Ideal.div
      (shapeCast S_ (extractStridedSlice S1x1 ![0, 0] (outArr W) slices_S16x128_S1x1_0_0) shapeCasts_S1x1_S_ i
        + shapeCast S_ (extractStridedSlice S1x1 ![8, 0] (outArr W) slices_S16x128_S1x1_8_0) shapeCasts_S1x1_S_ i)
      (max (shapeCast S_ (extractStridedSlice S1x1 ![0, 1] (outArr W) slices_S16x128_S1x1_0_1) shapeCasts_S1x1_S_ i
        + shapeCast S_ (extractStridedSlice S1x1 ![8, 1] (outArr W) slices_S16x128_S1x1_8_1) shapeCasts_S1x1_S_ i)
        (Ideal.ofBits .f32 0x3F800000#32)) = _
  rw [slice_scalar (outArr W) ![0, 0] _ (ValueIdx.ix2 0 0) rfl rfl i, slice_scalar (outArr W) ![8, 0] _ (ValueIdx.ix2 8 0) rfl rfl i,
    slice_scalar (outArr W) ![0, 1] _ (ValueIdx.ix2 0 1) rfl rfl i, slice_scalar (outArr W) ![8, 1] _ (ValueIdx.ix2 8 1) rfl rfl i,
    Cert.Spec.ofBits_one]

end TailValue

/-! ## The output array after the run, read at the blocks the two cores wrote -/

section Readback

variable {F : FTy → Type} [FloatOps F]

/-- The output window's block index: the core on the first axis, nothing on the second. -/
theorem out_index : ∀ t : Fin cfg0.N, (cfg0.win 4).index t (0 : Fin 2) = t.val / 16 ∧ (cfg0.win 4).index t (1 : Fin 2) = 0 :=
  (by decide +kernel : ∀ t : Fin grid0.N, win0_4.index t (0 : Fin 2) = t.val / 16 ∧ win0_4.index t 1 = 0)

/-- Two points that write the output back, the last inner steps of the two cores, write different blocks. -/
theorem out_disjoint : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => by
    have h0 : (cfg0.win 4).index t (0 : Fin 2) = (cfg0.win 4).index t' (0 : Fin 2) := congrFun h (0 : Fin 2)
    rw [(out_index t).1, (out_index t').1] at h0
    have h1 := (flush0_4 t).mp hf
    have h2 := (flush0_4 t').mp hf'
    exact hne (Fin.ext (by omega))

theorem N_cfg0 : cfg0.N = 32 := N_0

/-- The last inner step of core `cc`. -/
abbrev lastPt (cc : Fin 2) : Fin cfg0.N := ⟨16 * cc.val + 15, by rw [N_cfg0]; omega⟩

/-- Entry `(y0, y1)` of core `cc`'s block of the output array after the run is what the core's last inner step
    left in the output window. -/
theorem arrAt_out {c : Dev nD} (dat : Pipeline.Dat τ (Elt F) Unit ℕ (UR sig nD τ) ℕ cfg0 c)
    (cc : Fin 2) (y0 : Fin 8) (y1 : Fin 128) :
    (dat.arrAt 4 cfg0.N : S16x128.Idx → Elt F .f32) (ValueIdx.ix2 ⟨8 * cc.val + y0.val, by omega⟩ y1)
      = (dat.after 4 (lastPt cc) : S8x128.Idx → Elt F .f32) (ValueIdx.ix2 y0 y1) := by
  have hc : cc.val < 2 := cc.isLt
  have hf : (cfg0.win 4).flush (lastPt cc) = true :=
    (flush0_4 (lastPt cc)).mpr (by show (16 * cc.val + 15) % 16 = 15; omega)
  have h : (dat.arrAt 4 cfg0.N : S16x128.Idx → Elt F .f32) (((cfg0.win 4).blk (lastPt cc)).view.emb (ValueIdx.ix2 y0 y1))
      = (dat.after 4 (lastPt cc) : S8x128.Idx → Elt F .f32) (ValueIdx.ix2 y0 y1) :=
    congrFun (dat.read_blk_arrAt_eq_flushed 4 out_disjoint cfg0.N (lastPt cc) (lastPt cc).isLt hf) (ValueIdx.ix2 y0 y1)
  have he : ((cfg0.win 4).blk (lastPt cc)).view.emb (ValueIdx.ix2 y0 y1)
      = (ValueIdx.ix2 ⟨8 * cc.val + y0.val, by omega⟩ y1 : S16x128.Idx) := by
    obtain ⟨e0, e1⟩ := out_index (lastPt cc)
    funext a; apply Fin.ext
    match a with
    | ⟨0, _⟩ =>
      show win0_4.index (lastPt cc) (0 : Fin 2) * 8 + 1 * y0.val = 8 * cc.val + y0.val
      have e0' : win0_4.index (lastPt cc) (0 : Fin 2) = (16 * cc.val + 15) / 16 := e0
      omega
    | ⟨1, _⟩ =>
      show win0_4.index (lastPt cc) (1 : Fin 2) * 128 + 1 * y1.val = y1.val
      have e1' : win0_4.index (lastPt cc) (1 : Fin 2) = 0 := e1
      omega
  rw [he] at h
  exact h

end Readback

end Cert.KernelIdeal.Hand

end
-- ==== Proof.KI.Pieces.lean ====
import proofs.«419832_j8873402433633_3_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# What the pieces are

The contents the three cases leave in the accumulators and in the output block, as the body's own arithmetic on
the point's input blocks: at every point each accumulator ends at this step's contribution added to what it held —
zero at a first inner step, the value the point before left otherwise —, and at a last inner step the output
block is computed from the two accumulators as that step leaves them.
-/

/-! ## This step's contributions -/

/-- The sum of the row losses the body computes at point `t` from the point's four input blocks. -/
def sumRowAt (c : Dev nD) (t : Fin cfg0.N) : F .f32 :=
  k0_pay14 (k0_pay6 (iblk m c 0 t) (iblk m c 1 t)) (k0_pay8 (iblk m c 2 t) (iblk m c 3 t)) (k0_pay10 (grid0.coords t) (iblk m c 0 t) (iblk m c 1 t) (iblk m c 2 t) (iblk m c 3 t)) (k0_pay11 (grid0.coords t) (iblk m c 0 t) (iblk m c 1 t) (iblk m c 2 t) (iblk m c 3 t)) (Scalar.ofBits .f32 0xFF800000#32)

/-- The per-row indicator of a valid row the body computes at point `t`, whose sum is the step's count. -/
def cntVecAt (c : Dev nD) (t : Fin cfg0.N) : FVec F S256x1 .f32 :=
  k0_pay15 (k0_pay6 (iblk m c 0 t) (iblk m c 1 t)) (k0_pay8 (iblk m c 2 t) (iblk m c 3 t)) (k0_pay10 (grid0.coords t) (iblk m c 0 t) (iblk m c 1 t) (iblk m c 2 t) (iblk m c 3 t)) (Scalar.ofBits .f32 0xFF800000#32)

/-! ## The pieces of each case, on any memrefs and blocks -/

/-- The zero offsets of a whole-block access, as a constant function. -/
theorem hz2 : (![0, 0] : Fin 2 → ℕ) = fun _ => 0 := by funext a; fin_cases a <;> rfl

/-- At a first inner step the running sum ends at this step's sum of row losses added to the zero just stored. -/
theorem piece_A_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) :
    sout0_A_0 c i arg2 harg2 arg3 harg3 arg4 harg4 arg5 harg5 arg6 harg6 arg7 harg7 arg8 harg8 hc0 hc1 x0 x1 x2 x3 = k0_pay1 (k0_pay14 (k0_pay6 x0 x1) (k0_pay8 x2 x3) (k0_pay10 i x0 x1 x2 x3) (k0_pay11 i x0 x1 x2 x3) (Scalar.ofBits .f32 0xFF800000#32)) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A; dsimp only; sl_unfold_words
  rw [View.canon_cons_unit_zero (S := S1x1) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-- At a first inner step the running count ends at this step's count of valid rows added to the zero just stored. -/
theorem piece_A_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S256x128 .bf16) (x1 : Vec F S8192x128 .bf16) (x2 : Vec F S256x1 .i32) (x3 : Vec F S1x8192 .i32) :
    sout0_A_1 c i arg2 harg2 arg3 harg3 arg4 harg4 arg5 harg5 arg6 harg6 arg7 harg7 arg8 harg8 hc0 hc1 x0 x1 x2 x3 = k0_pay2 (k0_pay15 (k0_pay6 x0 x1) (k0_pay8 x2 x3) (k0_pay10 i x0 x1 x2 x3) (Scalar.ofBits .f32 0xFF800000#32)) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A; dsimp only; sl_unfold_words
  rw [View.canon_cons_unit_zero (S := S1x1) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-- At a middle inner step the running sum ends at this step's sum added to the carried value. -/
theorem piece_B_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    sout0_B_0 c i arg2 harg2 arg3 harg3 arg4 harg4 arg5 harg5 arg6 harg6 arg7 harg7 arg8 harg8 hc0 hc1 x0 x1 x2 x3 xs0 xs1 = k0_pay1 (k0_pay14 (k0_pay6 x0 x1) (k0_pay8 x2 x3) (k0_pay10 i x0 x1 x2 x3) (k0_pay11 i x0 x1 x2 x3) (Scalar.ofBits .f32 0xFF800000#32)) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B; dsimp only; sl_unfold_words
  rw [View.canon_unit_zero (S := S1x1) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-- At a middle inner step the running count ends at this step's count added to the carried value. -/
theorem piece_B_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    sout0_B_1 c i arg2 harg2 arg3 harg3 arg4 harg4 arg5 harg5 arg6 harg6 arg7 harg7 arg8 harg8 hc0 hc1 x0 x1 x2 x3 xs0 xs1 = k0_pay2 (k0_pay15 (k0_pay6 x0 x1) (k0_pay8 x2 x3) (k0_pay10 i x0 x1 x2 x3) (Scalar.ofBits .f32 0xFF800000#32)) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B; dsimp only; sl_unfold_words
  rw [View.canon_unit_zero (S := S1x1) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-- At a last inner step the running sum ends at this step's sum added to the carried value. -/
theorem piece_C_0 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    sout0_C_0 c i arg2 harg2 arg3 harg3 arg4 harg4 arg5 harg5 arg6 harg6 arg7 harg7 arg8 harg8 hc0 hc1 x0 x1 x2 x3 xs0 xs1 = k0_pay1 (k0_pay14 (k0_pay6 x0 x1) (k0_pay8 x2 x3) (k0_pay10 i x0 x1 x2 x3) (k0_pay11 i x0 x1 x2 x3) (Scalar.ofBits .f32 0xFF800000#32)) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C; dsimp only; sl_unfold_words
  rw [View.canon_unit_zero (S := S1x1) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-- At a last inner step the running count ends at this step's count added to the carried value. -/
theorem piece_C_1 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    sout0_C_1 c i arg2 harg2 arg3 harg3 arg4 harg4 arg5 harg5 arg6 harg6 arg7 harg7 arg8 harg8 hc0 hc1 x0 x1 x2 x3 xs0 xs1 = k0_pay2 (k0_pay15 (k0_pay6 x0 x1) (k0_pay8 x2 x3) (k0_pay10 i x0 x1 x2 x3) (Scalar.ofBits .f32 0xFF800000#32)) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C; dsimp only; sl_unfold_words
  rw [View.canon_unit_zero (S := S1x1) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-- At a last inner step the output block is computed from the two accumulators as the step itself leaves them. -/
theorem piece_C_4 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S256x1 .i32) (harg4 : arg4.IsWhole) (arg5 : Memref sig .tc .vmem S1x8192 .i32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S256x128 .bf16) (x1 : Vec F S8192x128 .bf16) (x2 : Vec F S256x1 .i32) (x3 : Vec F S1x8192 .i32) (xs0 : Vec F S1x1 .f32) (xs1 : Vec F S1x1 .f32) :
    out0_C_4 c i arg2 harg2 arg3 harg3 arg4 harg4 arg5 harg5 arg6 harg6 arg7 harg7 arg8 harg8 hc0 hc1 x0 x1 x2 x3 xs0 xs1 = k0_pay3 (k0_pay1 (k0_pay14 (k0_pay6 x0 x1) (k0_pay8 x2 x3) (k0_pay10 i x0 x1 x2 x3) (k0_pay11 i x0 x1 x2 x3) (Scalar.ofBits .f32 0xFF800000#32)) xs0) (k0_pay2 (k0_pay15 (k0_pay6 x0 x1) (k0_pay8 x2 x3) (k0_pay10 i x0 x1 x2 x3) (Scalar.ofBits .f32 0xFF800000#32)) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C; dsimp only; sl_unfold_words
  rw [View.canon_unit_zero (S := S8x128) hz2]
  simp only [View.readAt_eq_ld, harg2.read_unread, harg3.read_unread, harg4.read_unread, harg5.read_unread, harg7.read_unread, harg8.read_unread, View.ld_unit_zero (S := S256x128) hz2, View.ld_unit_zero (S := S8192x128) hz2, View.ld_unit_zero (S := S256x1) hz2, View.ld_unit_zero (S := S1x8192) hz2, View.ld_unit_zero (S := S1x1) hz2, View.readCov_unit_zero (S := S1x1) _ hz2]

/-! ## Point by point -/

/-- At a first inner step the running sum is this step's sum added to zero. -/
theorem scratch0_first (c : Dev nD) (t : Fin cfg0.N) (h0 : t.val % 16 = 0) :
    (outsAt0 m c t.val t.isLt).2.1 = k0_pay1 (sumRowAt m c t) (k0_pay4 (F := F)) := by
  have h1 : ¬t.val % 16 = 15 := by omega
  rw [outsAt0_A m c t h0 h1]; dsimp only
  unfold sumRowAt
  exact piece_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- At any other step it is this step's sum added to what the point before left. -/
theorem scratch0_next (c : Dev nD) (t : Fin cfg0.N) (h0 : t.val % 16 ≠ 0) :
    (outsAt0 m c t.val t.isLt).2.1 = k0_pay1 (sumRowAt m c t) (outsAt0 m c (t.val - 1) (Nat.lt_of_le_of_lt (Nat.sub_le _ _) t.isLt)).2.1 := by
  by_cases h1 : t.val % 16 = 15
  · rw [outsAt0_C m c t h0 h1]; dsimp only
    unfold sumRowAt
    exact piece_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    unfold sumRowAt
    exact piece_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- At a first inner step the running count is this step's count added to zero. -/
theorem scratch1_first (c : Dev nD) (t : Fin cfg0.N) (h0 : t.val % 16 = 0) :
    (outsAt0 m c t.val t.isLt).2.2 = k0_pay2 (cntVecAt m c t) (k0_pay5 (F := F)) := by
  have h1 : ¬t.val % 16 = 15 := by omega
  rw [outsAt0_A m c t h0 h1]; dsimp only
  unfold cntVecAt
  exact piece_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- At any other step it is this step's count added to what the point before left. -/
theorem scratch1_next (c : Dev nD) (t : Fin cfg0.N) (h0 : t.val % 16 ≠ 0) :
    (outsAt0 m c t.val t.isLt).2.2 = k0_pay2 (cntVecAt m c t) (outsAt0 m c (t.val - 1) (Nat.lt_of_le_of_lt (Nat.sub_le _ _) t.isLt)).2.2 := by
  by_cases h1 : t.val % 16 = 15
  · rw [outsAt0_C m c t h0 h1]; dsimp only
    unfold cntVecAt
    exact piece_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    unfold cntVecAt
    exact piece_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- At a last inner step the output block is computed from the two accumulators as this step leaves them. -/
theorem out_last (c : Dev nD) (t : Fin cfg0.N) (h1 : t.val % 16 = 15) :
    (outsAt0 m c t.val t.isLt).1 = k0_pay3 (outsAt0 m c t.val t.isLt).2.1 (outsAt0 m c t.val t.isLt).2.2 := by
  have h0 : ¬t.val % 16 = 0 := by omega
  rw [outsAt0_C m c t h0 h1]; dsimp only
  rw [piece_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    piece_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    piece_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]

end Cert.KernelIdeal.Hand

end
-- ==== Proof.KI.Entry.lean ====
import proofs.«419832_j8873402433633_3_alg».proof.Proof.KI.Runs
import proofs.«419832_j8873402433633_3_alg».proof.Proof.Spec
import proofs.«419832_j8873402433633_3_alg».proof.Proof.SpecLaws
import Idealize.ShloMosaic.PureOps.Ideal.Laws
import Idealize.ShloMosaic.Lib.ValueIdx
import Idealize.ShloMosaic.Lib.IdealHost
import Idealize.ShloMosaic.Lib.Pipeline.Value

/-!
# What the region finds on entry

Before its one pallas_call the program normalises the rows of the embeddings (each row over its Euclidean
norm clipped below at `eps`) and reshapes the labels twice, as a column and as a row. This module reads the
three arrays the windows stage, index by index, as functions of the two arguments: the normalised
embeddings are `Cert.Spec.en` of the embeddings, the column and the row are the labels. Then it reads the
windows' blocks off those arrays: at grid point `(c', k)` the first and the third window hold rows
`(16 c' + k) · 256 …` of the normalised embeddings and of the label column, the second and the fourth the
whole arrays.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The arguments are untouched by the host operations before the region -/

section generic
variable {F : FTy → Type} [FloatOps F]
variable (m : (ℓ : Loc nD τ sig) → Buf (Elt F) ℓ)

theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
  try rfl

theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results
  try rfl

/-! ## The windows' blocks, read off the staged arrays

A block's coordinate on an axis is the window's block index there times the block's extent, plus the
coordinate inside the block. -/

/-- Window 0 at point `(c', k)`: rows `(16 c' + k) · 256 …` of the normalised embeddings. -/
theorem iblk0_apply (c : Dev nD) (t : Fin cfg0.N) (c' : Fin 2) (k : Fin 16) (ht : t.val = 16 * c'.val + k.val)
    (r : Fin 256) (q : Fin 128) :
    (iblk m c 0 t : Vec F S256x128 .bf16) (ix2 r q)
      = (V m c main_v5 : S8192x128.Idx → Elt F .bf16) (ix2 (Cert.Spec.tileIdx c' k r) q) := by
  have hi := (by decide +kernel : ∀ t : Fin grid0.N, win0_0.index t (0 : Fin 2) = t.val ∧ win0_0.index t 1 = 0) t
  unfold iblk
  rw [View.read_apply]
  show V m c main_v5 _ = V m c main_v5 _
  congr 1
  funext a
  apply Fin.ext
  match a with
  | ⟨0, _⟩ => show win0_0.index t 0 * 256 + 1 * r.val = (16 * c'.val + k.val) * 256 + r.val; rw [hi.1, ht]; omega
  | ⟨1, _⟩ => show win0_0.index t 1 * 128 + 1 * q.val = q.val; rw [hi.2]; omega

/-- Window 1 at every point: the whole array of normalised embeddings. -/
theorem iblk1_apply (c : Dev nD) (t : Fin cfg0.N) (j : Fin 8192) (q : Fin 128) :
    (iblk m c 1 t : Vec F S8192x128 .bf16) (ix2 j q) = (V m c main_v5 : S8192x128.Idx → Elt F .bf16) (ix2 j q) := by
  have hi := (by decide +kernel : ∀ t : Fin grid0.N, win0_1.index t (0 : Fin 2) = 0 ∧ win0_1.index t 1 = 0) t
  unfold iblk
  rw [View.read_apply]
  show V m c main_v5 _ = V m c main_v5 _
  congr 1
  funext a
  apply Fin.ext
  match a with
  | ⟨0, _⟩ => show win0_1.index t 0 * 8192 + 1 * j.val = j.val; rw [hi.1]; omega
  | ⟨1, _⟩ => show win0_1.index t 1 * 128 + 1 * q.val = q.val; rw [hi.2]; omega

/-- Window 2 at point `(c', k)`: rows `(16 c' + k) · 256 …` of the label column. -/
theorem iblk2_apply (c : Dev nD) (t : Fin cfg0.N) (c' : Fin 2) (k : Fin 16) (ht : t.val = 16 * c'.val + k.val)
    (r : Fin 256) :
    (iblk m c 2 t : S256x1.Idx → BitVec 32) (ix2 r 0)
      = (V m c main_v6 : S8192x1.Idx → BitVec 32) (ix2 (Cert.Spec.tileIdx c' k r) 0) := by
  have hi := (by decide +kernel : ∀ t : Fin grid0.N, win0_2.index t (0 : Fin 2) = t.val ∧ win0_2.index t 1 = 0) t
  unfold iblk
  rw [View.read_apply]
  show V m c main_v6 _ = V m c main_v6 _
  congr 1
  funext a
  apply Fin.ext
  match a with
  | ⟨0, _⟩ => show win0_2.index t 0 * 256 + 1 * r.val = (16 * c'.val + k.val) * 256 + r.val; rw [hi.1, ht]; omega
  | ⟨1, _⟩ => show win0_2.index t 1 * 1 + 1 * 0 = 0; rw [hi.2]

/-- Window 3 at every point: the whole label row. -/
theorem iblk3_apply (c : Dev nD) (t : Fin cfg0.N) (j : Fin 8192) :
    (iblk m c 3 t : S1x8192.Idx → BitVec 32) (ix2 0 j) = (V m c main_v7 : S1x8192.Idx → BitVec 32) (ix2 0 j) := by
  have hi := (by decide +kernel : ∀ t : Fin grid0.N, win0_3.index t (0 : Fin 2) = 0 ∧ win0_3.index t 1 = 0) t
  unfold iblk
  rw [View.read_apply]
  show V m c main_v7 _ = V m c main_v7 _
  congr 1
  funext a
  apply Fin.ext
  match a with
  | ⟨0, _⟩ => show win0_3.index t 0 * 1 + 1 * 0 = 0; rw [hi.1]
  | ⟨1, _⟩ => show win0_3.index t 1 * 8192 + 1 * j.val = j.val; rw [hi.2]; omega

end generic

/-! ## The host operations' terms at an index -/

/-- The normalised rows as the host operations spell them: the squares summed along each row from zero, the
    square root, the clip below at the literal, the quotient, the conversion (the identity on extended reals). -/
def enTerm (x : FVec Ideal S8192x128 .f32) : FVec Ideal S8192x128 .bf16 :=
  truncf .bf16 (Host.divf x (broadcastInDim S8192x128 ![0, 1] bcast_S8192x1_S8192x128_0_1
    (maximumf (Host.sqrt (broadcastInDim S8192x1 ![0] bcast_S8192_S8192x1_0
        (Host.reduceAdd (mulf x x) (constant (F := Ideal) S_ .f32 0x00000000#32) reducesTo_S8192x128_S8192_d1 h_S_)))
      (broadcastInDim S8192x1 ![] bcast_S_S8192x1 (constant (F := Ideal) S_ .f32 0x2B8CBCCC#32))))) bitsLt_bf16_f32

/-- At an index it is the row's entry over the row's clipped norm. -/
theorem enTerm_apply (x : FVec Ideal S8192x128 .f32) (i : Fin 8192) (q : Fin 128) :
    enTerm x (ix2 i q) = Cert.Spec.en (fun i q => x (ix2 i q)) i q := by
  have hR : S8192x128.Reduces [1] S8192 := by decide
  unfold enTerm
  rw [truncf_apply, hostDivf_apply]
  rw [broadcastInDim_apply (s := S8192x1) (t := S8192x128) ![0, 1] bcast_S8192x1_S8192x128_0_1 _ (ix2 i q) (ix2 i 0)
    (fun a => by match a with | ⟨0, _⟩ => rfl | ⟨1, _⟩ => rfl)]
  rw [maximumf_apply]
  rw [broadcastInDim_scalar_apply, constant_apply]
  show Ideal.div (x (ix2 i q)) (max (Ideal.sqrt (broadcastInDim S8192x1 ![0] bcast_S8192_S8192x1_0
          (Host.reduceAdd (mulf x x) (constant (F := Ideal) S_ .f32 0x00000000#32) reducesTo_S8192x128_S8192_d1 h_S_) (ix2 i 0))) Cert.Spec.eps) = _
  rw [broadcastInDim_apply (s := S8192) (t := S8192x1) ![0] bcast_S8192_S8192x1_0 _ (ix2 i 0) (ix1 i)
    (fun a => by match a with | ⟨0, _⟩ => rfl)]
  rw [hostReduceAdd_apply, Ideal.hostReduceAdd_single reducesTo_S8192x128_S8192_d1 hR, constant_apply, Ideal.ofBits_zero_f32, zero_add]
  unfold Cert.Spec.en Cert.Spec.normSq
  refine congrArg (fun s => Ideal.div (x (ix2 i q)) (max (Ideal.sqrt s) Cert.Spec.eps)) (Finset.sum_congr rfl fun k _ => ?_)
  rw [mulf_apply]
  have e : hR.lift (ix1 i) k = ix2 i k := funext fun a => Fin.ext (by match a with | ⟨0, _⟩ => rfl | ⟨1, _⟩ => rfl)
  rw [e]
  rfl

/-- A vector of 8192 words reshaped to a column, at an index. -/
theorem colTerm_apply (l : S8192.Idx → BitVec 32) (i : Fin 8192) :
    shapeCast S8192x1 l shapeCasts_S8192_S8192x1 (ix2 i 0) = l (ix1 i) := by
  refine shapeCast_apply l shapeCasts_S8192_S8192x1 (ix2 i 0) (ix1 i) ?_
  rw [Shape.rowMajor_val_two, Shape.rowMajor_val_one]
  show i.val = i.val * 1 + 0
  omega

/-- A vector of 8192 words reshaped to a row, at an index. -/
theorem rowTerm_apply (l : S8192.Idx → BitVec 32) (j : Fin 8192) :
    shapeCast S1x8192 l shapeCasts_S8192_S1x8192 (ix2 0 j) = l (ix1 j) := by
  refine shapeCast_apply l shapeCasts_S8192_S1x8192 (ix2 0 j) (ix1 j) ?_
  rw [Shape.rowMajor_val_two, Shape.rowMajor_val_one]
  show j.val = 0 * 8192 + j.val
  omega

/-! ## The staged arrays at an index, as functions of the arguments -/

variable (m : (ℓ : Loc nD τ sig) → Buf (Elt Ideal) ℓ)

/-- The embeddings core `c` is given: entry `q` of row `i`. -/
abbrev xOf (c : Dev nD) : Fin 8192 → Fin 128 → EReal :=
  fun i q => (m ((c : Thread nD τ).loc main_arg0) : S8192x128.Idx → EReal) (ix2 i q)
/-- The labels core `c` is given. -/
abbrev lOf (c : Dev nD) : Fin 8192 → BitVec 32 :=
  fun i => (m ((c : Thread nD τ).loc main_arg1) : S8192.Idx → BitVec 32) (ix1 i)

/-- The first two windows' array: the normalised embeddings. -/
theorem V_main_v5_apply (c : Dev nD) (i : Fin 8192) (q : Fin 128) :
    (V m c main_v5 : S8192x128.Idx → EReal) (ix2 i q) = Cert.Spec.en (xOf m c) i q := by
  have e : (V m c main_v5 : S8192x128.Idx → EReal)
      = enTerm (m ((c : Thread nD τ).loc main_arg0) : FVec Ideal S8192x128 .f32) := by
    dsimp only [V, V0]
    simp only [hostOps0, hostOps0_1, List.flatten_cons, List.flatten_nil, List.append_nil, List.cons_append, List.nil_append]
    after_results
    rfl
  rw [e]
  exact enTerm_apply _ i q

/-- The third window's array: the labels as a column. -/
theorem V_main_v6_apply (c : Dev nD) (i : Fin 8192) :
    (V m c main_v6 : S8192x1.Idx → BitVec 32) (ix2 i 0) = lOf m c i := by
  have e : (V m c main_v6 : S8192x1.Idx → BitVec 32)
      = shapeCast S8192x1 (m ((c : Thread nD τ).loc main_arg1) : S8192.Idx → BitVec 32) shapeCasts_S8192_S8192x1 := by
    dsimp only [V, V0]
    simp only [hostOps0, hostOps0_1, List.flatten_cons, List.flatten_nil, List.append_nil, List.cons_append, List.nil_append]
    after_results
    rfl
  rw [e]
  exact colTerm_apply _ i

/-- The fourth window's array: the labels as a row. -/
theorem V_main_v7_apply (c : Dev nD) (j : Fin 8192) :
    (V m c main_v7 : S1x8192.Idx → BitVec 32) (ix2 0 j) = lOf m c j := by
  have e : (V m c main_v7 : S1x8192.Idx → BitVec 32)
      = shapeCast S1x8192 (m ((c : Thread nD τ).loc main_arg1) : S8192.Idx → BitVec 32) shapeCasts_S8192_S1x8192 := by
    dsimp only [V, V0]
    simp only [hostOps0, hostOps0_1, List.flatten_cons, List.flatten_nil, List.append_nil, List.cons_append, List.nil_append]
    after_results
    rfl
  rw [e]
  exact rowTerm_apply _ j

end Cert.KernelIdeal.Hand

end
-- ==== Proof.KI.PayLayout.lean ====
import Idealize.ShloMosaic.Lib.ValueIdx
import Idealize.ShloMosaic.Lib.Pipeline.Value
import Idealize.ShloMosaic.Lib.ValueLayout

/-!
# Column layouts read at an index

A vector of `a` entries cast to a column `[a, 1]`, a column broadcast along the lanes to `[a, b]`, a one-entry vector cast
to `[1, 1, 1]` and read at its one position, and the index set `[1, a, 1]` as the range of its middle coordinate.
-/

noncomputable section

namespace Cert.KernelIdeal.PayValue

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector cast to `[1, 1, 1]` and read at its one position is the entry. -/
theorem extractAt_shapeCast_1_111 (x : (⟨1, ![1]⟩ : Shape).Idx → α) (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) :=
  shapeCast_apply x h _ _ (by
    rw [Shape.rowMajor_val_three, Shape.rowMajor_val_one]
    rfl)

/-- The index set `[1, a, 1]` is the range of its middle coordinate. -/
def idx1a1 (a : ℕ) : Fin a ≃ (⟨3, ![1, a, 1]⟩ : Shape).Idx where
  toFun r := ix3 (0 : Fin 1) r (0 : Fin 1)
  invFun i := i 1
  left_inv r := rfl
  right_inv i := by
    funext c
    match c with
    | ⟨0, _⟩ => exact Fin.ext (by show (0 : ℕ) = (i 0).val; have h : (i 0).val < 1 := (i 0).isLt; omega)
    | ⟨1, _⟩ => rfl
    | ⟨2, _⟩ => exact Fin.ext (by show (0 : ℕ) = (i 2).val; have h : (i 2).val < 1 := (i 2).isLt; omega)

/-- A sum over the index set `[1, a, 1]` is the sum over the middle coordinate. -/
theorem sum_idx1a1 {M : Type*} [AddCommMonoid M] {a : ℕ} (f : (⟨3, ![1, a, 1]⟩ : Shape).Idx → M) :
    ∑ i, f i = ∑ r : Fin a, f (ix3 (0 : Fin 1) r (0 : Fin 1)) :=
  (Equiv.sum_comp (idx1a1 a) f).symm

end Cert.KernelIdeal.PayValue

end
-- ==== Proof.KI.PayAcc.lean ====
import proofs.«419832_j8873402433633_3_alg».proof.Proof.Gen.KernelIdeal.Skeleton
import proofs.«419832_j8873402433633_3_alg».proof.Proof.KI.PayLayout
import Idealize.ShloMosaic.PureOps.Ideal.Laws

/-!
# The accumulators and the output block, read at an index

The running sum of the tiles' losses and the running count of their valid rows each add one number per grid point to a
`[1, 1]` block; at the first point of a half both are set to zero; after the last point the two numbers are written to
entries `(0, 0)` and `(0, 1)` of the output block, whose other entries are zero.
-/

noncomputable section

namespace Cert.KernelIdeal.PayValue

open Idealize.ShloMosaic Idealize.SL.Sem Idealize.ShloMosaic.ValueIdx Cert.KernelIdeal Cert.KernelIdeal.Gen

/-- The loss accumulator after a point: what it held plus the tile's loss. -/
theorem pay1_apply (v79 : EReal) (v86 : Vec Ideal S1x1 .f32) :
    k0_pay1 (F := Ideal) v79 v86 (ix2 (0 : Fin 1) (0 : Fin 1)) = v86 (ix2 (0 : Fin 1) (0 : Fin 1)) + v79 := by
  unfold k0_pay1
  exact congrFun (shapeCast_self _ _) _

/-- The add-reduction of a column cast to `[1, 256, 1]`, from the zero word, is the sum of the column. -/
theorem sum_column (v : FVec Ideal S256x1 .f32) (j : S1.Idx) :
    multiReduction (F := Ideal) .add [1, 2] S1 (shapeCast S1x256x1 v shapeCasts_S256x1_S1x256x1) 0x00000000#32
      reduces_S1x256x1_S1 (.inl rfl) rfl j = ∑ r : Fin 256, v (ix2 r (0 : Fin 1)) := by
  refine (Ideal.multiReduction_add_total (shapeCast S1x256x1 v shapeCasts_S256x1_S1x256x1) 0x00000000#32
    reduces_S1x256x1_S1 (fun b => by match b with | ⟨0, _⟩ => rfl) (.inl rfl) rfl j).trans ?_
  refine (sum_idx1a1 _).trans (Finset.sum_congr rfl fun r _ => ?_)
  exact shapeCast_ab_1ab_apply v shapeCasts_S256x1_S1x256x1 (0 : Fin 1) r (0 : Fin 1)

/-- The count accumulator after a point: what it held plus the number of the tile's valid rows. -/
theorem pay2_apply (v81 : FVec Ideal S256x1 .f32) (v92 : Vec Ideal S1x1 .f32) :
    k0_pay2 (F := Ideal) v81 v92 (ix2 (0 : Fin 1) (0 : Fin 1))
      = v92 (ix2 (0 : Fin 1) (0 : Fin 1)) + ∑ r : Fin 256, v81 (ix2 r (0 : Fin 1)) := by
  unfold k0_pay2
  refine (congrFun (shapeCast_self _ _) _).trans ?_
  refine congrArg (v92 (ix2 (0 : Fin 1) (0 : Fin 1)) + ·) ?_
  refine (extractAt_shapeCast_1_111 _ shapeCasts_S1_S1x1x1 inpos_S1x1x1_p0_0_0).trans ?_
  exact sum_column v81 _

/-- The loss accumulator at the first point of a half. -/
theorem pay4_apply : (k0_pay4 (F := Ideal)) (ix2 (0 : Fin 1) (0 : Fin 1)) = 0 := by
  unfold k0_pay4
  exact (congrFun (shapeCast_self _ _) _).trans Ideal.ofBits_zero_f32

/-- The count accumulator at the first point of a half. -/
theorem pay5_apply : (k0_pay5 (F := Ideal)) (ix2 (0 : Fin 1) (0 : Fin 1)) = 0 := by
  unfold k0_pay5
  exact (congrFun (shapeCast_self _ _) _).trans Ideal.ofBits_zero_f32

/-- A `[1, 1]` block read at its one position. -/
theorem extractAt_S1x1 {α : Type} (v : S1x1.Idx → α) (h : ∀ a, (![0, 0] : Fin 2 → ℕ) a < S1x1.size a) :
    extractAt ![0, 0] v h = v (ix2 (0 : Fin 1) (0 : Fin 1)) :=
  congrArg v (funext fun a => match a with | ⟨0, _⟩ => rfl | ⟨1, _⟩ => rfl)

/-- The output block's mask "row 0 and lane 0" holds at `(0, 0)`. -/
theorem mask00_at_00 :
    (andi (cmpi .eq (iota .tc S8x128 32 [0] iota_S8x128_d0_w32) (broadcast S8x128 0#32))
      (cmpi .eq (iota .tc S8x128 32 [1] iota_S8x128_d1_w32) (broadcast S8x128 0#32))) (ix2 (0 : Fin 8) (0 : Fin 128)) = 1#1 := by
  decide
/-- … and fails at `(0, 1)`. -/
theorem mask00_at_01 :
    (andi (cmpi .eq (iota .tc S8x128 32 [0] iota_S8x128_d0_w32) (broadcast S8x128 0#32))
      (cmpi .eq (iota .tc S8x128 32 [1] iota_S8x128_d1_w32) (broadcast S8x128 0#32))) (ix2 (0 : Fin 8) (1 : Fin 128)) = 0#1 := by
  decide
/-- The mask "row 0 and lane 1" holds at `(0, 1)`. -/
theorem mask01_at_01 :
    (andi (cmpi .eq (iota .tc S8x128 32 [0] iota_S8x128_d0_w32) (broadcast S8x128 0#32))
      (cmpi .eq (iota .tc S8x128 32 [1] iota_S8x128_d1_w32) (broadcast S8x128 1#32))) (ix2 (0 : Fin 8) (1 : Fin 128)) = 1#1 := by
  decide

/-- Entry `(0, 0)` of the output block is the loss accumulator. -/
theorem pay3_apply_00 (v101 v103 : Vec Ideal S1x1 .f32) :
    k0_pay3 (F := Ideal) v101 v103 (ix2 (0 : Fin 8) (0 : Fin 128)) = v101 (ix2 (0 : Fin 1) (0 : Fin 1)) := by
  unfold k0_pay3
  refine (select_apply _ _ _ _).trans ?_
  refine (congrArg (fun c => Scalar.select c _ _) mask00_at_00).trans ?_
  refine (select_one _ _).trans ?_
  exact extractAt_S1x1 v101 _

/-- Entry `(0, 1)` of the output block is the count accumulator. -/
theorem pay3_apply_01 (v101 v103 : Vec Ideal S1x1 .f32) :
    k0_pay3 (F := Ideal) v101 v103 (ix2 (0 : Fin 8) (1 : Fin 128)) = v103 (ix2 (0 : Fin 1) (0 : Fin 1)) := by
  unfold k0_pay3
  refine (select_apply _ _ _ _).trans ?_
  refine (congrArg (fun c => Scalar.select c _ _) mask00_at_01).trans ?_
  refine (select_zero _ _).trans ?_
  refine (select_apply _ _ _ _).trans ?_
  refine (congrArg (fun c => Scalar.select c _ _) mask01_at_01).trans ?_
  refine (select_one _ _).trans ?_
  exact extractAt_S1x1 v103 _

end Cert.KernelIdeal.PayValue

end
-- ==== Proof.KI.PaySim.lean ====
import proofs.«419832_j8873402433633_3_alg».proof.Proof.Gen.KernelIdeal.Skeleton
import Idealize.ShloMosaic.Lib.ValueIdx
import Idealize.ShloMosaic.Lib.Pipeline.Value
import Idealize.ShloMosaic.PureOps.Ideal.Laws

/-!
# The similarities of a tile, read at an index

The product of the tile's 256 rows with all 8192 rows, contracting the 128 entries of both, into a zero accumulator:
entry `(r, j)` is the inner product of row `r` of the tile and row `j`.
-/

noncomputable section

namespace Cert.KernelIdeal.PayValue

open Idealize.ShloMosaic Idealize.SL.Sem Idealize.ShloMosaic.ValueIdx Cert.KernelIdeal Cert.KernelIdeal.Gen

/-! ## The operands' indices at an output index and a contraction index -/

theorem lhs_sim_0 (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem lhs_sim_1 (i : S256x8192.Idx) (q : dot_S256x128_S8192x128_S256x8192_1_1_0_0_n_n.contr.Idx) :
    (dot_S256x128_S8192x128_S256x8192_1_1_0_0_n_n.lhsIdx i q 1).val = (q ⟨0, by decide⟩).val :=
  dot_S256x128_S8192x128_S256x8192_1_1_0_0_n_n.lhsIdx_val_of_single rfl i q
theorem rhs_sim_0 (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem rhs_sim_1 (i : S256x8192.Idx) (q : dot_S256x128_S8192x128_S256x8192_1_1_0_0_n_n.contr.Idx) :
    (dot_S256x128_S8192x128_S256x8192_1_1_0_0_n_n.rhsIdx i q 1).val = (q ⟨0, by decide⟩).val :=
  dot_S256x128_S8192x128_S256x8192_1_1_0_0_n_n.rhsIdx_val_of_single rfl i q

/-! ## The product -/

/-- Entry `(r, j)` of the tile's similarities is the inner product of row `r` of the tile and row `j`. -/
theorem pay6_apply (x0 : Vec Ideal S256x128 .bf16) (x1 : Vec Ideal S8192x128 .bf16) (r : Fin 256) (j : Fin 8192) :
    k0_pay6 (F := Ideal) x0 x1 (ix2 r j) = ∑ q : Fin 128, x0 (ix2 r q) * x1 (ix2 j q) := by
  unfold k0_pay6
  have e0 : shapeCast S256x128 x0 shapeCasts_S256x128_S256x128 = x0 := shapeCast_self _ _
  have e1 : shapeCast S8192x128 x1 shapeCasts_S8192x128_S8192x128 = x1 := shapeCast_self _ _
  refine (Ideal.matmul_constant_zero_apply dot_S256x128_S8192x128_S256x8192_1_1_0_0_n_n none
    (shapeCast S256x128 x0 shapeCasts_S256x128_S256x128) (shapeCast S8192x128 x1 shapeCasts_S8192x128_S8192x128) (ix2 r j)).trans ?_
  refine (Equiv.sum_comp (contrEquiv1 dot_S256x128_S8192x128_S256x8192_1_1_0_0_n_n 128 rfl rfl).symm _).symm.trans (Finset.sum_congr rfl fun k _ => ?_)
  have hk := contrEquiv1_symm_val dot_S256x128_S8192x128_S256x8192_1_1_0_0_n_n 128 rfl rfl k
  have el : dot_S256x128_S8192x128_S256x8192_1_1_0_0_n_n.lhsIdx (ix2 r j) ((contrEquiv1 dot_S256x128_S8192x128_S256x8192_1_1_0_0_n_n 128 rfl rfl).symm k) = ix2 r k := funext fun a => Fin.ext (by
    match a with
    | ⟨0, _⟩ => exact lhs_sim_0 _ _
    | ⟨1, _⟩ => exact (lhs_sim_1 _ _).trans hk)
  have er : dot_S256x128_S8192x128_S256x8192_1_1_0_0_n_n.rhsIdx (ix2 r j) ((contrEquiv1 dot_S256x128_S8192x128_S256x8192_1_1_0_0_n_n 128 rfl rfl).symm k) = ix2 j k := funext fun a => Fin.ext (by
    match a with
    | ⟨0, _⟩ => exact rhs_sim_0 _ _
    | ⟨1, _⟩ => exact (rhs_sim_1 _ _).trans hk)
  rw [el, er, e0, e1]

end Cert.KernelIdeal.PayValue

end
-- ==== Proof.KI.PayMasks.lean ====
import proofs.«419832_j8873402433633_3_alg».proof.Proof.Gen.KernelIdeal.Skeleton
import proofs.«419832_j8873402433633_3_alg».proof.Proof.KI.PayLayout
import Idealize.ShloMosaic.Lib.WordArith

/-!
# The label masks of a tile, read at an index

Entry `(r, j)` of the same-label mask compares the label of row `r` of the tile with the label of row `j`; the
other-label mask is its complement; the not-self mask compares the row's number in the whole batch, the tile's first row
plus `r`, with `j`. A one-bit word selects between two values as its Boolean does.
-/

noncomputable section

namespace Cert.KernelIdeal.PayValue

open Idealize.ShloMosaic Idealize.SL.Sem Idealize.ShloMosaic.ValueIdx Cert.KernelIdeal Cert.KernelIdeal.Gen

open Idealize.ShloMosaic.WordArith

/-! ## One-bit words -/

/-- A select on a Boolean's one-bit word is the `if` on the Boolean. -/
theorem select_ofBool {α : Type} (b : Bool) (x y : α) : Scalar.select (BitVec.ofBool b) x y = if b then x else y := by
  cases b
  · exact select_zero x y
  · exact select_one x y

/-- The complement of a Boolean's one-bit word. -/
theorem xori_ofBool_one (b : Bool) : IntOp.xori (BitVec.ofBool b) 1#1 = BitVec.ofBool (!b) := by
  cases b <;> rfl

/-- Two 32-bit words of small numbers differ exactly when the numbers do. -/
theorem cmpi_ne_ofNat {m n : ℕ} (hm : m < 4294967296) (hn : n < 4294967296) :
    IntOp.cmpi .ne (BitVec.ofNat 32 m) (BitVec.ofNat 32 n) = BitVec.ofBool (decide (m ≠ n)) := by
  show BitVec.ofBool (BitVec.ofNat 32 m != BitVec.ofNat 32 n) = _
  refine congrArg BitVec.ofBool ?_
  by_cases h : m = n
  · subst h; simp
  · have h' : ¬BitVec.ofNat 32 m = BitVec.ofNat 32 n := fun e => h (by
      have := congrArg BitVec.toNat e
      simp only [BitVec.toNat_ofNat] at this
      omega)
    simp [h, h']

/-! ## The same-label mask and its complement -/

/-- Entry `(r, j)` of the same-label mask: the label of row `r` of the tile is the label of row `j`. -/
theorem pay7_apply (x2 : Vec Ideal S256x1 .i32) (x3 : Vec Ideal S1x8192 .i32) (r : Fin 256) (j : Fin 8192) :
    k0_pay7 (F := Ideal) x2 x3 (ix2 r j)
      = BitVec.ofBool (decide (x2 (ix2 r (0 : Fin 1)) = x3 (ix2 (0 : Fin 1) j))) := by
  unfold k0_pay7
  have ea : broadcastTo S256x8192 (shapeCast S256x1 x2 shapeCasts_S256x1_S256x1) broadcasts_S256x1_S256x8192 (ix2 r j)
      = x2 (ix2 r (0 : Fin 1)) :=
    (broadcastTo_a1_ab_apply _ broadcasts_S256x1_S256x8192 r j).trans (congrFun (shapeCast_self _ _) _)
  have eb : broadcastTo S256x8192 (shapeCast S1x8192 x3 shapeCasts_S1x8192_S1x8192) broadcasts_S1x8192_S256x8192 (ix2 r j)
      = x3 (ix2 (0 : Fin 1) j) :=
    (broadcastTo_1b_ab_apply _ broadcasts_S1x8192_S256x8192 r j).trans (congrFun (shapeCast_self _ _) _)
  refine (congrArg₂ (fun a b => IntOp.cmpi CmpIPredicate.eq a b) ea eb).trans ?_
  rfl

/-- Entry `(r, j)` of the other-label mask. -/
theorem pay8_apply (x2 : Vec Ideal S256x1 .i32) (x3 : Vec Ideal S1x8192 .i32) (r : Fin 256) (j : Fin 8192) :
    k0_pay8 (F := Ideal) x2 x3 (ix2 r j)
      = BitVec.ofBool (!decide (x2 (ix2 r (0 : Fin 1)) = x3 (ix2 (0 : Fin 1) j))) := by
  unfold k0_pay8
  refine (congrArg (fun a => IntOp.xori a 1#1) (pay7_apply x2 x3 r j)).trans ?_
  exact xori_ofBool_one _

/-! ## The not-self mask -/

/-- The number, in the whole batch, of the first row of the tile at a grid point, as the kernel computes it. -/
def rowBase (i : grid0.Coords) : BitVec 32 :=
  Scalar.muli (Scalar.addi (Scalar.muli (BitVec.ofNat 32 (i 0).val) 16#32) (BitVec.ofNat 32 (i 1).val)) 256#32

/-- The not-self mask of the tile at a grid point, as the kernel computes it. -/
def notSelf (i : grid0.Coords) : IVec S256x8192 1 :=
  cmpi .ne
    (broadcastTo S256x8192 (addi (iota .tc S256x1 32 [0] iota_S256x1_d0_w32) (broadcast S256x1 (rowBase i)))
      broadcasts_S256x1_S256x8192)
    (broadcastTo S256x8192 (iota .tc S1x8192 32 [1] iota_S1x8192_d1_w32) broadcasts_S1x8192_S256x8192)

/-- Entry `(r, j)` of the not-self mask at point `(c, k)`: row `256 (16 c + k) + r` of the batch is not row `j`. -/
theorem notSelf_apply (i : grid0.Coords) (c : Fin 2) (k : Fin 16) (hi0 : (i 0).val = c.val) (hi1 : (i 1).val = k.val)
    (r : Fin 256) (j : Fin 8192) :
    notSelf i (ix2 r j) = BitVec.ofBool (decide ((16 * c.val + k.val) * 256 + r.val ≠ j.val)) := by
  have hc := c.isLt
  have hk := k.isLt
  have hr := r.isLt
  have hj := j.isLt
  have erow : broadcastTo S256x8192 (addi (iota .tc S256x1 32 [0] iota_S256x1_d0_w32) (broadcast S256x1 (rowBase i)))
      broadcasts_S256x1_S256x8192 (ix2 r j) = BitVec.ofNat 32 ((16 * c.val + k.val) * 256 + r.val) := by
    refine (broadcastTo_a1_ab_apply _ broadcasts_S256x1_S256x8192 r j).trans ?_
    show IntOp.addi (iota .tc S256x1 32 [0] iota_S256x1_d0_w32 (ix2 r (0 : Fin 1))) (rowBase i) = _
    rw [iota_single_apply]
    unfold rowBase
    rw [hi0, hi1]
    show BitVec.ofNat 32 r.val + (BitVec.ofNat 32 c.val * 16#32 + BitVec.ofNat 32 k.val) * 256#32 = _
    apply BitVec.eq_of_toNat_eq
    simp only [BitVec.toNat_add, BitVec.toNat_mul, BitVec.toNat_ofNat]
    omega
  have ecol : broadcastTo S256x8192 (iota .tc S1x8192 32 [1] iota_S1x8192_d1_w32) broadcasts_S1x8192_S256x8192 (ix2 r j)
      = BitVec.ofNat 32 j.val := by
    refine (broadcastTo_1b_ab_apply _ broadcasts_S1x8192_S256x8192 r j).trans ?_
    exact iota_single_apply _ _ _ _ _ _
  unfold notSelf
  refine (congrArg₂ (fun a b => IntOp.cmpi CmpIPredicate.ne a b) erow ecol).trans ?_
  exact cmpi_ne_ofNat (by omega) (by omega)

end Cert.KernelIdeal.PayValue

end
-- ==== Proof.KI.PayInd.lean ====
import proofs.«419832_j8873402433633_3_alg».proof.Proof.Spec
import proofs.«419832_j8873402433633_3_alg».proof.Proof.SpecLaws
import Idealize.ShloMosaic.PureOps.Ideal

/-!
# A validity bit as a number

A one-bit word widened to 32 bits and converted to a float is the number one when the bit is set and zero when it is
not: the indicator of the bit.
-/

noncomputable section

namespace Cert.KernelIdeal.PayValue

open Idealize.ShloMosaic

/-- The float of a Boolean's one-bit word, widened to 32 bits, is the Boolean's indicator. -/
theorem sitofp_extui_ofBool (b : Bool) :
    FloatOps.sitofp (F := Idealize.ShloMosaic.Ideal) .f32 ((BitVec.ofBool b).setWidth 32) = Cert.Spec.ind b := by
  show (((((BitVec.ofBool b).setWidth 32).toInt : ℤ) : ℝ) : EReal) = Cert.Spec.ind b
  cases b
  · have h : ((BitVec.ofBool false).setWidth 32).toInt = 0 := by decide
    rw [h]
    simp [Cert.Spec.ind]
  · have h : ((BitVec.ofBool true).setWidth 32).toInt = 1 := by decide
    rw [h]
    simp [Cert.Spec.ind]

end Cert.KernelIdeal.PayValue

end
-- ==== Proof.KI.PayRow.lean ====
import proofs.«419832_j8873402433633_3_alg».proof.Proof.Gen.KernelIdeal.Skeleton
import proofs.«419832_j8873402433633_3_alg».proof.Proof.KI.PayLayout
import proofs.«419832_j8873402433633_3_alg».proof.Proof.KI.PaySim
import proofs.«419832_j8873402433633_3_alg».proof.Proof.KI.PayMasks
import proofs.«419832_j8873402433633_3_alg».proof.Proof.KI.PayAcc
import proofs.«419832_j8873402433633_3_alg».proof.Proof.KI.PayInd
import proofs.«419832_j8873402433633_3_alg».proof.Proof.Spec
import proofs.«419832_j8873402433633_3_alg».proof.Proof.SpecLaws
import Idealize.ShloMosaic.PureOps.Reduce
import Idealize.ShloMosaic.PureOps.Ideal.Laws

/-!
# The mining of a tile's rows, read at an index

For row `r` of the tile at grid point `(c, k)`, holding row `256 (16 c + k) + r` of the batch: the lane minimum of the
similarities over the positives is the hardest positive's similarity, the lane maximum over the negatives the hardest
negative's, the lane maximum over the semi-hard window the semi-hard negative's; the row's loss and validity bit are the
specification's, and the tile's loss is the sum of its rows' losses.
-/

noncomputable section

namespace Cert.KernelIdeal.PayValue

open Idealize.ShloMosaic Idealize.SL.Sem Idealize.ShloMosaic.ValueIdx Cert.KernelIdeal Cert.KernelIdeal.Gen

open Idealize.ShloMosaic.WordArith Cert.Mining Cert.Spec

/-! ## Comparisons of extended reals as one-bit words; the specification's definitions, unfolded one step -/

theorem cmp_olt (a b : EReal) : Ideal.cmp .olt a b = BitVec.ofBool (decide (a < b)) := rfl
theorem cmp_ogt (a b : EReal) : Ideal.cmp .ogt a b = BitVec.ofBool (decide (b < a)) := rfl

section Defs
variable {J : Type} [Fintype J] (μ : EReal) (s : J → EReal) (pos neg : J → Bool)
theorem hasPosK_def : hasPosK s pos = decide (pminK s pos < ⊤) := rfl
theorem hasNegK_def : hasNegK s neg = decide (⊥ < nmaxK s neg) := rfl
theorem hasSemiK_def : hasSemiK μ s pos neg = decide (⊥ < smaxK μ s pos neg) := rfl
theorem dapK_def : dapK s pos = max 0 (1 - pminK s pos) := rfl
theorem danHardK_def : danHardK s neg = max 0 (1 - nmaxK s neg) := rfl
theorem danSemiK_def : danSemiK μ s pos neg = max 0 (1 - smaxK μ s pos neg) := rfl
theorem upperK_def : upperK s pos = 1 - dapK s pos := rfl
theorem lowerK_def : lowerK μ s pos = 1 - dapK s pos - μ := rfl
theorem semiK_def (j : J) :
    semiK μ s pos neg j = (neg j && (decide (s j < upperK s pos) && decide (lowerK μ s pos < s j))) := rfl
theorem rowK_def : rowK μ s pos neg
    = if (hasPosK s pos && hasNegK s neg) then
        max (dapK s pos - (if hasSemiK μ s pos neg then danSemiK μ s pos neg else danHardK s neg) + μ) 0
      else 0 := rfl
end Defs

/-! ## A lane reduction of a `[256, 8192]` array at a row -/

/-- The source index over row `r` with lane `j` put back. -/
theorem lift_row (r : Fin 256) (j : Fin 8192) : reduces_S256x8192_S256.lift (ix1 r) j = ix2 r j :=
  funext fun a => Fin.ext (by
    match a with
    | ⟨0, _⟩ => rfl
    | ⟨1, _⟩ => rfl)

/-- A fold over the lanes, the lane's extent read off the shape or written out. -/
theorem fold_lanes (op : EReal → EReal → EReal) [Std.Commutative op] [Std.Associative op] (b : EReal) (f g : Fin 8192 → EReal)
    (h : ∀ j, f j = g j) :
    (Finset.univ : Finset (Fin (S256x8192.size 1))).fold op b f = (Finset.univ : Finset (Fin 8192)).fold op b g := by
  rw [funext h]
  rfl

/-- A lane minimum from `+∞` at row `r`: the minimum over the lanes. -/
theorem rowMin_apply (src : FVec Ideal S256x8192 .f32) (r : Fin 256) :
    multiReduction (F := Ideal) .minimumf [1] S256 src 0x7F800000#32 reduces_S256x8192_S256 (.inl rfl) rfl (ix1 r)
      = Finset.univ.fold min (⊤ : EReal) (fun j : Fin 8192 => src (ix2 r j)) := by
  have e : multiReduction (F := Ideal) .minimumf [1] S256 src 0x7F800000#32 reduces_S256x8192_S256 (.inl rfl) rfl (ix1 r)
      = (Finset.univ : Finset (Fin (S256x8192.size 1))).fold min (Ideal.ofBits .f32 0x7F800000#32)
          (src ∘ reduces_S256x8192_S256.lift (ix1 r)) :=
    (multiReduction_minimumf_eq_fold src _ reduces_S256x8192_S256 (.inl rfl) rfl (ix1 r)).trans
      (reduces_S256x8192_S256.fold_filter_drop_single _ _ src (ix1 r))
  refine e.trans ?_
  rw [ofBits_inf]
  exact fold_lanes min ⊤ _ _ (fun j => congrArg src (lift_row r j))

/-- A lane maximum from `-∞` at row `r`: the maximum over the lanes. -/
theorem rowMax_apply (src : FVec Ideal S256x8192 .f32) (r : Fin 256) :
    multiReduction (F := Ideal) .maximumf [1] S256 src 0xFF800000#32 reduces_S256x8192_S256 (.inl rfl) rfl (ix1 r)
      = Finset.univ.fold max (⊥ : EReal) (fun j : Fin 8192 => src (ix2 r j)) := by
  have e : multiReduction (F := Ideal) .maximumf [1] S256 src 0xFF800000#32 reduces_S256x8192_S256 (.inl rfl) rfl (ix1 r)
      = (Finset.univ : Finset (Fin (S256x8192.size 1))).fold max (Ideal.ofBits .f32 0xFF800000#32)
          (src ∘ reduces_S256x8192_S256.lift (ix1 r)) :=
    (multiReduction_maximumf_eq_fold src _ reduces_S256x8192_S256 (.inl rfl) rfl (ix1 r)).trans
      (reduces_S256x8192_S256.fold_filter_drop_single _ _ src (ix1 r))
  refine e.trans ?_
  rw [ofBits_ninf]
  exact fold_lanes max ⊥ _ _ (fun j => congrArg src (lift_row r j))

/-! ## The hardest positive -/

section Pos

variable (i : grid0.Coords) (c : Fin 2) (k : Fin 16) (hi0 : (i 0).val = c.val) (hi1 : (i 1).val = k.val)
  (x0 : Vec Ideal S256x128 .bf16) (x1 : Vec Ideal S8192x128 .bf16) (x2 : Vec Ideal S256x1 .i32) (x3 : Vec Ideal S1x8192 .i32)
  (x : Fin 8192 → Fin 128 → EReal) (l : Fin 8192 → BitVec 32)
  (h0 : ∀ r q, x0 (ix2 r q) = en x (tileIdx c k r) q) (h1 : ∀ j q, x1 (ix2 j q) = en x j q)
  (h2 : ∀ r, x2 (ix2 r (0 : Fin 1)) = l (tileIdx c k r)) (h3 : ∀ j, x3 (ix2 (0 : Fin 1) j) = l j)
include hi0 hi1 h0 h1 h2 h3

/-- Entry `(r, j)` of the similarities is the similarity of the batch's row `256 (16 c + k) + r` and row `j`. -/
theorem sim_apply (r : Fin 256) (j : Fin 8192) : k0_pay6 (F := Ideal) x0 x1 (ix2 r j) = sim x (tileIdx c k r) j :=
  (pay6_apply x0 x1 r j).trans (Finset.sum_congr rfl fun q _ => by rw [h0 r q, h1 j q])

/-- Entry `(r, j)` of the other-label mask is the negatives' mask of the row. -/
theorem neg_apply (r : Fin 256) (j : Fin 8192) :
    k0_pay8 (F := Ideal) x2 x3 (ix2 r j) = BitVec.ofBool (negM l (tileIdx c k r) j) := by
  rw [pay8_apply, h2 r, h3 j]
  rfl

/-- The hardest positive's similarity of row `r`. -/
theorem pay9_apply (r : Fin 256) :
    k0_pay9 (F := Ideal) i x0 x1 x2 x3 (ix2 r (0 : Fin 1)) = pminK (sim x (tileIdx c k r)) (posM l (tileIdx c k r)) := by
  unfold k0_pay9
  refine (shapeCast_a_a1_apply _ shapeCasts_S256_S256x1 r (0 : Fin 1)).trans ?_
  refine (rowMin_apply _ r).trans ?_
  unfold pminK
  refine congrArg (Finset.univ.fold min ⊤) (funext fun j => ?_)
  show Scalar.select (IntOp.andi (k0_pay7 (F := Ideal) x2 x3 (ix2 r j)) (notSelf i (ix2 r j)))
    (k0_pay6 (F := Ideal) x0 x1 (ix2 r j)) (Ideal.ofBits .f32 0x7F800000#32) = _
  rw [pay7_apply, notSelf_apply i c k hi0 hi1, andi_ofBool, select_ofBool,
    sim_apply i c k hi0 hi1 x0 x1 x2 x3 x l h0 h1 h2 h3, ofBits_inf, h2 r, h3 j]
  have ep : (decide (l (tileIdx c k r) = l j) && decide ((16 * c.val + k.val) * 256 + r.val ≠ j.val))
      = posM l (tileIdx c k r) j := by
    unfold posM
    refine congrArg (decide (l (tileIdx c k r) = l j) && ·) ?_
    rw [decide_not]
    refine congrArg (fun b => !b) (decide_eq_decide.mpr ?_)
    exact (Fin.ext_iff (a := tileIdx c k r) (b := j)).symm
  rw [ep]

/-- The row has a positive. -/
theorem pay10_apply (r : Fin 256) :
    k0_pay10 (F := Ideal) i x0 x1 x2 x3 (ix2 r (0 : Fin 1))
      = BitVec.ofBool (hasPosK (sim x (tileIdx c k r)) (posM l (tileIdx c k r))) := by
  unfold k0_pay10
  refine (cmpf_apply (F := Ideal) .olt _ _ (ix2 r (0 : Fin 1))).trans ?_
  refine (Ideal.cmpf_def .olt _ _).trans ?_
  refine (cmp_olt _ _).trans ?_
  rw [hasPosK_def]
  exact congrArg₂ (fun a b : EReal => BitVec.ofBool (decide (a < b)))
    (pay9_apply i c k hi0 hi1 x0 x1 x2 x3 x l h0 h1 h2 h3 r) ofBits_inf

/-- The hardest positive's distance of row `r`. -/
theorem pay11_apply (r : Fin 256) :
    k0_pay11 (F := Ideal) i x0 x1 x2 x3 (ix2 r (0 : Fin 1)) = dapK (sim x (tileIdx c k r)) (posM l (tileIdx c k r)) := by
  unfold k0_pay11
  refine (maximumf_apply _ _ (ix2 r (0 : Fin 1))).trans ?_
  rw [dapK_def]
  refine congrArg₂ max Ideal.ofBits_zero_f32 ?_
  refine (subf_apply _ _ (ix2 r (0 : Fin 1))).trans ?_
  exact congrArg₂ (fun a b : EReal => a - b) ofBits_one (pay9_apply i c k hi0 hi1 x0 x1 x2 x3 x l h0 h1 h2 h3 r)

end Pos

/-! ## The hardest negative, the semi-hard window and the row's loss, over any similarities and masks -/

theorem andi_apply {s : Shape} {w : ℕ} (a b : IVec s w) (i : s.Idx) : andi a b i = IntOp.andi (a i) (b i) := rfl

theorem select_congr {α : Type} {c c' : BitVec 1} {a a' b b' : α} (hc : c = c') (ha : a = a') (hb : b = b') :
    Scalar.select c a b = Scalar.select c' a' b' := by
  subst hc ha hb; rfl

theorem margin_def : margin = Ideal.ofBits .f32 0x3E4CCCCD#32 := rfl
theorem validK_def {J : Type} [Fintype J] (s : J → EReal) (pos neg : J → Bool) :
    validK s pos neg = (hasPosK s pos && hasNegK s neg) := rfl
theorem rowsK_def (x : Fin 8192 → Fin 128 → EReal) (l : Fin 8192 → BitVec 32) (i : Fin 8192) :
    rowsK x l i = rowK margin (sim x i) (posM l i) (negM l i) := rfl
theorem validsK_def (x : Fin 8192 → Fin 128 → EReal) (l : Fin 8192 → BitVec 32) (i : Fin 8192) :
    validsK x l i = validK (sim x i) (posM l i) (negM l i) := rfl

section Terms
variable {F : FTy → Type} [FloatOps F]

/-- The mask of the semi-hard window: a negative whose similarity lies strictly between the two bounds. -/
def semiMask (v7 : FVec F S256x8192 .f32) (v15 : IVec S256x8192 1) (v36 : FVec F S256x1 .f32) : IVec S256x8192 1 :=
  have cst_19 : F .f32 := Scalar.ofBits .f32 0x3F800000#32
  have v47 : FVec F S256x1 .f32 := broadcast S256x1 cst_19
  have v48 : FVec F S256x1 .f32 := subf v47 v36
  have cst_20 : F .f32 := Scalar.ofBits .f32 0x3E4CCCCD#32
  have v49 : FVec F S256x1 .f32 := broadcast S256x1 cst_20
  have v50 : FVec F S256x1 .f32 := subf v48 v49
  have v51 : FVec F S256x8192 .f32 := broadcastTo S256x8192 v48 broadcasts_S256x1_S256x8192
  have v52 : IVec S256x8192 1 := cmpf .olt v7 v51
  have v53 : FVec F S256x8192 .f32 := broadcastTo S256x8192 v50 broadcasts_S256x1_S256x8192
  have v54 : IVec S256x8192 1 := cmpf .ogt v7 v53
  have v55 : IVec S256x8192 1 := andi v52 v54
  have v56 : IVec S256x8192 1 := andi v15 v55
  v56

/-- The lane maximum of the similarities over the semi-hard window, as a column. -/
def semiCol (v7 : FVec F S256x8192 .f32) (v15 : IVec S256x8192 1) (v36 : FVec F S256x1 .f32) : FVec F S256x1 .f32 :=
  have cst_19 : F .f32 := Scalar.ofBits .f32 0x3F800000#32
  have v47 : FVec F S256x1 .f32 := broadcast S256x1 cst_19
  have v48 : FVec F S256x1 .f32 := subf v47 v36
  have cst_20 : F .f32 := Scalar.ofBits .f32 0x3E4CCCCD#32
  have v49 : FVec F S256x1 .f32 := broadcast S256x1 cst_20
  have v50 : FVec F S256x1 .f32 := subf v48 v49
  have v51 : FVec F S256x8192 .f32 := broadcastTo S256x8192 v48 broadcasts_S256x1_S256x8192
  have v52 : IVec S256x8192 1 := cmpf .olt v7 v51
  have v53 : FVec F S256x8192 .f32 := broadcastTo S256x8192 v50 broadcasts_S256x1_S256x8192
  have v54 : IVec S256x8192 1 := cmpf .ogt v7 v53
  have v55 : IVec S256x8192 1 := andi v52 v54
  have v56 : IVec S256x8192 1 := andi v15 v55
  have cst_21 : F .f32 := Scalar.ofBits .f32 0xFF800000#32
  have v57 : FVec F S256x8192 .f32 := broadcast S256x8192 cst_21
  have v58 : FVec F S256x8192 .f32 := select v56 v7 v57
  have v59 : FVec F S256 .f32 := multiReduction .maximumf [1] S256 v58 0xFF800000#32 reduces_S256x8192_S256 (.inl rfl) rfl
  have v60 : FVec F S256x1 .f32 := shapeCast S256x1 v59 shapeCasts_S256_S256x1
  v60

/-- The rows' losses, as a column. -/
def rowLoss (v7 : FVec F S256x8192 .f32) (v15 : IVec S256x8192 1) (v32 : IVec S256x1 1) (v36 : FVec F S256x1 .f32)
    (cst_14 : F .f32) : FVec F S256x1 .f32 :=
  have cst_17 : F .f32 := Scalar.ofBits .f32 0x3F800000#32
  have v43 : FVec F S256x1 .f32 := broadcast S256x1 cst_17
  have v44 : FVec F S256x1 .f32 := subf v43 (k0_pay12 v7 v15 cst_14)
  have cst_18 : F .f32 := Scalar.ofBits .f32 0x00000000#32
  have v45 : FVec F S256x1 .f32 := broadcast S256x1 cst_18
  have v46 : FVec F S256x1 .f32 := maximumf v45 v44
  have cst_19 : F .f32 := Scalar.ofBits .f32 0x3F800000#32
  have v47 : FVec F S256x1 .f32 := broadcast S256x1 cst_19
  have v48 : FVec F S256x1 .f32 := subf v47 v36
  have cst_20 : F .f32 := Scalar.ofBits .f32 0x3E4CCCCD#32
  have v49 : FVec F S256x1 .f32 := broadcast S256x1 cst_20
  have v50 : FVec F S256x1 .f32 := subf v48 v49
  have v51 : FVec F S256x8192 .f32 := broadcastTo S256x8192 v48 broadcasts_S256x1_S256x8192
  have v52 : IVec S256x8192 1 := cmpf .olt v7 v51
  have v53 : FVec F S256x8192 .f32 := broadcastTo S256x8192 v50 broadcasts_S256x1_S256x8192
  have v54 : IVec S256x8192 1 := cmpf .ogt v7 v53
  have v55 : IVec S256x8192 1 := andi v52 v54
  have v56 : IVec S256x8192 1 := andi v15 v55
  have cst_21 : F .f32 := Scalar.ofBits .f32 0xFF800000#32
  have v57 : FVec F S256x8192 .f32 := broadcast S256x8192 cst_21
  have v58 : FVec F S256x8192 .f32 := select v56 v7 v57
  have v59 : FVec F S256 .f32 := multiReduction .maximumf [1] S256 v58 0xFF800000#32 reduces_S256x8192_S256 (.inl rfl) rfl
  have v60 : FVec F S256x1 .f32 := shapeCast S256x1 v59 shapeCasts_S256_S256x1
  have cst_23 : F .f32 := Scalar.ofBits .f32 0xFF800000#32
  have v61 : FVec F S256x1 .f32 := broadcast S256x1 cst_23
  have v62 : IVec S256x1 1 := cmpf .ogt v60 v61
  have cst_24 : F .f32 := Scalar.ofBits .f32 0x3F800000#32
  have v63 : FVec F S256x1 .f32 := broadcast S256x1 cst_24
  have v64 : FVec F S256x1 .f32 := subf v63 v60
  have cst_25 : F .f32 := Scalar.ofBits .f32 0x00000000#32
  have v65 : FVec F S256x1 .f32 := broadcast S256x1 cst_25
  have v66 : FVec F S256x1 .f32 := maximumf v65 v64
  have v67 : FVec F S256x1 .f32 := select v62 v66 v46
  have v69 : FVec F S256x1 .f32 := subf v36 v67
  have cst_26 : F .f32 := Scalar.ofBits .f32 0x3E4CCCCD#32
  have v70 : FVec F S256x1 .f32 := broadcast S256x1 cst_26
  have v71 : FVec F S256x1 .f32 := addf v69 v70
  have cst_27 : F .f32 := Scalar.ofBits .f32 0x00000000#32
  have v72 : FVec F S256x1 .f32 := broadcast S256x1 cst_27
  have v73 : FVec F S256x1 .f32 := maximumf v71 v72
  have cst_28 : F .f32 := Scalar.ofBits .f32 0x00000000#32
  have v74 : FVec F S256x1 .f32 := broadcast S256x1 cst_28
  have v75 : FVec F S256x1 .f32 := select (k0_pay13 v7 v15 v32 cst_14) v73 v74
  v75

end Terms

/-- The tile's loss is the sum of the rows' losses. -/
theorem pay14_eq (v7 : FVec Ideal S256x8192 .f32) (v15 : IVec S256x8192 1) (v32 : IVec S256x1 1) (v36 : FVec Ideal S256x1 .f32)
    (cst : EReal) :
    k0_pay14 (F := Ideal) v7 v15 v32 v36 cst = ∑ r : Fin 256, rowLoss (F := Ideal) v7 v15 v32 v36 cst (ix2 r (0 : Fin 1)) := by
  unfold k0_pay14
  refine (extractAt_shapeCast_1_111 _ shapeCasts_S1_S1x1x1 inpos_S1x1x1_p0_0_0).trans ?_
  exact sum_column (rowLoss (F := Ideal) v7 v15 v32 v36 cst) _

section Row

variable (v7 : FVec Ideal S256x8192 .f32) (v15 : IVec S256x8192 1) (v32 : IVec S256x1 1) (v36 : FVec Ideal S256x1 .f32)
  (s : Fin 8192 → EReal) (pos neg : Fin 8192 → Bool) (r : Fin 256)
  (hs : ∀ j, v7 (ix2 r j) = s j) (hn : ∀ j, v15 (ix2 r j) = BitVec.ofBool (neg j))
include hs hn

/-- The hardest negative's similarity of row `r`. -/
theorem pay12_apply :
    k0_pay12 (F := Ideal) v7 v15 (Ideal.ofBits .f32 0xFF800000#32) (ix2 r (0 : Fin 1)) = nmaxK s neg := by
  unfold k0_pay12
  refine (shapeCast_a_a1_apply _ shapeCasts_S256_S256x1 r (0 : Fin 1)).trans ?_
  refine (rowMax_apply _ r).trans ?_
  unfold nmaxK
  refine congrArg (Finset.univ.fold max ⊥) (funext fun j => ?_)
  refine (select_apply _ _ _ (ix2 r j)).trans ?_
  exact (select_congr (hn j) (hs j) ofBits_ninf).trans (select_ofBool _ _ _)

/-- The row's validity bit: it has a positive and a negative. -/
theorem pay13_apply (p : Bool) (hp : v32 (ix2 r (0 : Fin 1)) = BitVec.ofBool p) :
    k0_pay13 (F := Ideal) v7 v15 v32 (Ideal.ofBits .f32 0xFF800000#32) (ix2 r (0 : Fin 1))
      = BitVec.ofBool (p && hasNegK s neg) := by
  unfold k0_pay13
  refine (andi_apply _ _ (ix2 r (0 : Fin 1))).trans ?_
  refine (congrArg₂ IntOp.andi hp ?_).trans (andi_ofBool _ _)
  refine (cmpf_apply (F := Ideal) .ogt _ _ (ix2 r (0 : Fin 1))).trans ?_
  refine (Ideal.cmpf_def .ogt _ _).trans ?_
  refine (cmp_ogt _ _).trans ?_
  rw [hasNegK_def]
  exact congrArg₂ (fun a b : EReal => BitVec.ofBool (decide (b < a))) (pay12_apply v7 v15 s neg r hs hn) ofBits_ninf

/-- The row's entry of the count vector: one if the row is valid, else zero. -/
theorem pay15_apply_row (p : Bool) (hp : v32 (ix2 r (0 : Fin 1)) = BitVec.ofBool p) :
    k0_pay15 (F := Ideal) v7 v15 v32 (Ideal.ofBits .f32 0xFF800000#32) (ix2 r (0 : Fin 1)) = ind (p && hasNegK s neg) := by
  unfold k0_pay15
  refine (sitofp_apply (F := Ideal) (φ := .f32) _ (ix2 r (0 : Fin 1))).trans ?_
  refine (congrArg (FloatOps.sitofp (F := Ideal) .f32) ((extui_apply _ _ (ix2 r (0 : Fin 1))).trans
    (congrArg (BitVec.setWidth 32) (pay13_apply v7 v15 v32 s neg r hs hn p hp)))).trans ?_
  exact sitofp_extui_ofBool _

/-- Entry `(r, j)` of the semi-hard window's mask. -/
theorem semiMask_apply (hd : v36 (ix2 r (0 : Fin 1)) = dapK s pos) (j : Fin 8192) :
    semiMask (F := Ideal) v7 v15 v36 (ix2 r j) = BitVec.ofBool (semiK margin s pos neg j) := by
  unfold semiMask
  rw [semiK_def]
  refine (andi_apply _ _ (ix2 r j)).trans ?_
  refine (congrArg₂ IntOp.andi (hn j) ?_).trans (andi_ofBool _ _)
  refine (andi_apply _ _ (ix2 r j)).trans ?_
  refine (congrArg₂ IntOp.andi ?_ ?_).trans (andi_ofBool _ _)
  · refine (cmpf_apply (F := Ideal) .olt _ _ (ix2 r j)).trans ?_
    refine (Ideal.cmpf_def .olt _ _).trans ?_
    refine (cmp_olt _ _).trans ?_
    refine congrArg₂ (fun a b : EReal => BitVec.ofBool (decide (a < b))) (hs j) ?_
    refine (broadcastTo_a1_ab_apply _ broadcasts_S256x1_S256x8192 r j).trans ?_
    refine (subf_apply _ _ (ix2 r (0 : Fin 1))).trans ?_
    rw [upperK_def]
    exact congrArg₂ (fun a b : EReal => a - b) ofBits_one hd
  · refine (cmpf_apply (F := Ideal) .ogt _ _ (ix2 r j)).trans ?_
    refine (Ideal.cmpf_def .ogt _ _).trans ?_
    refine (cmp_ogt _ _).trans ?_
    refine congrArg₂ (fun a b : EReal => BitVec.ofBool (decide (b < a))) (hs j) ?_
    refine (broadcastTo_a1_ab_apply _ broadcasts_S256x1_S256x8192 r j).trans ?_
    refine (subf_apply _ _ (ix2 r (0 : Fin 1))).trans ?_
    rw [lowerK_def]
    refine congrArg₂ (fun a b : EReal => a - b) ?_ margin_def.symm
    refine (subf_apply _ _ (ix2 r (0 : Fin 1))).trans ?_
    exact congrArg₂ (fun a b : EReal => a - b) ofBits_one hd

/-- The semi-hard negative's similarity of row `r`. -/
theorem semiCol_apply (hd : v36 (ix2 r (0 : Fin 1)) = dapK s pos) :
    semiCol (F := Ideal) v7 v15 v36 (ix2 r (0 : Fin 1)) = smaxK margin s pos neg := by
  unfold semiCol
  refine (shapeCast_a_a1_apply _ shapeCasts_S256_S256x1 r (0 : Fin 1)).trans ?_
  refine (rowMax_apply _ r).trans ?_
  unfold smaxK
  refine congrArg (Finset.univ.fold max ⊥) (funext fun j => ?_)
  refine (select_apply _ _ _ (ix2 r j)).trans ?_
  exact (select_congr (semiMask_apply v7 v15 v36 s pos neg r hs hn hd j) (hs j) ofBits_ninf).trans (select_ofBool _ _ _)

/-- The loss of row `r`. -/
theorem rowLoss_apply (hp : v32 (ix2 r (0 : Fin 1)) = BitVec.ofBool (hasPosK s pos))
    (hd : v36 (ix2 r (0 : Fin 1)) = dapK s pos) :
    rowLoss (F := Ideal) v7 v15 v32 v36 (Ideal.ofBits .f32 0xFF800000#32) (ix2 r (0 : Fin 1)) = rowK margin s pos neg := by
  unfold rowLoss
  rw [rowK_def, hasSemiK_def, danSemiK_def, danHardK_def]
  refine (select_apply _ _ _ (ix2 r (0 : Fin 1))).trans ?_
  refine (select_congr (pay13_apply v7 v15 v32 s neg r hs hn _ hp) ?_ Ideal.ofBits_zero_f32).trans (select_ofBool _ _ _)
  refine (maximumf_apply _ _ (ix2 r (0 : Fin 1))).trans ?_
  refine congrArg₂ max ?_ Ideal.ofBits_zero_f32
  refine (addf_apply _ _ (ix2 r (0 : Fin 1))).trans ?_
  refine congrArg₂ (fun a b : EReal => a + b) ?_ margin_def.symm
  refine (subf_apply _ _ (ix2 r (0 : Fin 1))).trans ?_
  refine congrArg₂ (fun a b : EReal => a - b) hd ?_
  refine (select_apply _ _ _ (ix2 r (0 : Fin 1))).trans ?_
  refine (select_congr ?_ ?_ ?_).trans (select_ofBool _ _ _)
  · refine (cmpf_apply (F := Ideal) .ogt _ _ (ix2 r (0 : Fin 1))).trans ?_
    refine (Ideal.cmpf_def .ogt _ _).trans ?_
    refine (cmp_ogt _ _).trans ?_
    exact congrArg₂ (fun a b : EReal => BitVec.ofBool (decide (b < a)))
      (semiCol_apply v7 v15 v36 s pos neg r hs hn hd) ofBits_ninf
  · refine (maximumf_apply _ _ (ix2 r (0 : Fin 1))).trans ?_
    refine congrArg₂ max Ideal.ofBits_zero_f32 ?_
    refine (subf_apply _ _ (ix2 r (0 : Fin 1))).trans ?_
    exact congrArg₂ (fun a b : EReal => a - b) ofBits_one (semiCol_apply v7 v15 v36 s pos neg r hs hn hd)
  · refine (maximumf_apply _ _ (ix2 r (0 : Fin 1))).trans ?_
    refine congrArg₂ max Ideal.ofBits_zero_f32 ?_
    refine (subf_apply _ _ (ix2 r (0 : Fin 1))).trans ?_
    exact congrArg₂ (fun a b : EReal => a - b) ofBits_one (pay12_apply v7 v15 s neg r hs hn)

end Row

/-! ## The tile's loss and count vector -/

section Tile

variable (i : grid0.Coords) (c : Fin 2) (k : Fin 16) (hi0 : (i 0).val = c.val) (hi1 : (i 1).val = k.val)
  (x0 : Vec Ideal S256x128 .bf16) (x1 : Vec Ideal S8192x128 .bf16) (x2 : Vec Ideal S256x1 .i32) (x3 : Vec Ideal S1x8192 .i32)
  (x : Fin 8192 → Fin 128 → EReal) (l : Fin 8192 → BitVec 32)
  (h0 : ∀ r q, x0 (ix2 r q) = en x (tileIdx c k r) q) (h1 : ∀ j q, x1 (ix2 j q) = en x j q)
  (h2 : ∀ r, x2 (ix2 r (0 : Fin 1)) = l (tileIdx c k r)) (h3 : ∀ j, x3 (ix2 (0 : Fin 1) j) = l j)
include hi0 hi1 h0 h1 h2 h3

/-- The tile's loss is the sum of the losses of its 256 rows of the batch. -/
theorem pay14_apply :
    k0_pay14 (F := Ideal) (k0_pay6 x0 x1) (k0_pay8 x2 x3) (k0_pay10 i x0 x1 x2 x3) (k0_pay11 i x0 x1 x2 x3)
        (Scalar.ofBits .f32 0xFF800000#32)
      = ∑ r : Fin 256, rowsK x l (tileIdx c k r) := by
  refine (pay14_eq _ _ _ _ _).trans (Finset.sum_congr rfl fun r _ => ?_)
  rw [rowsK_def]
  exact rowLoss_apply _ _ _ _ (sim x (tileIdx c k r)) (posM l (tileIdx c k r)) (negM l (tileIdx c k r)) r
    (fun j => sim_apply i c k hi0 hi1 x0 x1 x2 x3 x l h0 h1 h2 h3 r j)
    (fun j => neg_apply i c k hi0 hi1 x0 x1 x2 x3 x l h0 h1 h2 h3 r j)
    (pay10_apply i c k hi0 hi1 x0 x1 x2 x3 x l h0 h1 h2 h3 r)
    (pay11_apply i c k hi0 hi1 x0 x1 x2 x3 x l h0 h1 h2 h3 r)

/-- Entry `r` of the tile's count vector: one if the row of the batch is valid, else zero. -/
theorem pay15_apply (r : Fin 256) :
    k0_pay15 (F := Ideal) (k0_pay6 x0 x1) (k0_pay8 x2 x3) (k0_pay10 i x0 x1 x2 x3) (Scalar.ofBits .f32 0xFF800000#32)
        (ix2 r (0 : Fin 1))
      = ind (validsK x l (tileIdx c k r)) := by
  rw [validsK_def, validK_def]
  exact pay15_apply_row _ _ _ (sim x (tileIdx c k r)) (negM l (tileIdx c k r)) r
    (fun j => sim_apply i c k hi0 hi1 x0 x1 x2 x3 x l h0 h1 h2 h3 r j)
    (fun j => neg_apply i c k hi0 hi1 x0 x1 x2 x3 x l h0 h1 h2 h3 r j) _
    (pay10_apply i c k hi0 hi1 x0 x1 x2 x3 x l h0 h1 h2 h3 r)

end Tile

end Cert.KernelIdeal.PayValue

end
-- ==== Proof.KI.Acc.lean ====
import proofs.«419832_j8873402433633_3_alg».proof.Proof.KI.Pieces
import proofs.«419832_j8873402433633_3_alg».proof.Proof.KI.Entry
import proofs.«419832_j8873402433633_3_alg».proof.Proof.KI.PayAcc
import proofs.«419832_j8873402433633_3_alg».proof.Proof.KI.PayRow
import proofs.«419832_j8873402433633_3_alg».proof.Proof.SpecLaws

/-!
# What the accumulators and the output block hold, as sums over the tiles

Within one half of the grid (sixteen consecutive points) the running sum starts from zero and gains one tile's sum
of row losses per point, and the running count gains the tile's number of valid rows. So after the half's last
point the two accumulators, and with them entries (0, 0) and (0, 1) of the output block, are the sums over the
half's sixteen tiles.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- `outsAt0` depends on the position only, not on how it is written. -/
theorem outsAt0_congr {F : FTy → Type} [FloatOps F] (m : (ℓ : Loc nD τ sig) → Buf (Elt F) ℓ) (c : Dev nD) (a b : ℕ) (e : a = b)
    (ha : a < cfg0.N) (hb : b < cfg0.N) : outsAt0 m c a ha = outsAt0 m c b hb := by
  subst e; rfl

variable (m : (ℓ : Loc nD τ sig) → Buf (Elt Ideal) ℓ)

/-! ## The contributions by position -/

/-- The sum of row losses of the tile at position `j` (zero past the grid). -/
def sumRowN (c : Dev nD) (j : ℕ) : EReal := if h : j < cfg0.N then sumRowAt (F := Ideal) m c ⟨j, h⟩ else 0
/-- The number of valid rows of the tile at position `j` (zero past the grid). -/
def cntN (c : Dev nD) (j : ℕ) : EReal :=
  if h : j < cfg0.N then ∑ r : Fin 256, cntVecAt (F := Ideal) m c ⟨j, h⟩ (ix2 r (0 : Fin 1)) else 0

theorem sumRowN_of_lt (c : Dev nD) (j : ℕ) (h : j < cfg0.N) : sumRowN m c j = sumRowAt (F := Ideal) m c ⟨j, h⟩ := by
  unfold sumRowN; exact dif_pos h
theorem cntN_of_lt (c : Dev nD) (j : ℕ) (h : j < cfg0.N) :
    cntN m c j = ∑ r : Fin 256, cntVecAt (F := Ideal) m c ⟨j, h⟩ (ix2 r (0 : Fin 1)) := by
  unfold cntN; exact dif_pos h

/-! ## The accumulators within a half -/

/-- After inner step `n` of half `cc` the running sum is the sum of the contributions of steps `0 … n`. -/
theorem acc_sum (c : Dev nD) (cc : Fin 2) (n : ℕ) (hn : n < 16) (h : 16 * cc.val + n < cfg0.N) :
    (outsAt0 (F := Ideal) m c (16 * cc.val + n) h).2.1 (ix2 (0 : Fin 1) (0 : Fin 1))
      = ∑ k ∈ Finset.range (n + 1), sumRowN m c (16 * cc.val + k) := by
  induction n with
  | zero =>
    have e := scratch0_first (F := Ideal) m c ⟨16 * cc.val + 0, h⟩ (by show (16 * cc.val + 0) % 16 = 0; omega)
    dsimp only at e
    rw [e, PayValue.pay1_apply, PayValue.pay4_apply, zero_add, Finset.sum_range_one]
    exact (sumRowN_of_lt m c _ h).symm
  | succ n ih =>
    have hprev : 16 * cc.val + n < cfg0.N := by omega
    have e := scratch0_next (F := Ideal) m c ⟨16 * cc.val + (n + 1), h⟩ (by show (16 * cc.val + (n + 1)) % 16 ≠ 0; omega)
    dsimp only at e
    rw [e, PayValue.pay1_apply]
    rw [outsAt0_congr m c _ (16 * cc.val + n) (by omega) _ hprev, ih (by omega) hprev]
    rw [Finset.sum_range_succ (fun k => sumRowN m c (16 * cc.val + k)) (n + 1)]
    exact congrArg (_ + ·) (sumRowN_of_lt m c _ h).symm

/-- After inner step `n` of half `cc` the running count is the sum of the counts of steps `0 … n`. -/
theorem acc_cnt (c : Dev nD) (cc : Fin 2) (n : ℕ) (hn : n < 16) (h : 16 * cc.val + n < cfg0.N) :
    (outsAt0 (F := Ideal) m c (16 * cc.val + n) h).2.2 (ix2 (0 : Fin 1) (0 : Fin 1))
      = ∑ k ∈ Finset.range (n + 1), cntN m c (16 * cc.val + k) := by
  induction n with
  | zero =>
    have e := scratch1_first (F := Ideal) m c ⟨16 * cc.val + 0, h⟩ (by show (16 * cc.val + 0) % 16 = 0; omega)
    dsimp only at e
    rw [e, PayValue.pay2_apply, PayValue.pay5_apply, zero_add, Finset.sum_range_one]
    exact (cntN_of_lt m c _ h).symm
  | succ n ih =>
    have hprev : 16 * cc.val + n < cfg0.N := by omega
    have e := scratch1_next (F := Ideal) m c ⟨16 * cc.val + (n + 1), h⟩ (by show (16 * cc.val + (n + 1)) % 16 ≠ 0; omega)
    dsimp only at e
    rw [e, PayValue.pay2_apply]
    rw [outsAt0_congr m c _ (16 * cc.val + n) (by omega) _ hprev, ih (by omega) hprev]
    rw [Finset.sum_range_succ (fun k => cntN m c (16 * cc.val + k)) (n + 1)]
    exact congrArg (_ + ·) (cntN_of_lt m c _ h).symm

/-! ## A tile's contributions, as the specification's -/

/-- The grid's coordinates of a position: the half and the inner step. -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- At inner step `k` of half `cc` the body's sum of row losses is the sum of the specification's row losses over
    the tile's rows: the point's blocks are the tile's rows of the normalised embeddings and of the labels, and the
    whole arrays. -/
theorem sumRowAt_eq (c : Dev nD) (t : Fin cfg0.N) (cc : Fin 2) (k : Fin 16) (ht : t.val = 16 * cc.val + k.val) :
    sumRowAt (F := Ideal) m c t = ∑ r : Fin 256, Cert.Spec.rowsK (xOf m c) (lOf m c) (Cert.Spec.tileIdx cc k r) := by
  have hc0 := (coords_val t).1
  have hc1 := (coords_val t).2
  have hk := k.isLt
  unfold sumRowAt
  exact PayValue.pay14_apply (grid0.coords t) cc k (by omega) (by omega) (iblk m c 0 t) (iblk m c 1 t) (iblk m c 2 t) (iblk m c 3 t) (xOf m c) (lOf m c)
    (fun r q => (iblk0_apply m c t cc k ht r q).trans (V_main_v5_apply m c _ q))
    (fun j q => (iblk1_apply m c t j q).trans (V_main_v5_apply m c j q))
    (fun r => (iblk2_apply m c t cc k ht r).trans (V_main_v6_apply m c _))
    (fun j => (iblk3_apply m c t j).trans (V_main_v7_apply m c j))

/-- And its validity indicator at row `r` is the specification's validity bit of the tile's row `r`. -/
theorem cntVecAt_eq (c : Dev nD) (t : Fin cfg0.N) (cc : Fin 2) (k : Fin 16) (ht : t.val = 16 * cc.val + k.val) (r : Fin 256) :
    cntVecAt (F := Ideal) m c t (ix2 r (0 : Fin 1))
      = Cert.Spec.ind (Cert.Spec.validsK (xOf m c) (lOf m c) (Cert.Spec.tileIdx cc k r)) := by
  have hc0 := (coords_val t).1
  have hc1 := (coords_val t).2
  have hk := k.isLt
  unfold cntVecAt
  exact PayValue.pay15_apply (grid0.coords t) cc k (by omega) (by omega) (iblk m c 0 t) (iblk m c 1 t) (iblk m c 2 t) (iblk m c 3 t) (xOf m c) (lOf m c)
    (fun r q => (iblk0_apply m c t cc k ht r q).trans (V_main_v5_apply m c _ q))
    (fun j q => (iblk1_apply m c t j q).trans (V_main_v5_apply m c j q))
    (fun r => (iblk2_apply m c t cc k ht r).trans (V_main_v6_apply m c _))
    (fun j => (iblk3_apply m c t j).trans (V_main_v7_apply m c j)) r

/-! ## The output block after a half's last point -/

/-- Entry (0, 0) of the output block after the last point of half `cc`: the sum of the specification's row losses
    over the half's sixteen tiles. -/
theorem out_sum (c : Dev nD) (cc : Fin 2) (h : 16 * cc.val + 15 < cfg0.N) :
    (outsAt0 (F := Ideal) m c (16 * cc.val + 15) h).1 (ix2 (0 : Fin 8) (0 : Fin 128))
      = ∑ k : Fin 16, ∑ r : Fin 256, Cert.Spec.rowsK (xOf m c) (lOf m c) (Cert.Spec.tileIdx cc k r) := by
  have e := out_last (F := Ideal) m c ⟨16 * cc.val + 15, h⟩ (by show (16 * cc.val + 15) % 16 = 15; omega)
  dsimp only at e
  have a := acc_sum m c cc 15 (by omega) h
  rw [show (15 : ℕ) + 1 = 16 from rfl, Finset.sum_range] at a
  rw [e, PayValue.pay3_apply_00, a]
  refine Finset.sum_congr rfl fun k _ => ?_
  have hk : 16 * cc.val + k.val < cfg0.N := by have := k.isLt; omega
  rw [sumRowN_of_lt m c _ hk]
  exact sumRowAt_eq m c ⟨_, hk⟩ cc k rfl

/-- Entry (0, 1): the number of valid rows of the half's sixteen tiles. -/
theorem out_cnt (c : Dev nD) (cc : Fin 2) (h : 16 * cc.val + 15 < cfg0.N) :
    (outsAt0 (F := Ideal) m c (16 * cc.val + 15) h).1 (ix2 (0 : Fin 8) (1 : Fin 128))
      = ∑ k : Fin 16, ∑ r : Fin 256, Cert.Spec.ind (Cert.Spec.validsK (xOf m c) (lOf m c) (Cert.Spec.tileIdx cc k r)) := by
  have e := out_last (F := Ideal) m c ⟨16 * cc.val + 15, h⟩ (by show (16 * cc.val + 15) % 16 = 15; omega)
  dsimp only at e
  have a := acc_cnt m c cc 15 (by omega) h
  rw [show (15 : ℕ) + 1 = 16 from rfl, Finset.sum_range] at a
  rw [e, PayValue.pay3_apply_01, a]
  refine Finset.sum_congr rfl fun k _ => ?_
  have hk : 16 * cc.val + k.val < cfg0.N := by have := k.isLt; omega
  rw [cntN_of_lt m c _ hk]
  exact Finset.sum_congr rfl fun r _ => cntVecAt_eq m c ⟨_, hk⟩ cc k rfl r

end Cert.KernelIdeal.Hand

end
-- ==== Proof.KI.Result.lean ====
import proofs.«419832_j8873402433633_3_alg».proof.Proof.KI.FrameClaim
import proofs.«419832_j8873402433633_3_alg».proof.Proof.KI.Tail
import proofs.«419832_j8873402433633_3_alg».proof.Proof.KI.Acc

/-!
# The kernel program's result

After the region the output array holds, in row 0 of each core's block of eight rows, the core's accumulated
sum of row losses (column 0) and its count of valid rows (column 1). The last host operations add the two cores'
sums and counts and divide the sum by the count clipped below at one: the loss mined in the similarity domain,
summed tile by tile, of the embeddings and labels @main was launched with.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx

variable (m : (ℓ : Loc nD τ sig) → Buf (Elt Ideal) ℓ) (ρ : Dev nD → PrngReg)

/-- Row 0 of core `cc`'s block of the output array after the region is row 0 of what the core's last grid point
    stored. -/
theorem outArr_row0 (c : Dev nD) (cc : Fin 2) (y1 : Fin 128) :
    outArr (W3 m (dats m) c) (ix2 ⟨8 * cc.val + (0 : Fin 8).val, by have := cc.isLt; omega⟩ y1)
      = (outsAt0 m c (16 * cc.val + 15) (lastPt cc).isLt).1 (ix2 (0 : Fin 8) y1) := by
  unfold outArr
  rw [W3_v8]
  exact (arrAt_out (dats m 0 c) cc 0 y1).trans (congrFun (after0_4 m c (lastPt cc)) _)

/-- The result buffer at the last valuation: the loss, mined in the similarity domain. -/
theorem W4_main_v20 (c : Dev nD) :
    (W4 m (dats m) c (Proc.devRef .tc main_v20) : S_.Idx → EReal) = fun _ => Cert.Spec.lossK (xOf m c) (lOf m c) := by
  show (StableHlo.after hostOps1 (W3 m (dats m) c) (Proc.devRef .tc main_v20) : S_.Idx → EReal) = _
  rw [tail_v20]
  funext _
  have e00 := outArr_row0 m c 0 0
  have e01 := outArr_row0 m c 0 1
  have e80 := outArr_row0 m c 1 0
  have e81 := outArr_row0 m c 1 1
  rw [out_sum m c 0 (lastPt 0).isLt] at e00
  rw [out_cnt m c 0 (lastPt 0).isLt] at e01
  rw [out_sum m c 1 (lastPt 1).isLt] at e80
  rw [out_cnt m c 1 (lastPt 1).isLt] at e81
  have h00 : outArr (W3 m (dats m) c) (ix2 (0 : Fin 16) (0 : Fin 128)) = _ := e00
  have h01 : outArr (W3 m (dats m) c) (ix2 (0 : Fin 16) (1 : Fin 128)) = _ := e01
  have h80 : outArr (W3 m (dats m) c) (ix2 (8 : Fin 16) (0 : Fin 128)) = _ := e80
  have h81 : outArr (W3 m (dats m) c) (ix2 (8 : Fin 16) (1 : Fin 128)) = _ := e81
  rw [h00, h01, h80, h81]
  exact Cert.Spec.lossK_tiles _ _

/-- Every execution ends with the result at the similarity-domain loss of the launch arrays and the arguments
    unchanged. -/
theorem run_loss : θ_run defs (onTc (τ := τ) (main (F := Ideal))) ⟨m, fun _ => 0, ρ⟩ (fun r => ∀ c : Dev nD,
      r.2.mem ((c.tc : Thread nD τ).loc main_v20) = (fun _ => Cert.Spec.lossK (xOf m c) (lOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v20 (by decide))).trans (W4_main_v20 m c),
     (h c _ (mem_uc main_arg0 (by decide))).trans (W4_main_arg0 m c),
     (h c _ (mem_uc main_arg1 (by decide))).trans (W4_main_arg1 m c)⟩) (run_all m ρ)

end Cert.KernelIdeal.Hand

end
-- ==== Proof.KI.Finite.lean ====
import proofs.«419832_j8873402433633_3_alg».proof.Defs
import proofs.«419832_j8873402433633_3_alg».proof.Proof.Gen.Pre_finite_inputs
import proofs.«419832_j8873402433633_3_alg».proof.Proof.KI.Entry
import Idealize.ShloMosaic.Lib.ReduceAll
import Idealize.ShloMosaic.Lib.IdealHost

/-!
# The embeddings are finite

The precondition says that every entry of the embeddings is smaller in absolute value than the f32
infinity. Read back: every entry is a real number.
-/

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- The scalar shape has one index. -/
instance : Subsingleton Cert.Pre_finite_inputs.S_.Idx := ⟨fun a b => funext fun d => d.elim0⟩

/-- Under the precondition every entry of the embeddings is a real number: it is neither of the two infinities. -/
theorem finite_of_pre [Cert.Pre_finite_inputs.Facts] (m : (ℓ : Loc nD τ sig) → Buf (Elt Ideal) ℓ)
    (h : Cert.Pre_KernelIdeal m) (c : Dev nD) : ∀ i q, xOf m c i q ≠ ⊥ ∧ xOf m c i q ≠ ⊤ := by
  intro i q
  have h0 := congrFun (h c) ValueIdx.ix0
  dsimp only [Cert.Pre_finite_inputs.fn] at h0
  have h1 := Host.reduce_andi_all _ _ _ _ _ h0 (ix2 i q)
  rw [cmpf_apply, broadcastInDim_scalar_apply, constant_apply] at h1
  have hinf : Ideal.ofBits .f32 0x7F800000#32 = (⊤ : EReal) := by simp [Ideal.ofBits, Ideal.ieee]
  rw [hinf] at h1
  have h2 : max (xOf m c i q) (-(xOf m c i q)) < (⊤ : EReal) := by
    by_contra hn
    have e : BitVec.ofBool (decide (max (xOf m c i q) (-(xOf m c i q)) < (⊤ : EReal))) = 0#1 := by
      rw [decide_eq_false hn]; rfl
    have h3 : BitVec.ofBool (decide (max (xOf m c i q) (-(xOf m c i q)) < (⊤ : EReal))) = 1#1 := h1
    rw [e] at h3
    exact absurd h3 (by decide)
  generalize xOf m c i q = x at h2
  induction x using EReal.rec with
  | bot => simp at h2
  | coe r => exact ⟨EReal.coe_ne_bot r, EReal.coe_ne_top r⟩
  | top => simp at h2

end Cert.KernelIdeal.Hand
end
-- ==== Proof.RefSim.lean ====
import proofs.«419832_j8873402433633_3_alg».proof.Proof.RefRead
import proofs.«419832_j8873402433633_3_alg».proof.Proof.Spec
import Idealize.ShloMosaic.Lib.ValueIdx
import Idealize.ShloMosaic.PureOps.Ideal.Laws

/-!
# The reference's first stages: the normalised rows and their inner products

Read at coordinates, the reference's quotient stage is `Cert.Spec.en` of the argument array and its
`dot_general` stage is `Cert.Spec.sim`: the squared norm is the sum of the squares from a zero initial value, the
clip is the maximum with the literal, the transposed operand is read with its coordinates exchanged.
-/

noncomputable section

namespace Cert.ReferenceIdeal.RefSim

open Cert.ReferenceIdeal Cert.ReferenceIdeal.Gen Cert.ReferenceIdeal.Read Idealize.ShloMosaic Idealize.ShloMosaic.ValueIdx

/-- The argument array read by coordinates. -/
abbrev arr (x0 : (⟨S8192x128, .f32⟩ : BufTy).Contents (Elt Ideal)) : Fin 8192 → Fin 128 → EReal :=
  fun i k => x0 (ix2 i k)

variable (x0 : (⟨S8192x128, .f32⟩ : BufTy).Contents (Elt Ideal))

/-- The sum of the squares of row `i`. -/
theorem normSq_eq (i : Fin 8192) :
    val_main_call0_v1 (F := Ideal) x0 (ix1 i) = Cert.Spec.normSq (arr x0) i := by
  rw [val_main_call0_v1_apply, val_main_call0_cst_apply, Ideal.ofBits_def, Ideal.ofBits_zero_f32, zero_add]
  unfold Cert.Spec.normSq
  refine Finset.sum_congr rfl fun k _ => ?_
  rw [val_main_call0_v0_apply]
  have e : idx_main_call0_v1 (ix1 i) k = ix2 i k := by
    funext a; match a with | ⟨0, _⟩ => rfl | ⟨1, _⟩ => rfl
  rw [e]
  rfl

/-- The clipped norm of row `i`, in the one-column layout. -/
theorem clip_eq (i : Fin 8192) (z : Fin 1) :
    val_main_v2 (F := Ideal) x0 (ix2 i z)
      = max (Ideal.sqrt (Cert.Spec.normSq (arr x0) i)) Cert.Spec.eps := by
  rw [val_main_v2_apply, val_main_v0_apply, val_main_call0_v2_apply, val_main_v1_apply, val_main_cst_apply]
  have e : idx_main_call0_v2 (ix2 i z) = ix1 i := by
    funext a; match a with | ⟨0, _⟩ => rfl
  rw [e, normSq_eq]
  rfl

/-- The quotient stage is the normalised row. -/
theorem en_eq (i : Fin 8192) (k : Fin 128) :
    val_main_v4 (F := Ideal) x0 (ix2 i k) = Cert.Spec.en (arr x0) i k := by
  rw [val_main_v4_apply, val_main_v3_apply]
  have e : idx_main_v3 (ix2 i k) = ix2 i (0 : Fin 1) := by
    funext a; match a with | ⟨0, _⟩ => rfl | ⟨1, _⟩ => rfl
  rw [e, clip_eq]
  rfl

/-- The `dot_general` stage is the inner product of two normalised rows. -/
theorem sim_eq (i j : Fin 8192) :
    val_main_v6 (F := Ideal) x0 (ix2 i j) = Cert.Spec.sim (arr x0) i j := by
  rw [val_main_v6_apply]
  unfold Cert.Spec.sim
  refine Finset.sum_congr rfl fun k _ => ?_
  rw [val_main_v5_apply]
  have el : lidx_main_v6 (ix2 i j) k = ix2 i k := by
    funext a; match a with | ⟨0, _⟩ => rfl | ⟨1, _⟩ => rfl
  have er : idx_main_v5 (ridx_main_v6 (ix2 i j) k) = ix2 j k := by
    funext a; match a with | ⟨0, _⟩ => rfl | ⟨1, _⟩ => rfl
  rw [el, er, en_eq, en_eq]

end Cert.ReferenceIdeal.RefSim

end
-- ==== Proof.RefValue.lean ====
import proofs.«419832_j8873402433633_3_alg».proof.Proof.RefRead
import proofs.«419832_j8873402433633_3_alg».proof.Proof.RefSim
import proofs.«419832_j8873402433633_3_alg».proof.Proof.SpecLaws
import Idealize.ShloMosaic.Lib.ValueIdx
import Idealize.ShloMosaic.Lib.ValueIdxRank1
import Idealize.ShloMosaic.Lib.DynamicIndex
import Idealize.ShloMosaic.PureOps.Reduce
import Idealize.ShloMosaic.PureOps.Ideal.Laws
import Mathlib.Data.Finset.Fold
import Mathlib.Data.Finset.Card

/-!
# The reference's value: the loss mined in the distance domain

Stage by stage, read at coordinates, the reference program computes `Cert.Spec.lossR` of its two argument arrays:
the distance matrix is `Cert.Mining.dist` of the similarities, the masks are the one-bit words of
`Cert.Spec.posM` / `negM`, each row reduction is the fold `Cert.Mining` names, and the count of valid rows, clipped
below at one, is the divisor.
-/

noncomputable section

namespace Cert.ReferenceIdeal.RefValue

open Cert.ReferenceIdeal Cert.ReferenceIdeal.Gen Cert.ReferenceIdeal.Read Cert.ReferenceIdeal.RefSim
  Idealize.ShloMosaic Idealize.ShloMosaic.ValueIdx Cert.Mining Cert.Spec

/-! ## One-bit words -/

theorem select_ofBool {α : Type} (b : Bool) (x y : α) :
    Scalar.select (BitVec.ofBool b) x y = if b = true then x else y := by
  cases b
  · exact if_neg (by decide)
  · exact if_pos rfl

theorem andi_ofBool (a b : Bool) : IntOp.andi (BitVec.ofBool a) (BitVec.ofBool b) = BitVec.ofBool (a && b) := by
  cases a <;> cases b <;> rfl

theorem not_ofBool (a : Bool) : ~~~(BitVec.ofBool a) = BitVec.ofBool (!a) := by
  cases a <;> rfl

/-- An or-fold of one-bit words is set exactly when one of the words is. -/
theorem fold_ori_ofBool {J : Type} [Fintype J] (f : J → Bool) :
    Finset.univ.fold IntOp.ori 0#1 (fun j => BitVec.ofBool (f j)) = BitVec.ofBool (decide (∃ j, f j = true)) := by
  classical
  have h : ∀ s : Finset J, s.fold IntOp.ori 0#1 (fun j => BitVec.ofBool (f j))
      = BitVec.ofBool (decide (∃ j ∈ s, f j = true)) := by
    intro s
    induction s using Finset.induction_on with
    | empty => simp
    | insert a s ha ih =>
      rw [Finset.fold_insert ha, ih]
      have e : (∃ j ∈ insert a s, f j = true) ↔ (f a = true ∨ ∃ j ∈ s, f j = true) := by
        simp only [Finset.mem_insert, exists_eq_or_imp]
      rw [decide_eq_decide.mpr e, Bool.decide_or]
      cases f a <;> cases decide (∃ j ∈ s, f j = true) <;> rfl
  rw [h]
  congr 1
  simp

/-- An integer sum of zero-or-one words from zero counts the ones (no wrap below `2 ^ 32` summands is needed for the
    word; the number is read off it later). -/
theorem fold_addi_ofBool {J : Type} [Fintype J] (f : J → Bool) :
    Finset.univ.fold IntOp.addi 0#32 (fun j => (BitVec.ofBool (f j)).setWidth 32)
      = BitVec.ofNat 32 (Finset.univ.filter fun j => f j = true).card := by
  classical
  have h : ∀ s : Finset J, s.fold IntOp.addi 0#32 (fun j => (BitVec.ofBool (f j)).setWidth 32)
      = BitVec.ofNat 32 (s.filter fun j => f j = true).card := by
    intro s
    induction s using Finset.induction_on with
    | empty => simp
    | insert a s ha ih =>
      rw [Finset.fold_insert ha, ih, Finset.filter_insert]
      cases hfa : f a
      · rw [if_neg (by simp)]
        show (0#32 : BitVec 32) + _ = _
        rw [BitVec.zero_add]
      · rw [if_pos rfl, Finset.card_insert_of_notMem (by simp [ha])]
        show (1#32 : BitVec 32) + _ = _
        rw [Nat.add_comm, BitVec.ofNat_add]
  exact h _

/-! ## The two reductions' shapes -/

/-- A reduction of a square array along its rows, at row `i`: the fold over the row's columns. -/
theorem rowReduce_apply {α : Type} (f : α → α → α) [Std.Commutative f] [Std.Associative f]
    (x : S8192x8192.Idx → α) (init : S_.Idx → α) (i : Fin 8192) :
    Host.reduce f x init reducesTo_S8192x8192_S8192_d1 h_S_ (ix1 i)
      = Finset.univ.fold f (init (Shape.Idx.first h_S_)) (fun j : Fin 8192 => x (ix2 i j)) := by
  rw [Host.reduce_eq_fold_single f x init reducesTo_S8192x8192_S8192_d1 (by decide) h_S_ (ix1 i)]
  refine congrArg (Finset.univ.fold f _) (funext fun j => congrArg x (funext fun a => Fin.ext ?_))
  match a with
  | ⟨0, _⟩ => rfl
  | ⟨1, _⟩ => rfl

/-- A reduction of a vector to a scalar: the fold over its entries. -/
theorem allReduce_apply {α : Type} (f : α → α → α) [Std.Commutative f] [Std.Associative f]
    (x : S8192.Idx → α) (init : S_.Idx → α) (z : S_.Idx) :
    Host.reduce f x init reducesTo_S8192_S_d0 h_S_ z
      = Finset.univ.fold f (init (Shape.Idx.first h_S_)) (fun j : Fin 8192 => x (ix1 j)) := by
  rw [Host.reduce_eq_fold f x init reducesTo_S8192_S_d0 h_S_ z,
    Finset.filter_true_of_mem (fun i _ => funext fun b => b.elim0),
    ← Finset.map_univ_equiv (idxEquiv1 (n := 8192)).symm, Finset.fold_map]
  rfl

/-! ## The arguments by coordinates -/

/-- The label vector read by its coordinate. -/
abbrev lab (x1 : (⟨S8192, .i32⟩ : BufTy).Contents (Elt Ideal)) : Fin 8192 → BitVec 32 := fun i => x1 (ix1 i)

variable (x0 : (⟨S8192x128, .f32⟩ : BufTy).Contents (Elt Ideal)) (x1 : (⟨S8192, .i32⟩ : BufTy).Contents (Elt Ideal))

/-! ## The distance matrix and the masks -/

/-- The clipped stage is the distance of the similarity. -/
theorem dist_eq (i j : Fin 8192) :
    val_main_v9 (F := Ideal) x0 (ix2 i j) = dist (sim (arr x0) i j) := by
  rw [val_main_v9_apply, val_main_call1_v1_apply, val_main_call1_v0_apply, val_main_cst_1_apply, val_main_v8_apply,
    val_main_v7_apply, val_main_cst_0_apply, sim_eq]
  simp only [Ideal.maximumf_def, Ideal.subf_def, Ideal.ofBits_def, Ideal.ofBits_zero_f32, ofBits_one]
  rfl

/-- The labels of row `i` and column `j` agree. -/
theorem eqbit_eq (i j : Fin 8192) :
    val_main_v14 (F := Ideal) x1 (ix2 i j) = BitVec.ofBool (decide (lab x1 i = lab x1 j)) := by
  rw [val_main_v14_apply, val_main_v12_apply, val_main_v10_apply, val_main_v13_apply, val_main_v11_apply]
  have e1 : idx_main_v10 (idx_main_v12 (ix2 i j)) = ix1 i := by
    funext a; match a with | ⟨0, _⟩ => rfl
  have e2 : idx_main_v11 (idx_main_v13 (ix2 i j)) = ix1 j := by
    funext a; match a with | ⟨0, _⟩ => rfl
  rw [e1, e2]
  rfl

/-- Row `i` is column `j`. -/
theorem diagbit_eq (i j : Fin 8192) :
    val_main_v19 (F := Ideal) (ix2 i j) = BitVec.ofBool (decide (i = j)) := by
  rw [val_main_v19_apply, val_main_v18_apply, val_main_v15_apply, val_main_v17_apply, val_main_c_apply,
    val_main_v16_apply]
  show BitVec.ofBool (BitVec.ofNat 32 i.val + 0#32 == BitVec.ofNat 32 j.val) = _
  rw [BitVec.add_zero]
  congr 1
  rw [Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact Fin.ext this
  · intro h; rw [h]

/-- Column `j` is a positive of row `i`. -/
theorem pos_eq (i j : Fin 8192) :
    val_main_v21 (F := Ideal) x1 (ix2 i j) = BitVec.ofBool (posM (lab x1) i j) := by
  rw [val_main_v21_apply, val_main_v20_apply, eqbit_eq, diagbit_eq, not_ofBool, andi_ofBool]
  rfl

/-- Column `j` is a negative of row `i`. -/
theorem neg_eq (i j : Fin 8192) :
    val_main_v22 (F := Ideal) x1 (ix2 i j) = BitVec.ofBool (negM (lab x1) i j) := by
  rw [val_main_v22_apply, eqbit_eq, not_ofBool]
  rfl

/-! ## Row by row -/

/-- Row `i` has a positive. -/
theorem hasPos_eq (i : Fin 8192) :
    val_main_v23 (F := Ideal) x1 (ix1 i) = BitVec.ofBool (hasPosR (posM (lab x1) i)) := by
  unfold val_main_v23
  rw [rowReduce_apply, val_main_c_2_apply]
  simp only [pos_eq]
  exact fold_ori_ofBool _

/-- Row `i` has a negative. -/
theorem hasNeg_eq (i : Fin 8192) :
    val_main_v24 (F := Ideal) x1 (ix1 i) = BitVec.ofBool (hasNegR (negM (lab x1) i)) := by
  unfold val_main_v24
  rw [rowReduce_apply, val_main_c_3_apply]
  simp only [neg_eq]
  exact fold_ori_ofBool _

/-- The largest distance among the positives of row `i`. -/
theorem pmax_eq (i : Fin 8192) :
    val_main_v27 (F := Ideal) x0 x1 (ix1 i)
      = Finset.univ.fold max ⊥ (fun j => if posM (lab x1) i j = true then dist (sim (arr x0) i j) else ⊥) := by
  unfold val_main_v27
  rw [rowReduce_apply, val_main_cst_5_apply]
  simp only [val_main_v26_apply, pos_eq, dist_eq, select_ofBool, val_main_call2_v0_apply, val_main_v25_apply,
    val_main_cst_4_apply]
  show Finset.univ.fold max (Ideal.ofBits .f32 0xFF800000#32) (fun j => if posM (lab x1) i j = true then
    dist (sim (arr x0) i j) else -(Ideal.ofBits .f32 0x7F800000#32)) = _
  rw [ofBits_ninf, ofBits_inf, EReal.neg_top]

/-- A zero splat over the rows. -/
theorem zero3_eq (i : Fin 8192) : val_main_call3_v1 (F := Ideal) (ix1 i) = (0 : EReal) := by
  rw [val_main_call3_v1_apply, val_main_call3_v0_apply, val_main_cst_6_apply]
  exact Ideal.ofBits_zero_f32

/-- The hardest positive's distance. -/
theorem dap_eq (i : Fin 8192) :
    val_main_v28 (F := Ideal) x0 x1 (ix1 i) = dapR (sim (arr x0) i) (posM (lab x1) i) := by
  rw [val_main_v28_apply, hasPos_eq, select_ofBool, pmax_eq, zero3_eq]
  rfl

/-- The margin splat over the one-column layout and over the rows. -/
theorem margin_col_eq (i : Fin 8192) (z : Fin 1) : val_main_v34 (F := Ideal) (ix2 i z) = margin := by
  rw [val_main_v34_apply, val_main_cst_7_apply]
  rfl

theorem margin_row_eq (i : Fin 8192) : val_main_v47 (F := Ideal) (ix1 i) = margin := by
  rw [val_main_v47_apply, val_main_cst_13_apply]
  rfl

theorem cmpf_ogt (a b : Ideal .f32) : FloatOps.cmpf (F := Ideal) .ogt a b = BitVec.ofBool (decide (b < a)) := rfl
theorem cmpf_olt (a b : Ideal .f32) : FloatOps.cmpf (F := Ideal) .olt a b = BitVec.ofBool (decide (a < b)) := rfl

/-- Column `j` is a semi-hard negative of row `i`. -/
theorem semi_eq (i j : Fin 8192) :
    val_main_v38 (F := Ideal) x0 x1 (ix2 i j)
      = BitVec.ofBool (semiR margin (sim (arr x0) i) (posM (lab x1) i) (negM (lab x1) i) j) := by
  have e30 : idx_main_v29 (idx_main_v30 (ix2 i j)) = ix1 i := by
    funext a; match a with | ⟨0, _⟩ => rfl
  have e36 : idx_main_v36 (ix2 i j) = ix2 i (0 : Fin 1) := by
    funext a; match a with | ⟨0, _⟩ => rfl | ⟨1, _⟩ => rfl
  have e33 : idx_main_v33 (ix2 i (0 : Fin 1)) = ix1 i := by
    funext a; match a with | ⟨0, _⟩ => rfl
  rw [val_main_v38_apply, val_main_v32_apply, val_main_v31_apply, val_main_v37_apply, neg_eq, dist_eq,
    val_main_v30_apply, val_main_v29_apply, e30, dap_eq, val_main_v36_apply, e36, val_main_v35_apply,
    val_main_v33_apply, e33, dap_eq, margin_col_eq]
  rw [cmpf_ogt, cmpf_olt, andi_ofBool, andi_ofBool]
  rfl

/-- Row `i` has a semi-hard negative. -/
theorem hasSemi_eq (i : Fin 8192) :
    val_main_v39 (F := Ideal) x0 x1 (ix1 i)
      = BitVec.ofBool (hasSemiR margin (sim (arr x0) i) (posM (lab x1) i) (negM (lab x1) i)) := by
  unfold val_main_v39
  rw [rowReduce_apply, val_main_c_8_apply]
  simp only [semi_eq]
  exact fold_ori_ofBool _

/-- The nearest semi-hard negative's distance. -/
theorem danSemi_eq (i : Fin 8192) :
    val_main_v41 (F := Ideal) x0 x1 (ix1 i)
      = danSemiR margin (sim (arr x0) i) (posM (lab x1) i) (negM (lab x1) i) := by
  unfold val_main_v41
  rw [rowReduce_apply, val_main_cst_10_apply]
  simp only [val_main_v40_apply, semi_eq, dist_eq, select_ofBool, val_main_call4_v0_apply, val_main_cst_9_apply]
  show Finset.univ.fold min (Ideal.ofBits .f32 0x7F800000#32) (fun j =>
    if semiR margin (sim (arr x0) i) (posM (lab x1) i) (negM (lab x1) i) j = true then
      dist (sim (arr x0) i j) else Ideal.ofBits .f32 0x7F800000#32) = _
  rw [ofBits_inf]
  rfl

/-- The nearest negative's distance. -/
theorem danHard_eq (i : Fin 8192) :
    val_main_v43 (F := Ideal) x0 x1 (ix1 i) = danHardR (sim (arr x0) i) (negM (lab x1) i) := by
  unfold val_main_v43
  rw [rowReduce_apply, val_main_cst_12_apply]
  simp only [val_main_v42_apply, neg_eq, dist_eq, select_ofBool, val_main_call5_v0_apply, val_main_cst_11_apply]
  show Finset.univ.fold min (Ideal.ofBits .f32 0x7F800000#32) (fun j =>
    if negM (lab x1) i j = true then dist (sim (arr x0) i j) else Ideal.ofBits .f32 0x7F800000#32) = _
  rw [ofBits_inf]
  rfl

/-- The mined negative's distance. -/
theorem dan_eq (i : Fin 8192) :
    val_main_v44 (F := Ideal) x0 x1 (ix1 i)
      = danR margin (sim (arr x0) i) (posM (lab x1) i) (negM (lab x1) i) := by
  rw [val_main_v44_apply, hasSemi_eq, danSemi_eq, danHard_eq, select_ofBool]
  rfl

/-- Row `i` is valid. -/
theorem valid_eq (i : Fin 8192) :
    val_main_v45 (F := Ideal) x1 (ix1 i) = BitVec.ofBool (validsR (lab x1) i) := by
  rw [val_main_v45_apply, hasPos_eq, hasNeg_eq, andi_ofBool]
  rfl

/-- A zero splat over the rows (the two others the program makes). -/
theorem zero7_eq (i : Fin 8192) : val_main_call7_v0 (F := Ideal) (ix1 i) = (0 : EReal) := by
  rw [val_main_call7_v0_apply, val_main_call7_cst_apply]
  exact Ideal.ofBits_zero_f32

theorem zero8_eq (i : Fin 8192) : val_main_call8_v1 (F := Ideal) (ix1 i) = (0 : EReal) := by
  rw [val_main_call8_v1_apply, val_main_call8_v0_apply, val_main_cst_14_apply]
  exact Ideal.ofBits_zero_f32

/-- The loss of row `i`. -/
theorem row_eq (i : Fin 8192) :
    val_main_v50 (F := Ideal) x0 x1 (ix1 i) = rowsR (arr x0) (lab x1) i := by
  rw [val_main_v50_apply, valid_eq, select_ofBool, val_main_v49_apply, val_main_v48_apply, val_main_v46_apply,
    dap_eq, dan_eq, margin_row_eq, zero7_eq, zero8_eq]
  rfl

/-! ## The count and the quotient -/

/-- The number of valid rows as a word. -/
theorem count_eq (z : S_.Idx) :
    val_main_v52 (F := Ideal) x1 z = BitVec.ofNat 32 (cntOf (validsR (lab x1))) := by
  unfold val_main_v52
  rw [allReduce_apply, val_main_c_15_apply]
  simp only [val_main_v51_apply, valid_eq]
  exact fold_addi_ofBool _

theorem cntOf_le (v : Fin 8192 → Bool) : cntOf v ≤ 8192 := by
  unfold cntOf
  exact (Finset.card_le_univ _).trans (by simp)

/-- The divisor: the count clipped below at one, as a float. -/
theorem divisor_eq (z : S_.Idx) :
    val_main_v55 (F := Ideal) x1 z = (((max (cntOf (validsR (lab x1))) 1 : ℕ) : ℝ) : EReal) := by
  rw [val_main_v55_apply, val_main_v53_apply, count_eq, val_main_c_16_apply]
  have hn := cntOf_le (validsR (lab x1))
  generalize cntOf (validsR (lab x1)) = n at hn ⊢
  have hm : IntOp.maxsi (BitVec.ofNat 32 n) 1#32 = BitVec.ofNat 32 (max n 1) := by
    unfold IntOp.maxsi
    rw [BitVec.slt, show (1#32 : BitVec 32) = BitVec.ofNat 32 1 from rfl, toInt_ofNat_of_lt (by omega),
      toInt_ofNat_of_lt (by omega)]
    by_cases h : 1 < n
    · rw [if_pos (by simpa using h), max_eq_left (by omega)]
    · rw [if_neg (by simpa using h), max_eq_right (by omega)]
  rw [hm]
  show (((BitVec.ofNat 32 (max n 1)).toInt : ℝ) : EReal) = _
  rw [toInt_ofNat_of_lt (by omega), Int.cast_natCast]

/-- The sum of the rows' losses. -/
theorem total_eq (z : S_.Idx) :
    val_main_v54 (F := Ideal) x0 x1 z = ∑ i, rowsR (arr x0) (lab x1) i := by
  rw [val_main_v54_apply, val_main_cst_17_apply, Ideal.ofBits_def, Ideal.ofBits_zero_f32, zero_add,
    ← Equiv.sum_comp (idxEquiv1 (n := 8192)).symm]
  exact Finset.sum_congr rfl fun i _ => row_eq x0 x1 i

/-- The reference's last stage is the loss mined in the distance domain, of the arguments read by coordinates. -/
theorem result_eq (x0 : (⟨S8192x128, .f32⟩ : BufTy).Contents (Elt Ideal))
    (x1 : (⟨S8192, .i32⟩ : BufTy).Contents (Elt Ideal)) :
    val_main_v56 (F := Ideal) x0 x1
      = fun _ => lossR (fun i k => x0 (ix2 i k)) (fun i => x1 (ix1 i)) := by
  funext z
  rw [val_main_v56_apply, total_eq, divisor_eq]
  rfl

end Cert.ReferenceIdeal.RefValue

end
-- ==== Proof.RefRunLoss.lean ====
import proofs.«419832_j8873402433633_3_alg».proof.Proof.RefStages
import proofs.«419832_j8873402433633_3_alg».proof.Proof.RefValue

/-!
# The reference's run ends at the loss

Every execution of the reference program ends with its result buffer at `Cert.Spec.lossR` of the two argument
arrays read by coordinates, the arguments unchanged: the run ends at the last stage, and the last stage is that loss.
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec

theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
          = (fun _ => lossR (fun i k => m ((c.tc : Thread nD τ).loc main_arg0) (ix2 i k))
              (fun i => m ((c.tc : Thread nD τ).loc main_arg1) (ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2.1, (h c).2.2⟩)
    (Cert.ReferenceIdeal.Stages.run m ρ)

end Cert.ReferenceIdeal.RefValue

end
-- ==== Proof.lean ====
/- The kernel mines hard and semi-hard triplets in the SIMILARITY domain, tile by tile on a 2×16 grid, carrying a sum
   and a count in two scratch words; the reference mines the clipped DISTANCES of the whole batch. Both normalise
   the rows by their norms clipped at the same literal, so at the ideal instance they have the same similarities.
   For finite embeddings the similarities are finite, the two minings agree row by row (`Cert.Mining.mining_eq`),
   and the tile-by-tile sums are the whole sums: the two results are one extended real.
   The three frames: the two kernel programs by the run of @main over its four segments (two host stretches, the
   region with two windows on one array, a last host stretch); the reference by its run.
   `preserves` has no conjunct: the idealisation rewrote nothing. -/
import proofs.«419832_j8873402433633_3_alg».proof.Defs
import proofs.«419832_j8873402433633_3_alg».proof.Proof.Gen.Kernel
import proofs.«419832_j8873402433633_3_alg».proof.Proof.Gen.KernelIdeal
import proofs.«419832_j8873402433633_3_alg».proof.Proof.Gen.ReferenceIdeal
import proofs.«419832_j8873402433633_3_alg».proof.Proof.Gen.Pre_finite_inputs
import proofs.«419832_j8873402433633_3_alg».proof.Proof.K.FrameClaim
import proofs.«419832_j8873402433633_3_alg».proof.Proof.KI.Result
import proofs.«419832_j8873402433633_3_alg».proof.Proof.KI.Finite
import proofs.«419832_j8873402433633_3_alg».proof.Proof.RefRunLoss
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_loss m ρ)

/-- Both programs end with the loss of the launch arrays: the kernel's mined over similarities, the reference's over
    distances, equal for the finite embeddings the precondition admits. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (fun _ => Cert.Spec.lossK (Cert.KernelIdeal.Hand.xOf m c) (Cert.KernelIdeal.Hand.lOf m c)), Cert.KernelIdeal.Hand.run_loss m ρ, ?_⟩
  refine (θ_run Cert.ReferenceIdeal.defs _ _).mono (fun _ h c => ⟨(h c).1.trans ?_, (h c).2⟩) (Cert.ReferenceIdeal.RefValue.run_loss m' ρ')
  rw [(hagree c).1, (hagree c).2]
  funext _
  exact (Cert.Spec.loss_eq _ _ (@Cert.KernelIdeal.Hand.finite_of_pre Cert.Pre_finite_inputs.Gen.facts m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
